-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1024x128 .f32) (main_arg1 : IVec S1024x1024 32) (main_arg2 : FVec F S128x128 .f32) (main_arg3 : FVec F S128 .f32) (main_arg4 : FVec F S128x128 .f32) (main_arg5 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S1x128 : Shape := ⟨2, ![1, 128]⟩
abbrev S1024x1 : Shape := ⟨2, ![1024, 1]⟩
abbrev S1x1024x128 : Shape := ⟨3, ![1, 1024, 128]⟩

abbrev nBuf : Space → Nat
  | .hbm => 10
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1024x128, .f32⟩
  | .hbm, ⟨9, _⟩ => ⟨S1x1024x128, .f32⟩
  | .local _ .vmem, ⟨0, _⟩ => ⟨S1024x1024, .i32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  natLt_1_32 : 1 < 32
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1024x1_S1024x128 : S1024x1.Broadcasts S1024x128
  broadcasts_S1x128_S1024x128 : S1x128.Broadcasts S1024x128
  shapeCasts_S1024x128_S1x1024x128 : S1024x128.ShapeCasts S1x1024x128
  dot_S1024x1024_S1024x1_S1024x1_0_0_1_1_n_n_wf : DotDims.WF S1024x1024 S1024x1 S1024x1 [0] [0] [1] [1] [] []
  dot_S1024x128_S128x128_S1024x128_1_0_0_1_n_n_wf : DotDims.WF S1024x128 S128x128 S1024x128 [1] [0] [0] [1] [] []
  dot_S1024x1024_S1024x128_S1024x128_0_0_1_1_n_n_wf : DotDims.WF S1024x1024 S1024x128 S1024x128 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S1x1024x128 : Shape := ⟨3, ![1, 1024, 128]⟩
abbrev S1048576 : Shape := ⟨1, ![1048576]⟩
abbrev S_ : Shape := ⟨0, ![]⟩
abbrev S1024 : Shape := ⟨1, ![1024]⟩
abbrev S1049600 : Shape := ⟨1, ![1049600]⟩
abbrev S1049600x1 : Shape := ⟨2, ![1049600, 1]⟩
abbrev S1 : Shape := ⟨1, ![1]⟩
abbrev S1x1 : Shape := ⟨2, ![1, 1]⟩
abbrev S1049600x128 : Shape := ⟨2, ![1049600, 128]⟩
abbrev S1x128 : Shape := ⟨2, ![1, 128]⟩

abbrev nBuf : Space → Nat
  | .hbm => 244
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S128, .f32⟩
  | 4 => ⟨S128x128, .f32⟩
  | 5 => ⟨S128, .f32⟩
  | 6 => ⟨S1x1024x128, .f32⟩
  | 7 => ⟨S1024x128, .f32⟩
  | 8 => ⟨S1048576, .i32⟩
  | 9 => ⟨S_, .i32⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S1048576, .i32⟩
  | 18 => ⟨S1048576, .i32⟩
  | 19 => ⟨S_, .i32⟩
  | 20 => ⟨S1048576, .i32⟩
  | 21 => ⟨S1048576, .i1⟩
  | 22 => ⟨S1048576, .i1⟩
  | 23 => ⟨S_, .i32⟩
  | 24 => ⟨S1048576, .i32⟩
  | 25 => ⟨S1048576, .i32⟩
  | 26 => ⟨S1048576, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S1048576, .i32⟩
  | 34 => ⟨S1048576, .i32⟩
  | 35 => ⟨S_, .i32⟩
  | 36 => ⟨S1048576, .i32⟩
  | 37 => ⟨S1048576, .i1⟩
  | 38 => ⟨S_, .i32⟩
  | 39 => ⟨S1048576, .i32⟩
  | 40 => ⟨S1048576, .i1⟩
  | 41 => ⟨S_, .i32⟩
  | 42 => ⟨S_, .i1⟩
  | 43 => ⟨S1048576, .i1⟩
  | 44 => ⟨S1048576, .i1⟩
  | 45 => ⟨S1048576, .i1⟩
  | 46 => ⟨S1048576, .i32⟩
  | 47 => ⟨S1048576, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S1048576, .f32⟩
  | 54 => ⟨S1024, .i32⟩
  | 55 => ⟨S1049600, .i32⟩
  | 56 => ⟨S1049600, .i32⟩
  | 57 => ⟨S_, .f32⟩
  | 58 => ⟨S1024, .f32⟩
  | 59 => ⟨S1049600, .f32⟩
  | 60 => ⟨S_, .f32⟩
  | 61 => ⟨S1024, .f32⟩
  | 62 => ⟨S_, .i32⟩
  | 63 => ⟨S1049600, .i32⟩
  | 64 => ⟨S1049600, .i1⟩
  | 65 => ⟨S_, .i32⟩
  | 66 => ⟨S1049600, .i32⟩
  | 67 => ⟨S1049600, .i32⟩
  | 68 => ⟨S1049600, .i32⟩
  | 69 => ⟨S1049600x1, .i32⟩
  | 70 => ⟨S1024, .f32⟩
  | 71 => ⟨S_, .f32⟩
  | 72 => ⟨S1024, .f32⟩
  | 73 => ⟨S1024, .i1⟩
  | 74 => ⟨S_, .f32⟩
  | 75 => ⟨S1024, .f32⟩
  | 76 => ⟨S1024, .i1⟩
  | 77 => ⟨S_, .f32⟩
  | 78 => ⟨S_, .f32⟩
  | 79 => ⟨S1024, .f32⟩
  | 80 => ⟨S1024, .f32⟩
  | 81 => ⟨S1024, .f32⟩
  | 82 => ⟨S_, .f32⟩
  | 83 => ⟨S_, .f32⟩
  | 84 => ⟨S1024, .f32⟩
  | 85 => ⟨S1024, .f32⟩
  | 86 => ⟨S_, .i32⟩
  | 87 => ⟨S1049600, .i32⟩
  | 88 => ⟨S1049600, .i1⟩
  | 89 => ⟨S_, .i32⟩
  | 90 => ⟨S1049600, .i32⟩
  | 91 => ⟨S1049600, .i32⟩
  | 92 => ⟨S1049600, .i32⟩
  | 93 => ⟨S1049600x1, .i32⟩
  | 94 => ⟨S1049600, .f32⟩
  | 95 => ⟨S_, .i32⟩
  | 96 => ⟨S1049600, .i32⟩
  | 97 => ⟨S1049600, .i1⟩
  | 98 => ⟨S_, .i32⟩
  | 99 => ⟨S1049600, .i32⟩
  | 100 => ⟨S1049600, .i32⟩
  | 101 => ⟨S1049600, .i32⟩
  | 102 => ⟨S1049600x1, .i32⟩
  | 103 => ⟨S1049600, .f32⟩
  | 104 => ⟨S1049600, .f32⟩
  | 105 => ⟨S1049600, .f32⟩
  | 106 => ⟨S1024x128, .f32⟩
  | 107 => ⟨S_, .i32⟩
  | 108 => ⟨S1049600, .i32⟩
  | 109 => ⟨S1049600, .i1⟩
  | 110 => ⟨S_, .i32⟩
  | 111 => ⟨S1049600, .i32⟩
  | 112 => ⟨S1049600, .i32⟩
  | 113 => ⟨S1049600, .i32⟩
  | 114 => ⟨S1049600x1, .i32⟩
  | 115 => ⟨S1, .i32⟩
  | 116 => ⟨S_, .i32⟩
  | 117 => ⟨S1049600x1, .i32⟩
  | 118 => ⟨S1049600x1, .i1⟩
  | 119 => ⟨S1x1, .i32⟩
  | 120 => ⟨S1049600x1, .i32⟩
  | 121 => ⟨S1049600x1, .i1⟩
  | 122 => ⟨S1049600x1, .i1⟩
  | 123 => ⟨S_, .i1⟩
  | 124 => ⟨S1049600, .i1⟩
  | 125 => ⟨S1049600x128, .f32⟩
  | 126 => ⟨S1049600x128, .i1⟩
  | 127 => ⟨S_, .f32⟩
  | _ => ⟨S1024x128, .f32⟩

abbrev hbmTy0_1 (i : Nat) : BufTy := match i % 128 with
  | 0 => ⟨S1049600x128, .f32⟩
  | 1 => ⟨S1049600x128, .f32⟩
  | 2 => ⟨S1049600x1, .f32⟩
  | 3 => ⟨S1049600x128, .f32⟩
  | 4 => ⟨S1049600x128, .f32⟩
  | 5 => ⟨S_, .f32⟩
  | 6 => ⟨S1024x128, .f32⟩
  | 7 => ⟨S_, .i32⟩
  | 8 => ⟨S1049600, .i32⟩
  | 9 => ⟨S1049600, .i1⟩
  | 10 => ⟨S_, .i32⟩
  | 11 => ⟨S1049600, .i32⟩
  | 12 => ⟨S1049600, .i32⟩
  | 13 => ⟨S1049600, .i32⟩
  | 14 => ⟨S1049600x1, .i32⟩
  | 15 => ⟨S1024x128, .f32⟩
  | 16 => ⟨S1x128, .f32⟩
  | 17 => ⟨S1024x128, .f32⟩
  | 18 => ⟨S1024x128, .f32⟩
  | 19 => ⟨S_, .f32⟩
  | 20 => ⟨S1024x128, .f32⟩
  | 21 => ⟨S1024x128, .f32⟩
  | 22 => ⟨S1024, .i32⟩
  | 23 => ⟨S1049600, .i32⟩
  | 24 => ⟨S1049600, .i32⟩
  | 25 => ⟨S_, .f32⟩
  | 26 => ⟨S1024, .f32⟩
  | 27 => ⟨S1049600, .f32⟩
  | 28 => ⟨S_, .f32⟩
  | 29 => ⟨S1024, .f32⟩
  | 30 => ⟨S_, .i32⟩
  | 31 => ⟨S1049600, .i32⟩
  | 32 => ⟨S1049600, .i1⟩
  | 33 => ⟨S_, .i32⟩
  | 34 => ⟨S1049600, .i32⟩
  | 35 => ⟨S1049600, .i32⟩
  | 36 => ⟨S1049600, .i32⟩
  | 37 => ⟨S1049600x1, .i32⟩
  | 38 => ⟨S1024, .f32⟩
  | 39 => ⟨S_, .f32⟩
  | 40 => ⟨S1024, .f32⟩
  | 41 => ⟨S1024, .i1⟩
  | 42 => ⟨S_, .f32⟩
  | 43 => ⟨S1024, .f32⟩
  | 44 => ⟨S1024, .i1⟩
  | 45 => ⟨S_, .f32⟩
  | 46 => ⟨S_, .f32⟩
  | 47 => ⟨S1024, .f32⟩
  | 48 => ⟨S1024, .f32⟩
  | 49 => ⟨S1024, .f32⟩
  | 50 => ⟨S_, .f32⟩
  | 51 => ⟨S_, .f32⟩
  | 52 => ⟨S1024, .f32⟩
  | 53 => ⟨S1024, .f32⟩
  | 54 => ⟨S_, .i32⟩
  | 55 => ⟨S1049600, .i32⟩
  | 56 => ⟨S1049600, .i1⟩
  | 57 => ⟨S_, .i32⟩
  | 58 => ⟨S1049600, .i32⟩
  | 59 => ⟨S1049600, .i32⟩
  | 60 => ⟨S1049600, .i32⟩
  | 61 => ⟨S1049600x1, .i32⟩
  | 62 => ⟨S1049600, .f32⟩
  | 63 => ⟨S_, .i32⟩
  | 64 => ⟨S1049600, .i32⟩
  | 65 => ⟨S1049600, .i1⟩
  | 66 => ⟨S_, .i32⟩
  | 67 => ⟨S1049600, .i32⟩
  | 68 => ⟨S1049600, .i32⟩
  | 69 => ⟨S1049600, .i32⟩
  | 70 => ⟨S1049600x1, .i32⟩
  | 71 => ⟨S1049600, .f32⟩
  | 72 => ⟨S1049600, .f32⟩
  | 73 => ⟨S1049600, .f32⟩
  | 74 => ⟨S1024x128, .f32⟩
  | 75 => ⟨S_, .i32⟩
  | 76 => ⟨S1049600, .i32⟩
  | 77 => ⟨S1049600, .i1⟩
  | 78 => ⟨S_, .i32⟩
  | 79 => ⟨S1049600, .i32⟩
  | 80 => ⟨S1049600, .i32⟩
  | 81 => ⟨S1049600, .i32⟩
  | 82 => ⟨S1049600x1, .i32⟩
  | 83 => ⟨S1, .i32⟩
  | 84 => ⟨S_, .i32⟩
  | 85 => ⟨S1049600x1, .i32⟩
  | 86 => ⟨S1049600x1, .i1⟩
  | 87 => ⟨S1x1, .i32⟩
  | 88 => ⟨S1049600x1, .i32⟩
  | 89 => ⟨S1049600x1, .i1⟩
  | 90 => ⟨S1049600x1, .i1⟩
  | 91 => ⟨S_, .i1⟩
  | 92 => ⟨S1049600, .i1⟩
  | 93 => ⟨S1049600x128, .f32⟩
  | 94 => ⟨S1049600x128, .i1⟩
  | 95 => ⟨S_, .f32⟩
  | 96 => ⟨S1049600x128, .f32⟩
  | 97 => ⟨S1049600x128, .f32⟩
  | 98 => ⟨S1049600x1, .f32⟩
  | 99 => ⟨S1049600x128, .f32⟩
  | 100 => ⟨S1049600x128, .f32⟩
  | 101 => ⟨S_, .f32⟩
  | 102 => ⟨S1024x128, .f32⟩
  | 103 => ⟨S_, .i32⟩
  | 104 => ⟨S1049600, .i32⟩
  | 105 => ⟨S1049600, .i1⟩
  | 106 => ⟨S_, .i32⟩
  | 107 => ⟨S1049600, .i32⟩
  | 108 => ⟨S1049600, .i32⟩
  | 109 => ⟨S1049600, .i32⟩
  | 110 => ⟨S1049600x1, .i32⟩
  | 111 => ⟨S1024x128, .f32⟩
  | 112 => ⟨S1x128, .f32⟩
  | 113 => ⟨S1024x128, .f32⟩
  | 114 => ⟨S1024x128, .f32⟩
  | 115 => ⟨S1x1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v4 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst : Ref sig .tc := ⟨.hbm, 57, rfl⟩
abbrev main_v12 : Ref sig .tc := ⟨.hbm, 58, rfl⟩
abbrev main_v13 : Ref sig .tc := ⟨.hbm, 59, rfl⟩
abbrev main_cst_2 : Ref sig .tc := ⟨.hbm, 60, rfl⟩
abbrev main_v14 : Ref sig .tc := ⟨.hbm, 61, rfl⟩
abbrev main_c_3 : Ref sig .tc := ⟨.hbm, 62, rfl⟩
abbrev main_v15 : Ref sig .tc := ⟨.hbm, 63, rfl⟩
abbrev main_v16 : Ref sig .tc := ⟨.hbm, 64, rfl⟩
abbrev main_c_4 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_5 : Ref sig .tc := ⟨.hbm, 71, rfl⟩
abbrev main_v22 : Ref sig .tc := ⟨.hbm, 72, rfl⟩
abbrev main_v23 : Ref sig .tc := ⟨.hbm, 73, rfl⟩
abbrev main_cst_6 : Ref sig .tc := ⟨.hbm, 74, rfl⟩
abbrev main_v24 : Ref sig .tc := ⟨.hbm, 75, rfl⟩
abbrev main_v25 : Ref sig .tc := ⟨.hbm, 76, rfl⟩
abbrev main_cst_7 : Ref sig .tc := ⟨.hbm, 77, rfl⟩
abbrev main_call2_v0 : Ref sig .tc := ⟨.hbm, 78, rfl⟩
abbrev main_call2_v1 : Ref sig .tc := ⟨.hbm, 79, rfl⟩
abbrev main_v26 : Ref sig .tc := ⟨.hbm, 80, rfl⟩
abbrev main_v27 : Ref sig .tc := ⟨.hbm, 81, rfl⟩
abbrev main_cst_8 : Ref sig .tc := ⟨.hbm, 82, rfl⟩
abbrev main_call3_v0 : Ref sig .tc := ⟨.hbm, 83, rfl⟩
abbrev main_call3_v1 : Ref sig .tc := ⟨.hbm, 84, rfl⟩
abbrev main_v28 : Ref sig .tc := ⟨.hbm, 85, rfl⟩
abbrev main_c_9 : Ref sig .tc := ⟨.hbm, 86, rfl⟩
abbrev main_v29 : Ref sig .tc := ⟨.hbm, 87, rfl⟩
abbrev main_v30 : Ref sig .tc := ⟨.hbm, 88, rfl⟩
abbrev main_c_10 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_c_11 : Ref sig .tc := ⟨.hbm, 95, rfl⟩
abbrev main_v36 : Ref sig .tc := ⟨.hbm, 96, rfl⟩
abbrev main_v37 : Ref sig .tc := ⟨.hbm, 97, rfl⟩
abbrev main_c_12 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_v14 : Ref sig .tc := ⟨.hbm, 126, rfl⟩
abbrev main_call4_cst : Ref sig .tc := ⟨.hbm, 127, rfl⟩
abbrev main_call4_v15 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_cst_13 : Ref sig .tc := ⟨.hbm, 133, rfl⟩
abbrev main_v50 : Ref sig .tc := ⟨.hbm, 134, rfl⟩
abbrev main_c_14 : Ref sig .tc := ⟨.hbm, 135, rfl⟩
abbrev main_v51 : Ref sig .tc := ⟨.hbm, 136, rfl⟩
abbrev main_v52 : Ref sig .tc := ⟨.hbm, 137, rfl⟩
abbrev main_c_15 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_call5_cst : Ref sig .tc := ⟨.hbm, 147, rfl⟩
abbrev main_call5_v0 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_cst_16 : Ref sig .tc := ⟨.hbm, 153, rfl⟩
abbrev main_v65 : Ref sig .tc := ⟨.hbm, 154, rfl⟩
abbrev main_v66 : Ref sig .tc := ⟨.hbm, 155, rfl⟩
abbrev main_cst_17 : Ref sig .tc := ⟨.hbm, 156, rfl⟩
abbrev main_v67 : Ref sig .tc := ⟨.hbm, 157, rfl⟩
abbrev main_c_18 : Ref sig .tc := ⟨.hbm, 158, rfl⟩
abbrev main_v68 : Ref sig .tc := ⟨.hbm, 159, rfl⟩
abbrev main_v69 : Ref sig .tc := ⟨.hbm, 160, rfl⟩
abbrev main_c_19 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_cst_20 : Ref sig .tc := ⟨.hbm, 167, rfl⟩
abbrev main_v75 : Ref sig .tc := ⟨.hbm, 168, rfl⟩
abbrev main_v76 : Ref sig .tc := ⟨.hbm, 169, rfl⟩
abbrev main_cst_21 : Ref sig .tc := ⟨.hbm, 170, rfl⟩
abbrev main_v77 : Ref sig .tc := ⟨.hbm, 171, rfl⟩
abbrev main_v78 : Ref sig .tc := ⟨.hbm, 172, rfl⟩
abbrev main_cst_22 : Ref sig .tc := ⟨.hbm, 173, rfl⟩
abbrev main_call6_v0 : Ref sig .tc := ⟨.hbm, 174, rfl⟩
abbrev main_call6_v1 : Ref sig .tc := ⟨.hbm, 175, rfl⟩
abbrev main_v79 : Ref sig .tc := ⟨.hbm, 176, rfl⟩
abbrev main_v80 : Ref sig .tc := ⟨.hbm, 177, rfl⟩
abbrev main_cst_23 : Ref sig .tc := ⟨.hbm, 178, rfl⟩
abbrev main_call7_v0 : Ref sig .tc := ⟨.hbm, 179, rfl⟩
abbrev main_call7_v1 : Ref sig .tc := ⟨.hbm, 180, rfl⟩
abbrev main_v81 : Ref sig .tc := ⟨.hbm, 181, rfl⟩
abbrev main_c_24 : Ref sig .tc := ⟨.hbm, 182, rfl⟩
abbrev main_v82 : Ref sig .tc := ⟨.hbm, 183, rfl⟩
abbrev main_v83 : Ref sig .tc := ⟨.hbm, 184, rfl⟩
abbrev main_c_25 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_c_26 : Ref sig .tc := ⟨.hbm, 191, rfl⟩
abbrev main_v89 : Ref sig .tc := ⟨.hbm, 192, rfl⟩
abbrev main_v90 : Ref sig .tc := ⟨.hbm, 193, rfl⟩
abbrev main_c_27 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_call8_c : Ref sig .tc := ⟨.hbm, 203, rfl⟩
abbrev main_call8_v0 : Ref sig .tc := ⟨.hbm, 204, rfl⟩
abbrev main_call8_v1 : Ref sig .tc := ⟨.hbm, 205, rfl⟩
abbrev main_call8_c_0 : Ref sig .tc := ⟨.hbm, 206, rfl⟩
abbrev main_call8_v2 : Ref sig .tc := ⟨.hbm, 207, rfl⟩
abbrev main_call8_v3 : Ref sig .tc := ⟨.hbm, 208, rfl⟩
abbrev main_call8_v4 : Ref sig .tc := ⟨.hbm, 209, rfl⟩
abbrev main_call8_v5 : Ref sig .tc := ⟨.hbm, 210, rfl⟩
abbrev main_call8_c_1 : Ref sig .tc := ⟨.hbm, 211, rfl⟩
abbrev main_call8_c_2 : Ref sig .tc := ⟨.hbm, 212, rfl⟩
abbrev main_call8_v6 : Ref sig .tc := ⟨.hbm, 213, rfl⟩
abbrev main_call8_v7 : Ref sig .tc := ⟨.hbm, 214, rfl⟩
abbrev main_call8_v8 : Ref sig .tc := ⟨.hbm, 215, rfl⟩
abbrev main_call8_v9 : Ref sig .tc := ⟨.hbm, 216, rfl⟩
abbrev main_call8_v10 : Ref sig .tc := ⟨.hbm, 217, rfl⟩
abbrev main_call8_v11 : Ref sig .tc := ⟨.hbm, 218, rfl⟩
abbrev main_call8_c_3 : Ref sig .tc := ⟨.hbm, 219, rfl⟩
abbrev main_call8_v12 : Ref sig .tc := ⟨.hbm, 220, rfl⟩
abbrev main_call8_v13 : Ref sig .tc := ⟨.hbm, 221, rfl⟩
abbrev main_call8_v14 : Ref sig .tc := ⟨.hbm, 222, rfl⟩
abbrev main_call8_cst : Ref sig .tc := ⟨.hbm, 223, rfl⟩
abbrev main_call8_v15 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_cst_28 : Ref sig .tc := ⟨.hbm, 229, rfl⟩
abbrev main_v103 : Ref sig .tc := ⟨.hbm, 230, rfl⟩
abbrev main_c_29 : Ref sig .tc := ⟨.hbm, 231, rfl⟩
abbrev main_v104 : Ref sig .tc := ⟨.hbm, 232, rfl⟩
abbrev main_v105 : Ref sig .tc := ⟨.hbm, 233, rfl⟩
abbrev main_c_30 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩

abbrev nD : Nat := 1
abbrev τ : Topo := Topo.v7x

variable {F : FTy → Type} [FloatOps F]

class Facts₀ : Prop where
  bcast_S1024x128_S1x1024x128_1_2 : S1024x128.BroadcastsInDim S1x1024x128 (![1, 2] : Fin 2 → Fin S1x1024x128.rank)
  shapeCasts_S1x1024x128_S1024x128 : S1x1024x128.ShapeCasts S1024x128
  bcast_S_S1048576 : S_.BroadcastsInDim S1048576 (![] : Fin 0 → Fin S1048576.rank)
  shapeCasts_S1024x1024_S1048576 : S1024x1024.ShapeCasts S1048576
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S_S1049600x1 : S_.BroadcastsInDim S1049600x1 (![] : Fin 0 → Fin S1049600x1.rank)
  bcast_S1_S1x1_1 : S1.BroadcastsInDim S1x1 (![1] : Fin 1 → Fin S1x1.rank)
  bcast_S1x1_S1049600x1_0_1 : S1x1.BroadcastsInDim S1049600x1 (![0, 1] : Fin 2 → Fin S1049600x1.rank)
  reducesTo_S1049600x1_S1049600_d1 : S1049600x1.ReducesTo [1] S1049600
  h_S_ : 0 < S_.numel
  bcast_S1049600_S1049600x128_0 : S1049600.BroadcastsInDim S1049600x128 (![0] : Fin 1 → Fin S1049600x128.rank)
  bcast_S_S1049600x128 : S_.BroadcastsInDim S1049600x128 (![] : Fin 0 → Fin S1049600x128.rank)
  bcast_S1049600x1_S1049600x128_0_1 : S1049600x1.BroadcastsInDim S1049600x128 (![0, 1] : Fin 2 → Fin S1049600x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  shapeCasts_S1024x128_S1x1024x128 : S1024x128.ShapeCasts S1x1024x128
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  dot_S1024x128_S128x128_S1024x128_1_0_0_1_n_n_wf : DotDims.WF S1024x128 S128x128 S1024x128 [1] [0] [0] [1] [] []
  gather_S1024x128_S1049600x1_S1049600x128_1_0_n_n_0_1_1128_wf : GatherDims.WF S1024x128 S1049600x1 S1049600x128 [1] [0] [] [0] [] 1 ![1, 128]
  scatter_S1024x128_S1049600x1_S1049600x128_1_0_0_1_wf : ScatterDims.WF S1024x128 S1049600x1 S1049600x128 [1] [0] [0] 1

variable [Facts₀]

def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1049600x1_S1049600x128_1_0_n_n_0_1_1128 : GatherDims S1024x128 S1049600x1 S1049600x128 where
  offsetDims := [1]
  collapsedSliceDims := [0]
  operandBatchingDims := []
  startIndicesBatchingDims := []
  startIndexMap := [0]
  indexVectorDim := 1
  sliceSizes := ![1, 128]
  wf := gather_S1024x128_S1049600x1_S1049600x128_1_0_n_n_0_1_1128_wf
def scatter_S1024x128_S1049600x1_S1049600x128_1_0_0_1 : ScatterDims S1024x128 S1049600x1 S1049600x128 where
  updateWindowDims := [1]
  insertedWindowDims := [0]
  scatterDimsToOperandDims := [0]
  indexVectorDim := 1
  wf := scatter_S1024x128_S1049600x1_S1049600x128_1_0_0_1_wf

class Facts : Prop extends Facts₀ where

variable [Facts]
-- ==== Proof.Spec.lean ====
/-
  The two-layer graph convolution, as one function of the argument arrays over the extended reals.

  The adjacency weight of the pair (r, c) is 1 where the adjacency word is not zero and 0 where it is. The degree of a
  node c is one more than the number of r with weight 1 at (r, c): a real number, at least 1, whatever the inputs hold,
  so its inverse square root is a real number too, and not negative. One propagation step of node features H with
  bias b is, at node c and feature f,

      dinv c · Σ_r adj r c · (H r f · dinv r)  +  (dinv c · dinv c) · H c f  +  b f,

  and the network is: features X times W1, one step with b1, the positive part, times W2, one step with b2.
  Every sum and product here is the extended reals' own; the only law the two programs' arrangements of this
  function need beyond commutativity and associativity is that a NON-NEGATIVE REAL factor distributes over a finite sum
  of extended reals, which holds with infinite summands too.
-/
import Idealize.ShloMosaic.PureOps.Ideal
import Idealize.ShloMosaic.Lib.ValueIdx

noncomputable section

namespace Cert.Gcn

open Idealize.ShloMosaic Idealize.ShloMosaic.ValueIdx

/-- The array types of the arguments and of the result, at the ideal instance. -/
abbrev XArr := (⟨2, ![1024, 128]⟩ : Shape).Idx → EReal
abbrev AArr := (⟨2, ![1024, 1024]⟩ : Shape).Idx → BitVec 32
abbrev WArr := (⟨2, ![128, 128]⟩ : Shape).Idx → EReal
abbrev BArr := (⟨1, ![128]⟩ : Shape).Idx → EReal
abbrev OArr := (⟨3, ![1, 1024, 128]⟩ : Shape).Idx → EReal

/-- The weight of an adjacency word: 1 if it is not zero, else 0. -/
def wt (a : BitVec 32) : ℝ := if a = 0#32 then 0 else 1

theorem wt_nonneg (a : BitVec 32) : 0 ≤ wt a := by unfold wt; split <;> norm_num

/-- The weight of the pair (r, c), as an extended real. -/
def adj (A : AArr) (r c : Fin 1024) : EReal := ((wt (A (ix2 r c)) : ℝ) : EReal)

/-- The degree of node c with its self loop: a real number. -/
def degR (A : AArr) (c : Fin 1024) : ℝ := (∑ r : Fin 1024, wt (A (ix2 r c))) + 1

theorem degR_pos (A : AArr) (c : Fin 1024) : 0 < degR A c := by
  unfold degR
  have : 0 ≤ ∑ r : Fin 1024, wt (A (ix2 r c)) := Finset.sum_nonneg fun r _ => wt_nonneg _
  linarith

/-- The inverse square root of the degree: a real number, not negative. -/
def dinvR (A : AArr) (c : Fin 1024) : ℝ := (Real.sqrt (degR A c))⁻¹

theorem dinvR_nonneg (A : AArr) (c : Fin 1024) : 0 ≤ dinvR A c := inv_nonneg.2 (Real.sqrt_nonneg _)

def deg (A : AArr) (c : Fin 1024) : EReal := ((degR A c : ℝ) : EReal)
def dinv (A : AArr) (c : Fin 1024) : EReal := ((dinvR A c : ℝ) : EReal)

/-- The cast of a finite sum of reals is the sum of the casts. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The degree is the sum of the column's weights, plus one. -/
theorem deg_eq_sum (A : AArr) (c : Fin 1024) : deg A c = (∑ r : Fin 1024, adj A r c) + 1 := by
  unfold deg degR adj
  rw [EReal.coe_add, coe_sum, EReal.coe_one]

theorem deg_pos (A : AArr) (c : Fin 1024) : (0 : EReal) < deg A c := by
  unfold deg; exact_mod_cast degR_pos A c

/-- The ideal inverse square root of the degree is the real one. -/
theorem rsqrt_deg (A : AArr) (c : Fin 1024) : Ideal.rsqrt (deg A c) = dinv A c := by
  have h := degR_pos A c
  show (if degR A c < 0 then (⊥ : EReal) else if degR A c = 0 then ⊤ else (((Real.sqrt (degR A c))⁻¹ : ℝ) : EReal)) = _
  rw [if_neg (not_lt.2 h.le), if_neg h.ne']
  rfl

/-- A non-negative real factor distributes over the sum of two extended reals. -/
theorem coe_mul_add {a : ℝ} (ha : 0 ≤ a) (x y : EReal) : (a : EReal) * (x + y) = (a : EReal) * x + (a : EReal) * y :=
  EReal.left_distrib_of_nonneg_of_ne_top (by exact_mod_cast ha) (EReal.coe_ne_top a) x y

/-- A non-negative real factor distributes over a finite sum of extended reals. -/
theorem coe_mul_sum {ι : Type*} {a : ℝ} (ha : 0 ≤ a) (s : Finset ι) (f : ι → EReal) :
    (a : EReal) * ∑ i ∈ s, f i = ∑ i ∈ s, (a : EReal) * f i := by
  classical
  induction s using Finset.induction_on with
  | empty => simp
  | insert b s hb ih => rw [Finset.sum_insert hb, Finset.sum_insert hb, coe_mul_add ha, ih]

/-- A feature matrix times a weight matrix. -/
def mm (H : Fin 1024 → Fin 128 → EReal) (W : WArr) (n : Fin 1024) (f : Fin 128) : EReal :=
  ∑ k : Fin 128, H n k * W (ix2 k f)

/-- One propagation step. -/
def prop (A : AArr) (H : Fin 1024 → Fin 128 → EReal) (b : BArr) (c : Fin 1024) (f : Fin 128) : EReal :=
  dinv A c * (∑ r : Fin 1024, adj A r c * (H r f * dinv A r)) + dinv A c * dinv A c * H c f + b (ix1 f)

/-- The hidden layer: the first step's positive part. -/
def hidden (X : XArr) (A : AArr) (W1 : WArr) (b1 : BArr) (n : Fin 1024) (f : Fin 128) : EReal :=
  max (prop A (mm (fun n k => X (ix2 n k)) W1) b1 n f) 0

/-- The network's result, as a function of the node and the feature. -/
def net (X : XArr) (A : AArr) (W1 : WArr) (b1 : BArr) (W2 : WArr) (b2 : BArr) (n : Fin 1024) (f : Fin 128) : EReal :=
  prop A (mm (hidden X A W1 b1) W2) b2 n f

/-- The network's result as the array both programs return (a leading axis of extent 1). -/
def out (X : XArr) (A : AArr) (W1 : WArr) (b1 : BArr) (W2 : WArr) (b2 : BArr) : OArr :=
  fun i => net X A W1 b1 W2 b2 (i 1) (i 2)

/-- The same step in the edge-list arrangement: each source node r contributes its features times the product of the
    two ends' inverse square roots and the pair's weight; the node's own self loop has weight one. -/
theorem prop_eq_edges (A : AArr) (H : Fin 1024 → Fin 128 → EReal) (b : BArr) (c : Fin 1024) (f : Fin 128) :
    (∑ r : Fin 1024, H r f * (dinv A r * dinv A c * adj A r c)) + H c f * (dinv A c * dinv A c * 1) + b (ix1 f)
      = prop A H b c f := by
  unfold prop
  rw [show dinv A c = ((dinvR A c : ℝ) : EReal) from rfl, coe_mul_sum (dinvR_nonneg A c)]
  congr 1; congr 1
  · refine Finset.sum_congr rfl fun r _ => ?_
    ac_rfl
  · rw [mul_one, mul_comm]

end Cert.Gcn

end
-- ==== Proof.KernelValue.lean ====
/-
  The kernel body's stored value at an entry, at the ideal instance, is the network of the blocks it loaded.

  The body computes the adjacency weights as the signed conversion of the zero-extended "not zero" bit, the degrees as
  the product of the weights' transpose with a column of ones plus one, their inverse square roots and those squared,
  then twice: features times a weight matrix, each row scaled by its node's inverse square root, aggregated by the
  weights' transpose, scaled again, plus the squared factor times the node's own features, plus the bias; between the
  two layers the positive part. A matrix product into a zero accumulator is the plain sum over the contracted axis.
-/
import proofs.«140009_g35596688949519_fold_wed_c4_25_2_alg».proof.Proof.Gen.KernelIdeal.Skeleton
import proofs.«140009_g35596688949519_fold_wed_c4_25_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GcnValue

open Idealize.ShloMosaic Idealize.ShloMosaic.ValueIdx Idealize.SL.Sem Cert.KernelIdeal Cert.KernelIdeal.Gen
open Cert.KernelIdeal.Facts₀ Cert.KernelIdeal.Facts

variable [Cert.KernelIdeal.Facts]

/-- A [1, 128] row read as a bias over the features. -/
def rowBias (v : Vec Ideal S1x128 .f32) : Cert.Gcn.BArr := fun j => v (ix2 (0 : Fin 1) (j 0))

/-! ## The weights -/

/-- The word 0x3F800000 denotes the real number 1. -/
theorem one_f32 : Ideal.ofBits .f32 0x3F800000#32 = 1 := IdealRules.sign_bit.ideal_onePat .f32

/-- The weight at (r, c): the signed conversion of the zero-extended "not zero" bit. -/
theorem pay2_apply (v0 : Vec Ideal S1024x1024 .i32) (r c : Fin 1024) :
    k0_pay2 (F := Ideal) v0 (ix2 r c) = Cert.Gcn.adj v0 r c := by
  unfold k0_pay2
  show ((((IntOp.cmpi .ne (v0 (ix2 r c)) 0#32).setWidth 32).toInt : ℝ) : EReal) = _
  unfold Cert.Gcn.adj Cert.Gcn.wt
  by_cases h : v0 (ix2 r c) = 0#32
  · rw [h, if_pos rfl]
    have e : (IntOp.cmpi .ne (0#32) 0#32).setWidth 32 = 0#32 := by decide
    rw [e]; simp
  · rw [if_neg h]
    have e : IntOp.cmpi .ne (v0 (ix2 r c)) 0#32 = 1#1 := by
      unfold IntOp.cmpi
      show BitVec.ofBool (v0 (ix2 r c) != 0#32) = 1#1
      rw [bne_iff_ne.mpr h]; rfl
    rw [e]
    have e' : ((1#1 : BitVec 1).setWidth 32).toInt = 1 := by decide
    rw [e']; simp

/-! ## The three products read at an index -/

/-- Features times weights: on the left operand, axis 0 is the result's row … -/
theorem lhs_fw_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … and axis 1 the contracted coordinate; -/
theorem lhs_fw_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- on the right operand, axis 0 is the contracted coordinate … -/
theorem rhs_fw_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- … and axis 1 the result's column. -/
theorem rhs_fw_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Features times weights into a zero accumulator, at (n, f): the sum over k of a (n, k) · b (k, f). -/
theorem fw_apply (a : FVec Ideal S1024x128 .f32) (b : FVec Ideal S128x128 .f32) (n : Fin 1024) (f : Fin 128) :
    matmul dot_S1024x128_S128x128_S1024x128_1_0_0_1_n_n (some .fp32) a b (constant (F := Ideal) S1024x128 .f32 0x00000000#32) (ix2 n f)
      = ∑ k : Fin 128, a (ix2 n k) * b (ix2 k f) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n f) ((contrEquiv1 dot_S1024x128_S128x128_S1024x128_1_0_0_1_n_n 128 rfl rfl).symm k) = ix2 n k := funext fun ax => Fin.ext (by
    match ax with
    | ⟨0, _⟩ => exact lhs_fw_0 _ _
    | ⟨1, _⟩ => exact (lhs_fw_1 _ _).trans hk)
  have er : dot_S1024x128_S128x128_S1024x128_1_0_0_1_n_n.rhsIdx (ix2 n f) ((contrEquiv1 dot_S1024x128_S128x128_S1024x128_1_0_0_1_n_n 128 rfl rfl).symm k) = ix2 k f := funext fun ax => Fin.ext (by
    match ax with
    | ⟨0, _⟩ => exact (rhs_fw_0 _ _).trans hk
    | ⟨1, _⟩ => exact rhs_fw_1 _ _)
  rw [el, er]

/-- The weights' transpose times a column: on the left operand, axis 0 is the contracted coordinate … -/
theorem lhs_col_0 (i : S1024x1.Idx) (q : dot_S1024x1024_S1024x1_S1024x1_0_0_1_1_n_n.contr.Idx) :
    (dot_S1024x1024_S1024x1_S1024x1_0_0_1_1_n_n.lhsIdx i q 0).val = (q ⟨0, by decide⟩).val :=
  dot_S1024x1024_S1024x1_S1024x1_0_0_1_1_n_n.lhsIdx_val_of_single rfl i q
/-- … and axis 1 the result's row; -/
theorem lhs_col_1 (i : S1024x1.Idx) (q : dot_S1024x1024_S1024x1_S1024x1_0_0_1_1_n_n.contr.Idx) :
    (dot_S1024x1024_S1024x1_S1024x1_0_0_1_1_n_n.lhsIdx i q 1).val = (i 0).val := by
  unfold DotDims.lhsIdx
  rw [dif_neg (show ¬(1 : Fin S1024x1024.rank) ∈ dot_S1024x1024_S1024x1_S1024x1_0_0_1_1_n_n.lhsBatch by decide), dif_pos (show (1 : Fin S1024x1024.rank) ∈ dot_S1024x1024_S1024x1_S1024x1_0_0_1_1_n_n.lhsNonContracting by decide)]
  rfl
/-- on the right operand, axis 0 is the contracted coordinate … -/
theorem rhs_col_0 (i : S1024x1.Idx) (q : dot_S1024x1024_S1024x1_S1024x1_0_0_1_1_n_n.contr.Idx) :
    (dot_S1024x1024_S1024x1_S1024x1_0_0_1_1_n_n.rhsIdx i q 0).val = (q ⟨0, by decide⟩).val :=
  dot_S1024x1024_S1024x1_S1024x1_0_0_1_1_n_n.rhsIdx_val_of_single rfl i q
/-- … and axis 1 the result's column. -/
theorem rhs_col_1 (i : S1024x1.Idx) (q : dot_S1024x1024_S1024x1_S1024x1_0_0_1_1_n_n.contr.Idx) :
    (dot_S1024x1024_S1024x1_S1024x1_0_0_1_1_n_n.rhsIdx i q 1).val = (i 1).val := by
  unfold DotDims.rhsIdx
  rw [dif_neg (show ¬(1 : Fin S1024x1.rank) ∈ dot_S1024x1024_S1024x1_S1024x1_0_0_1_1_n_n.rhsBatch by decide), dif_pos (show (1 : Fin S1024x1.rank) ∈ dot_S1024x1024_S1024x1_S1024x1_0_0_1_1_n_n.rhsNonContracting by decide)]
  rfl

/-- The weights' transpose times a column into a zero accumulator, at (c, f): the sum over r of a (r, c) · b (r, f). -/
theorem col_apply (a : FVec Ideal S1024x1024 .f32) (b : FVec Ideal S1024x1 .f32) (c : Fin 1024) (f : Fin 1) :
    matmul dot_S1024x1024_S1024x1_S1024x1_0_0_1_1_n_n (some .fp32) a b (constant (F := Ideal) S1024x1 .f32 0x00000000#32) (ix2 c f)
      = ∑ r : Fin 1024, a (ix2 r c) * b (ix2 r f) := by
  simp only [matmul]
  rw [Ideal.matmul_constant_zero_apply, ← Equiv.sum_comp (contrEquiv1 dot_S1024x1024_S1024x1_S1024x1_0_0_1_1_n_n 1024 rfl rfl).symm]
  refine Finset.sum_congr rfl fun k _ => ?_
  have hk := contrEquiv1_symm_val dot_S1024x1024_S1024x1_S1024x1_0_0_1_1_n_n 1024 rfl rfl k
  have el : dot_S1024x1024_S1024x1_S1024x1_0_0_1_1_n_n.lhsIdx (ix2 c f) ((contrEquiv1 dot_S1024x1024_S1024x1_S1024x1_0_0_1_1_n_n 1024 rfl rfl).symm k) = ix2 k c := funext fun ax => Fin.ext (by
    match ax with
    | ⟨0, _⟩ => exact (lhs_col_0 _ _).trans hk
    | ⟨1, _⟩ => exact lhs_col_1 _ _)
  have er : dot_S1024x1024_S1024x1_S1024x1_0_0_1_1_n_n.rhsIdx (ix2 c f) ((contrEquiv1 dot_S1024x1024_S1024x1_S1024x1_0_0_1_1_n_n 1024 rfl rfl).symm k) = ix2 k f := funext fun ax => Fin.ext (by
    match ax with
    | ⟨0, _⟩ => exact (rhs_col_0 _ _).trans hk
    | ⟨1, _⟩ => exact rhs_col_1 _ _)
  rw [el, er]

/-- The weights' transpose times node features: on the left operand, axis 0 is the contracted coordinate … -/
theorem lhs_agg_0 (i : S1024x128.Idx) (q : dot_S1024x1024_S1024x128_S1024x128_0_0_1_1_n_n.contr.Idx) :
    (dot_S1024x1024_S1024x128_S1024x128_0_0_1_1_n_n.lhsIdx i q 0).val = (q ⟨0, by decide⟩).val :=
  dot_S1024x1024_S1024x128_S1024x128_0_0_1_1_n_n.lhsIdx_val_of_single rfl i q
/-- … and axis 1 the result's row; -/
theorem lhs_agg_1 (i : S1024x128.Idx) (q : dot_S1024x1024_S1024x128_S1024x128_0_0_1_1_n_n.contr.Idx) :
    (dot_S1024x1024_S1024x128_S1024x128_0_0_1_1_n_n.lhsIdx i q 1).val = (i 0).val := by
  unfold DotDims.lhsIdx
  rw [dif_neg (show ¬(1 : Fin S1024x1024.rank) ∈ dot_S1024x1024_S1024x128_S1024x128_0_0_1_1_n_n.lhsBatch by decide), dif_pos (show (1 : Fin S1024x1024.rank) ∈ dot_S1024x1024_S1024x128_S1024x128_0_0_1_1_n_n.lhsNonContracting by decide)]
  rfl
/-- on the right operand, axis 0 is the contracted coordinate … -/
theorem rhs_agg_0 (i : S1024x128.Idx) (q : dot_S1024x1024_S1024x128_S1024x128_0_0_1_1_n_n.contr.Idx) :
    (dot_S1024x1024_S1024x128_S1024x128_0_0_1_1_n_n.rhsIdx i q 0).val = (q ⟨0, by decide⟩).val :=
  dot_S1024x1024_S1024x128_S1024x128_0_0_1_1_n_n.rhsIdx_val_of_single rfl i q
/-- … and axis 1 the result's column. -/
theorem rhs_agg_1 (i : S1024x128.Idx) (q : dot_S1024x1024_S1024x128_S1024x128_0_0_1_1_n_n.contr.Idx) :
    (dot_S1024x1024_S1024x128_S1024x128_0_0_1_1_n_n.rhsIdx i q 1).val = (i 1).val := by
  unfold DotDims.rhsIdx
  rw [dif_neg (show ¬(1 : Fin S1024x128.rank) ∈ dot_S1024x1024_S1024x128_S1024x128_0_0_1_1_n_n.rhsBatch by decide), dif_pos (show (1 : Fin S1024x128.rank) ∈ dot_S1024x1024_S1024x128_S1024x128_0_0_1_1_n_n.rhsNonContracting by decide)]
  rfl

/-- The weights' transpose times node features into a zero accumulator, at (c, f): the sum over r of a (r, c) · b (r, f). -/
theorem agg_apply (a : FVec Ideal S1024x1024 .f32) (b : FVec Ideal S1024x128 .f32) (c : Fin 1024) (f : Fin 128) :
    matmul dot_S1024x1024_S1024x128_S1024x128_0_0_1_1_n_n (some .fp32) a b (constant (F := Ideal) S1024x128 .f32 0x00000000#32) (ix2 c f)
      = ∑ r : Fin 1024, a (ix2 r c) * b (ix2 r f) := by
  simp only [matmul]
  rw [Ideal.matmul_constant_zero_apply, ← Equiv.sum_comp (contrEquiv1 dot_S1024x1024_S1024x128_S1024x128_0_0_1_1_n_n 1024 rfl rfl).symm]
  refine Finset.sum_congr rfl fun k _ => ?_
  have hk := contrEquiv1_symm_val dot_S1024x1024_S1024x128_S1024x128_0_0_1_1_n_n 1024 rfl rfl k
  have el : dot_S1024x1024_S1024x128_S1024x128_0_0_1_1_n_n.lhsIdx (ix2 c f) ((contrEquiv1 dot_S1024x1024_S1024x128_S1024x128_0_0_1_1_n_n 1024 rfl rfl).symm k) = ix2 k c := funext fun ax => Fin.ext (by
    match ax with
    | ⟨0, _⟩ => exact (lhs_agg_0 _ _).trans hk
    | ⟨1, _⟩ => exact lhs_agg_1 _ _)
  have er : dot_S1024x1024_S1024x128_S1024x128_0_0_1_1_n_n.rhsIdx (ix2 c f) ((contrEquiv1 dot_S1024x1024_S1024x128_S1024x128_0_0_1_1_n_n 1024 rfl rfl).symm k) = ix2 k f := funext fun ax => Fin.ext (by
    match ax with
    | ⟨0, _⟩ => exact (rhs_agg_0 _ _).trans hk
    | ⟨1, _⟩ => exact rhs_agg_1 _ _)
  rw [el, er]

/-! ## The layout operations read at an index -/

/-- A [1024, 1] column broadcast along the features reads, at (n, f), the column at n. -/
theorem bcast_col_apply {α : Type} (v : S1024x1.Idx → α) (h : S1024x1.Broadcasts S1024x128) (n : Fin 1024) (f : Fin 128) :
    broadcastTo S1024x128 v h (ix2 n f) = v (ix2 n (0 : Fin 1)) := by
  refine broadcastTo_apply v h (ix2 n f) (ix2 n (0 : Fin 1)) fun ax => ?_
  match ax with
  | ⟨0, _⟩ => rfl
  | ⟨1, _⟩ => rfl

/-- The inverse square root of a vector at an index is that of the element. -/
theorem rsqrt_apply {s : Shape} {φ : FTy} (a : FVec Ideal s φ) (i : s.Idx) : rsqrt a i = Ideal.rsqrt (a i) := rfl

/-! ## The degrees' inverse square roots -/

/-- The inverse square root of one plus the column sum of the weights is the node's factor. -/
theorem pay3_apply (v0 : Vec Ideal S1024x1024 .i32) (c : Fin 1024) :
    k0_pay3 (F := Ideal) v0 (ix2 c (0 : Fin 1)) = Cert.Gcn.dinv v0 c := by
  rw [← Cert.Gcn.rsqrt_deg, Cert.Gcn.deg_eq_sum]
  unfold k0_pay3
  show Ideal.rsqrt (matmul dot_S1024x1024_S1024x1_S1024x1_0_0_1_1_n_n (some .fp32) (k0_pay2 (F := Ideal) v0)
      (broadcast S1024x1 (Ideal.ofBits .f32 0x3F800000#32)) (constant (F := Ideal) S1024x1 .f32 0x00000000#32) (ix2 c (0 : Fin 1))
        + Ideal.ofBits .f32 0x3F800000#32) = _
  rw [col_apply, one_f32]
  refine congrArg (fun x => Ideal.rsqrt (x + 1)) (Finset.sum_congr rfl fun r _ => ?_)
  rw [pay2_apply, broadcast_apply, mul_one]

/-- Its square. -/
theorem pay4_apply (v0 : Vec Ideal S1024x1024 .i32) (c : Fin 1024) :
    k0_pay4 (F := Ideal) v0 (ix2 c (0 : Fin 1)) = Cert.Gcn.dinv v0 c * Cert.Gcn.dinv v0 c := by
  unfold k0_pay4
  show k0_pay3 (F := Ideal) v0 (ix2 c (0 : Fin 1)) * k0_pay3 (F := Ideal) v0 (ix2 c (0 : Fin 1)) = _
  rw [pay3_apply]

/-! ## One propagation step -/

/-- The kernel's propagation step on node features H with the bias row b: each row scaled by its node's factor,
    aggregated by the weights' transpose, scaled again, plus the squared factor times the node's own features, plus
    the bias. -/
def step (v0 : Vec Ideal S1024x1024 .i32) (H : FVec Ideal S1024x128 .f32) (b : FVec Ideal S1x128 .f32) : FVec Ideal S1024x128 .f32 :=
  addf (addf
      (mulf (broadcastTo S1024x128 (k0_pay3 (F := Ideal) v0) Gen.broadcasts_S1024x1_S1024x128)
        (matmul dot_S1024x1024_S1024x128_S1024x128_0_0_1_1_n_n (some .fp32) (k0_pay2 (F := Ideal) v0)
          (mulf H (broadcastTo S1024x128 (k0_pay3 (F := Ideal) v0) Gen.broadcasts_S1024x1_S1024x128))
          (constant (F := Ideal) S1024x128 .f32 0x00000000#32)))
      (mulf (broadcastTo S1024x128 (k0_pay4 (F := Ideal) v0) Gen.broadcasts_S1024x1_S1024x128) H))
    (broadcastTo S1024x128 b Gen.broadcasts_S1x128_S1024x128)

/-- The step at (n, f) is the specification's. -/
theorem step_apply (v0 : Vec Ideal S1024x1024 .i32) (H : FVec Ideal S1024x128 .f32) (b : FVec Ideal S1x128 .f32)
    (n : Fin 1024) (f : Fin 128) :
    step v0 H b (ix2 n f) = Cert.Gcn.prop v0 (fun r k => H (ix2 r k)) (rowBias b) n f := by
  unfold step Cert.Gcn.prop
  rw [addf_apply, addf_apply, mulf_apply, mulf_apply, bcast_col_apply, bcast_col_apply, broadcastTo_1b_ab_apply,
    agg_apply, pay3_apply, pay4_apply]
  refine congrArg (fun x => Cert.Gcn.dinv v0 n * x + Cert.Gcn.dinv v0 n * Cert.Gcn.dinv v0 n * H (ix2 n f) + b (ix2 (0 : Fin 1) f))
    (Finset.sum_congr rfl fun r _ => ?_)
  rw [pay2_apply, mulf_apply, bcast_col_apply, pay3_apply]

/-! ## The hidden layer times the second weights, and the result -/

/-- Features times weights is the specification's product. -/
theorem fw_eq_mm (a : FVec Ideal S1024x128 .f32) (b : FVec Ideal S128x128 .f32) :
    (fun r k => matmul dot_S1024x128_S128x128_S1024x128_1_0_0_1_n_n (some .fp32) a b
        (constant (F := Ideal) S1024x128 .f32 0x00000000#32) (ix2 r k))
      = Cert.Gcn.mm (fun n k => a (ix2 n k)) b :=
  funext fun r => funext fun k => fw_apply a b r k

/-- The positive part of the first step, times the second weights. -/
theorem pay5_apply (v0 : Vec Ideal S1024x1024 .i32) (v11 : Vec Ideal S1024x128 .f32) (v12 : Vec Ideal S128x128 .f32)
    (v14 : Vec Ideal S1x128 .f32) (v28 : Vec Ideal S128x128 .f32) (n : Fin 1024) (f : Fin 128) :
    k0_pay5 v0 v11 v12 v14 v28 (ix2 n f) = Cert.Gcn.mm (Cert.Gcn.hidden v11 v0 v12 (rowBias v14)) v28 n f := by
  have e : k0_pay5 v0 v11 v12 v14 v28
      = matmul dot_S1024x128_S128x128_S1024x128_1_0_0_1_n_n (some .fp32)
          (maximumf (step v0 (matmul dot_S1024x128_S128x128_S1024x128_1_0_0_1_n_n (some .fp32) v11 v12
              (constant (F := Ideal) S1024x128 .f32 0x00000000#32)) (shapeCast S1x128 v14 Gen.shapeCasts_S1x128_S1x128))
            (broadcast S1024x128 (Ideal.ofBits .f32 0x00000000#32)))
          v28 (constant (F := Ideal) S1024x128 .f32 0x00000000#32) := rfl
  rw [e, fw_apply]
  unfold Cert.Gcn.mm Cert.Gcn.hidden
  refine Finset.sum_congr rfl fun k _ => ?_
  rw [maximumf_apply, step_apply, broadcast_apply, shapeCast_self, fw_eq_mm, Ideal.ofBits_zero_f32]

/-- The stored value at node n and feature f is the network's value there. -/
theorem pay_eq (v0 : Vec Ideal S1024x1024 .i32) (v11 : Vec Ideal S1024x128 .f32) (v12 : Vec Ideal S128x128 .f32)
    (v14 : Vec Ideal S1x128 .f32) (v28 : Vec Ideal S128x128 .f32) (v30 : Vec Ideal S1x128 .f32) (n : Fin 1024) (f : Fin 128) :
    k0_pay1 (k0_pay6 v30) (k0_pay7 v0 v11 v12 v14 v28) (k0_pay8 v0 v11 v12 v14 v28) (ix2 n f)
      = Cert.Gcn.net v11 v0 v12 (rowBias v14) v28 (rowBias v30) n f := by
  have e : k0_pay1 (k0_pay6 v30) (k0_pay7 v0 v11 v12 v14 v28) (k0_pay8 v0 v11 v12 v14 v28)
      = step v0 (k0_pay5 v0 v11 v12 v14 v28) (shapeCast S1x128 v30 Gen.shapeCasts_S1x128_S1x128) := rfl
  have eH : (fun r k => k0_pay5 v0 v11 v12 v14 v28 (ix2 r k))
      = Cert.Gcn.mm (Cert.Gcn.hidden v11 v0 v12 (rowBias v14)) v28 :=
    funext fun r => funext fun k => pay5_apply v0 v11 v12 v14 v28 r k
  rw [e, step_apply, shapeCast_self, eH]
  rfl

end Cert.KernelIdeal.GcnValue

end
-- ==== Proof.KernelRun.lean ====
/-
  The kernel program's run with its result named: every weakly fair execution terminates without a fault, the result
  array holds the network of the argument arrays, and the arguments are unchanged.

  The program reshapes the two biases to rows, runs the one kernel region on whole-array blocks (so each staged block is
  the array itself and the written-back block is the whole result), and reshapes the result to add a leading axis.
-/
import proofs.«140009_g35596688949519_fold_wed_c4_25_2_alg».proof.Proof.Gen.KernelIdeal.Frame
import proofs.«140009_g35596688949519_fold_wed_c4_25_2_alg».proof.Proof.KernelValue
import Idealize.ShloMosaic.Lib.StableHlo.Run
import Idealize.ShloMosaic.Lib.Pipeline.Value

noncomputable section

namespace Cert.KernelIdeal.GcnValue

open Idealize.ShloMosaic Idealize.ShloMosaic.TcCoe Idealize.ShloMosaic.ValueIdx Idealize.SL.Sem Cert.KernelIdeal Cert.KernelIdeal.Gen
open Cert.KernelIdeal.Facts₀ Cert.KernelIdeal.Facts

variable [Cert.KernelIdeal.Facts]

section Arrays

variable (m : (ℓ : Loc nD τ sig) → Buf (Elt Ideal) ℓ)

/-- The offsets of a whole-array rectangle are all zero. -/
theorem zero_offsets : (![0, 0] : Fin 2 → Nat) = fun _ => 0 := funext fun a => by fin_cases a <;> rfl

/-! ## Each staged block is its whole array

Every window's block is the whole array at block index 0 on every axis, so the block read off the array is the array. -/

/-- Window 0 stages the adjacency words. -/
theorem blk_adjacency (c : Dev nD) (t : Fin cfg0.N) : (iblk m c 0 t : Vec Ideal S1024x1024 .i32) = V m c main_arg1 := by
  unfold iblk
  have hz' : (fun a => win0_0.index t a * main_arg1.ty.shape.size a) = fun _ => 0 := funext fun a => Nat.zero_mul _
  exact Memref.read_access_unit_zero (Elt Ideal) main_arg1 hz' (fun a => by rw [congrFun hz' a]; simp) (V m c main_arg1)

/-- Window 1 stages the node features. -/
theorem blk_features (c : Dev nD) (t : Fin cfg0.N) : (iblk m c 1 t : Vec Ideal S1024x128 .f32) = V m c main_arg0 := by
  unfold iblk
  have hz' : (fun a => win0_1.index t a * main_arg0.ty.shape.size a) = fun _ => 0 := funext fun a => Nat.zero_mul _
  exact Memref.read_access_unit_zero (Elt Ideal) main_arg0 hz' (fun a => by rw [congrFun hz' a]; simp) (V m c main_arg0)

/-- Window 2 stages the first weight matrix. -/
theorem blk_weight1 (c : Dev nD) (t : Fin cfg0.N) : (iblk m c 2 t : Vec Ideal S128x128 .f32) = V m c main_arg2 := by
  unfold iblk
  have hz' : (fun a => win0_2.index t a * main_arg2.ty.shape.size a) = fun _ => 0 := funext fun a => Nat.zero_mul _
  exact Memref.read_access_unit_zero (Elt Ideal) main_arg2 hz' (fun a => by rw [congrFun hz' a]; simp) (V m c main_arg2)

/-- Window 3 stages the first bias, as a row. -/
theorem blk_bias1 (c : Dev nD) (t : Fin cfg0.N) : (iblk m c 3 t : Vec Ideal S1x128 .f32) = V m c main_v0 := by
  unfold iblk
  have hz' : (fun a => win0_3.index t a * main_v0.ty.shape.size a) = fun _ => 0 := funext fun a => Nat.zero_mul _
  exact Memref.read_access_unit_zero (Elt Ideal) main_v0 hz' (fun a => by rw [congrFun hz' a]; simp) (V m c main_v0)

/-- Window 4 stages the second weight matrix. -/
theorem blk_weight2 (c : Dev nD) (t : Fin cfg0.N) : (iblk m c 4 t : Vec Ideal S128x128 .f32) = V m c main_arg4 := by
  unfold iblk
  have hz' : (fun a => win0_4.index t a * main_arg4.ty.shape.size a) = fun _ => 0 := funext fun a => Nat.zero_mul _
  exact Memref.read_access_unit_zero (Elt Ideal) main_arg4 hz' (fun a => by rw [congrFun hz' a]; simp) (V m c main_arg4)

/-- Window 5 stages the second bias, as a row. -/
theorem blk_bias2 (c : Dev nD) (t : Fin cfg0.N) : (iblk m c 5 t : Vec Ideal S1x128 .f32) = V m c main_v1 := by
  unfold iblk
  have hz' : (fun a => win0_5.index t a * main_v1.ty.shape.size a) = fun _ => 0 := funext fun a => Nat.zero_mul _
  exact Memref.read_access_unit_zero (Elt Ideal) main_v1 hz' (fun a => by rw [congrFun hz' a]; simp) (V m c main_v1)

/-! ## The two bias rows

Before the region the program reshapes each bias [128] to a row [1, 128]; the row's entry (0, f) is the bias's entry f. -/

/-- The first bias as the region finds it: the argument reshaped to a row. -/
theorem bias1_row (c : Dev nD) : (V m c main_v0 : S1x128.Idx → EReal)
    = shapeCast S1x128 (m ((c.tc : Thread nD τ).loc main_arg3) : S128.Idx → EReal) Facts₀.shapeCasts_S128_S1x128 := by
  show StableHlo.after hostOps0 (fun b => m (c, b)) (Proc.devRef .tc main_v0) = _
  after_results
  rfl

/-- The second bias as the region finds it: the argument reshaped to a row. -/
theorem bias2_row (c : Dev nD) : (V m c main_v1 : S1x128.Idx → EReal)
    = shapeCast S1x128 (m ((c.tc : Thread nD τ).loc main_arg5) : S128.Idx → EReal) Facts₀.shapeCasts_S128_S1x128 := by
  show StableHlo.after hostOps0 (fun b => m (c, b)) (Proc.devRef .tc main_v1) = _
  after_results
  rfl

/-- A vector reshaped to a row, read back as a bias over the features, is the vector: both entries sit at the same
    row-major position f. -/
theorem rowBias_shapeCast (b : S128.Idx → EReal) (h : S128.ShapeCasts S1x128) : rowBias (shapeCast S1x128 b h) = b := by
  funext j
  unfold rowBias
  refine (shapeCast_addUnit_apply ![128] b h (ix2 (0 : Fin 1) (j 0))).trans ?_
  refine congrArg b (funext fun a => ?_)
  match a with
  | ⟨0, _⟩ => rfl

/-! ## The result window's array after the run -/

/-- The network of the argument arrays as a [1024, 128] array: entry (n, f) is the value at node n and feature f. -/
def netArr (c : Dev nD) : S1024x128.Idx → EReal := fun i =>
  Cert.Gcn.net (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) (i 0) (i 1)

/-- What the body leaves in the result's buffer, from whole blocks: its one store covers the buffer, each load reads a
    whole block, and the stored value at entry (n, f) is the network of the blocks there. Window 0 is the adjacency and
    window 1 the features; the network takes the features first. -/
theorem stored_eq (x0 : Vec Ideal S1024x1024 .i32) (x1 : Vec Ideal S1024x128 .f32) (x2 : Vec Ideal S128x128 .f32)
    (x3 : Vec Ideal S1x128 .f32) (x4 : Vec Ideal S128x128 .f32) (x5 : Vec Ideal S1x128 .f32) :
    out0_6 x0 x1 x2 x3 x4 x5 = fun i => Cert.Gcn.net x1 x0 x2 (rowBias x3) x4 (rowBias x5) (i 0) (i 1) := by
  unfold out0_6
  rw [View.canon_unit_zero zero_offsets]
  simp only [View.ld_unit_zero (S := S1024x1024) zero_offsets, View.ld_unit_zero (S := S1024x128) zero_offsets,
    View.ld_unit_zero (S := S128x128) zero_offsets, View.ld_unit_zero (S := S1x128) zero_offsets]
  funext i
  obtain ⟨n, f, rfl⟩ : ∃ (n : Fin 1024) (f : Fin 128), i = ix2 n f := ⟨i 0, i 1, eq_ix2 i⟩
  exact pay_eq x0 x1 x2 x3 x4 x5 n f

/-- What the grid's point writes back is the network array read through the result window's block, which is the whole
    array: the staged blocks are the arrays the region finds, four of them the arguments and two the bias rows. -/
theorem written_back (c : Dev nD) (t : Fin cfg0.N) :
    (dats m 0 c).flushed 6 t = ((cfg0.win 6).blk t).view.read (Elt Ideal) (netArr m c) := by
  show (cfg0.win 6).cut (grid0.coords t) ((dats m 0 c).after 6 t) = _
  rw [after0_6, blk_adjacency, blk_features, blk_weight1, blk_bias1, blk_weight2, blk_bias2, stored_eq, bias1_row, bias2_row, rowBias_shapeCast, rowBias_shapeCast,
    V_main_arg0, V_main_arg1, V_main_arg2, V_main_arg4]
  have hz' : (fun a => win0_6.index t a * main_v2.ty.shape.size a) = fun _ => 0 := funext fun a => Nat.zero_mul _
  exact (Memref.read_access_unit_zero (Elt Ideal) main_v2 hz' (fun a => by rw [congrFun hz' a]; simp) (netArr m c)).symm

/-- The result window's array after the run is the network array: the grid has one point, it writes back, and its
    block holds every index of the array. -/
theorem result_array (c : Dev nD) : (dats m 0 c).arrAt 6 cfg0.N = netArr m c :=
  (dats m 0 c).arrAt_eq_of_cover 6 (netArr m c) (fun t _ => written_back m c t) fun i =>
    ⟨t0_0, flush0_6 t0_0, by
      show i ∈ ((View.whole main_v2).slice (win0_6.rect t0_0)).set
      rw [View.set_slice_whole, Rect.mem_set_unit]
      intro a
      have h0 : (i 0 : Nat) < 1024 := (i 0).isLt
      have h1 : (i 1 : Nat) < 128 := (i 1).isLt
      match a with
      | ⟨0, _⟩ => show 0 * 1024 ≤ (i 0 : Nat) ∧ (i 0 : Nat) < 0 * 1024 + 1024; omega
      | ⟨1, _⟩ => show 0 * 128 ≤ (i 1 : Nat) ∧ (i 1 : Nat) < 0 * 128 + 128; omega⟩

end Arrays

/-- The run, with its result named: the arguments by the frame run's post, the result by the reshape after the region
    read at the network array. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Gcn.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun _ h c => ⟨?_,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)
  -- the result: the reshape after the region applied to the result window's array, which is the network array;
  -- the reshape adds a leading axis of extent 1, so its entry at i is the array's entry at (i 1, i 2)
  refine ((h c).2 main_v3 (Pipeline.mem_restRefs_of main_v3 (by decide) (by decide))).trans ?_
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = netArr m c := (Pipeline.withArrays_arr spec0 launch0.win.arr_inj c _ _ 6).trans (result_array m c)
  rw [e]
  funext i
  refine (shapeCast_addUnit_apply ![1024, 128] (netArr m c) _ i).trans ?_
  rfl

end Cert.KernelIdeal.GcnValue

end
-- ==== Proof.RefOps.lean ====
/- (run in the unit directory). The reference's host operations as Lean lists, one list per window of @main,
   in program order; a function call is replaced by the callee's operations over that call's record of buffers.
   A transcription of the printed program's text: no statement about it is made here. -/
import proofs.«140009_g35596688949519_fold_wed_c4_25_2_alg».proof.ReferenceIdeal
import Idealize.ShloMosaic.Lib.StableHlo.Run

noncomputable section

namespace Cert.ReferenceIdeal.Run

open Idealize.ShloMosaic Idealize.SL.Sem Cert.ReferenceIdeal
open Cert.ReferenceIdeal.Facts₀ Cert.ReferenceIdeal.Facts

variable {F : FTy → Type} [FloatOps F] [Cert.ReferenceIdeal.Facts]

/-- The operations of window 0 of @main (100 of them). -/
abbrev ops0 : List (HloOp τ sig (Elt F)) :=
  [ StableHlo.unary main_arg0 main_v0 (broadcastInDim S1x1024x128 ![1, 2] bcast_S1024x128_S1x1024x128_1_2 : (⟨S1024x128, .f32⟩ : BufTy).Contents (Elt F) → (⟨S1x1024x128, .f32⟩ : BufTy).Contents (Elt F)),
    StableHlo.reshape main_v0 main_v1 rfl shapeCasts_S1x1024x128_S1024x128,
    StableHlo.nullary main_v2 (iotaInDim S1048576 32 0),
    StableHlo.nullary main_c (constantI S_ 32 1024#32),
    StableHlo.TRef.unary (.of main_c) main_call0.v0 id,
    StableHlo.TRef.unary main_call0.v0 main_call0.v1 (broadcastInDim S1048576 ![] bcast_S_S1048576),
    StableHlo.TRef.binary (.of main_v2) main_call0.v1 main_call0.v2 Host.divsi,
    StableHlo.TRef.unary (.of main_v2) main_call0.v3 signi,
    StableHlo.TRef.unary main_call0.v0 main_call0.v4 signi,
    StableHlo.TRef.unary main_call0.v4 main_call0.v5 (broadcastInDim S1048576 ![] bcast_S_S1048576),
    StableHlo.TRef.binary main_call0.v3 main_call0.v5 main_call0.v6 (cmpi .ne),
    StableHlo.TRef.unary main_call0.v0 main_call0.v7 (broadcastInDim S1048576 ![] bcast_S_S1048576),
    StableHlo.TRef.binary (.of main_v2) main_call0.v7 main_call0.v8 Host.remsi,
    StableHlo.TRef.nullary main_call0.c (constantI S_ 32 0#32),
    StableHlo.TRef.unary main_call0.c main_call0.v9 (broadcastInDim S1048576 ![] bcast_S_S1048576),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1048576 ![] bcast_S_S1048576),
    StableHlo.TRef.binary main_call0.v2 main_call0.v12 main_call0.v13 subi,
    StableHlo.TRef.ternary main_call0.v11 main_call0.v13 main_call0.v2 main_call0.call0.v0 select,
    StableHlo.nullary main_c_0 (constantI S_ 32 1024#32),
    StableHlo.TRef.unary (.of main_c_0) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S1048576 ![] bcast_S_S1048576),
    StableHlo.TRef.binary (.of main_v2) main_call1.v3 main_call1.v4 Host.remsi,
    StableHlo.TRef.nullary main_call1.c_1 (constantI S_ 32 0#32),
    StableHlo.TRef.unary main_call1.c_1 main_call1.v5 (broadcastInDim S1048576 ![] bcast_S_S1048576),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S1048576 ![] bcast_S_S1048576),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S1048576 ![] bcast_S_S1048576),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S1048576 ![] bcast_S_S1048576),
    StableHlo.TRef.binary main_call1.v4 main_call1.v13 main_call1.v14 addi,
    StableHlo.TRef.ternary main_call1.v12 main_call1.v14 main_call1.v4 main_call1.v15 select,
    StableHlo.reshape main_arg1 main_v5 rfl shapeCasts_S1024x1024_S1048576,
    StableHlo.nullary main_c_1 (constantI S_ 32 0#32),
    StableHlo.unary main_c_1 main_v6 (broadcastInDim S1048576 ![] bcast_S_S1048576 : (⟨S_, .i32⟩ : BufTy).Contents (Elt F) → (⟨S1048576, .i32⟩ : BufTy).Contents (Elt F)),
    StableHlo.binary main_v5 main_v6 main_v7 (cmpi .ne : (⟨S1048576, .i32⟩ : BufTy).Contents (Elt F) → (⟨S1048576, .i32⟩ : BufTy).Contents (Elt F) → (⟨S1048576, .i1⟩ : BufTy).Contents (Elt F)),
    StableHlo.unary main_v7 main_v8 (uitofp .f32 : (⟨S1048576, .i1⟩ : BufTy).Contents (Elt F) → (⟨S1048576, .f32⟩ : BufTy).Contents (Elt F)),
    StableHlo.nullary main_v9 (iotaInDim S1024 32 0),
    StableHlo.binary main_v3 main_v9 main_v10 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v4 main_v9 main_v11 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst (constant S_ .f32 0x3F800000#32),
    StableHlo.unary main_cst main_v12 (broadcastInDim S1024 ![] bcast_S_S1024 : (⟨S_, .f32⟩ : BufTy).Contents (Elt F) → (⟨S1024, .f32⟩ : BufTy).Contents (Elt F)),
    StableHlo.binary main_v8 main_v12 main_v13 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_2 (constant S_ .f32 0x00000000#32),
    StableHlo.unary main_cst_2 main_v14 (broadcastInDim S1024 ![] bcast_S_S1024 : (⟨S_, .f32⟩ : BufTy).Contents (Elt F) → (⟨S1024, .f32⟩ : BufTy).Contents (Elt F)),
    StableHlo.nullary main_c_3 (constantI S_ 32 0#32),
    StableHlo.unary main_c_3 main_v15 (broadcastInDim S1049600 ![] bcast_S_S1049600 : (⟨S_, .i32⟩ : BufTy).Contents (Elt F) → (⟨S1049600, .i32⟩ : BufTy).Contents (Elt F)),
    StableHlo.binary main_v11 main_v15 main_v16 (cmpi .slt : (⟨S1049600, .i32⟩ : BufTy).Contents (Elt F) → (⟨S1049600, .i32⟩ : BufTy).Contents (Elt F) → (⟨S1049600, .i1⟩ : BufTy).Contents (Elt F)),
    StableHlo.nullary main_c_4 (constantI S_ 32 1024#32),
    StableHlo.unary main_c_4 main_v17 (broadcastInDim S1049600 ![] bcast_S_S1049600 : (⟨S_, .i32⟩ : BufTy).Contents (Elt F) → (⟨S1049600, .i32⟩ : BufTy).Contents (Elt F)),
    StableHlo.binary main_v11 main_v17 main_v18 (addi : (⟨S1049600, .i32⟩ : BufTy).Contents (Elt F) → (⟨S1049600, .i32⟩ : BufTy).Contents (Elt F) → (⟨S1049600, .i32⟩ : BufTy).Contents (Elt F)),
    StableHlo.ternary main_v16 main_v18 main_v11 main_v19 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v19 main_v20 (broadcastInDim S1049600x1 ![0] bcast_S1049600_S1049600x1_0 : (⟨S1049600, .i32⟩ : BufTy).Contents (Elt F) → (⟨S1049600x1, .i32⟩ : BufTy).Contents (Elt F)),
    StableHlo.ternary main_v14 main_v20 main_v13 main_v21 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_5 (constant S_ .f32 0x00000000#32),
    StableHlo.unary main_cst_5 main_v22 (broadcastInDim S1024 ![] bcast_S_S1024 : (⟨S_, .f32⟩ : BufTy).Contents (Elt F) → (⟨S1024, .f32⟩ : BufTy).Contents (Elt F)),
    StableHlo.binary main_v21 main_v22 main_v23 (cmpf .ogt : (⟨S1024, .f32⟩ : BufTy).Contents (Elt F) → (⟨S1024, .f32⟩ : BufTy).Contents (Elt F) → (⟨S1024, .i1⟩ : BufTy).Contents (Elt F)),
    StableHlo.nullary main_cst_6 (constant S_ .f32 0x00000000#32),
    StableHlo.unary main_cst_6 main_v24 (broadcastInDim S1024 ![] bcast_S_S1024 : (⟨S_, .f32⟩ : BufTy).Contents (Elt F) → (⟨S1024, .f32⟩ : BufTy).Contents (Elt F)),
    StableHlo.binary main_v21 main_v24 main_v25 (cmpf .ogt : (⟨S1024, .f32⟩ : BufTy).Contents (Elt F) → (⟨S1024, .f32⟩ : BufTy).Contents (Elt F) → (⟨S1024, .i1⟩ : BufTy).Contents (Elt F)),
    StableHlo.nullary main_cst_7 (constant S_ .f32 0x3F800000#32),
    StableHlo.TRef.unary (.of main_cst_7) main_call2.v0 id,
    StableHlo.TRef.unary main_call2.v0 main_call2.v1 (broadcastInDim S1024 ![] bcast_S_S1024),
    StableHlo.TRef.ternary (.of main_v25) (.of main_v21) main_call2.v1 main_call2.v2 select,
    StableHlo.unary main_v26 main_v27 (Host.rsqrt : (⟨S1024, .f32⟩ : BufTy).Contents (Elt F) → (⟨S1024, .f32⟩ : BufTy).Contents (Elt F)),
    StableHlo.nullary main_cst_8 (constant S_ .f32 0x00000000#32),
    StableHlo.TRef.unary (.of main_cst_8) main_call3.v0 id,
    StableHlo.TRef.unary main_call3.v0 main_call3.v1 (broadcastInDim S1024 ![] bcast_S_S1024),
    StableHlo.TRef.ternary (.of main_v23) (.of main_v27) main_call3.v1 main_call3.v2 select,
    StableHlo.nullary main_c_9 (constantI S_ 32 0#32),
    StableHlo.unary main_c_9 main_v29 (broadcastInDim S1049600 ![] bcast_S_S1049600 : (⟨S_, .i32⟩ : BufTy).Contents (Elt F) → (⟨S1049600, .i32⟩ : BufTy).Contents (Elt F)),
    StableHlo.binary main_v10 main_v29 main_v30 (cmpi .slt : (⟨S1049600, .i32⟩ : BufTy).Contents (Elt F) → (⟨S1049600, .i32⟩ : BufTy).Contents (Elt F) → (⟨S1049600, .i1⟩ : BufTy).Contents (Elt F)),
    StableHlo.nullary main_c_10 (constantI S_ 32 1024#32),
    StableHlo.unary main_c_10 main_v31 (broadcastInDim S1049600 ![] bcast_S_S1049600 : (⟨S_, .i32⟩ : BufTy).Contents (Elt F) → (⟨S1049600, .i32⟩ : BufTy).Contents (Elt F)),
    StableHlo.binary main_v10 main_v31 main_v32 (addi : (⟨S1049600, .i32⟩ : BufTy).Contents (Elt F) → (⟨S1049600, .i32⟩ : BufTy).Contents (Elt F) → (⟨S1049600, .i32⟩ : BufTy).Contents (Elt F)),
    StableHlo.ternary main_v30 main_v32 main_v10 main_v33 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v33 main_v34 (broadcastInDim S1049600x1 ![0] bcast_S1049600_S1049600x1_0 : (⟨S1049600, .i32⟩ : BufTy).Contents (Elt F) → (⟨S1049600x1, .i32⟩ : BufTy).Contents (Elt F)),
    StableHlo.binary main_v28 main_v34 main_v35 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_11 (constantI S_ 32 0#32),
    StableHlo.unary main_c_11 main_v36 (broadcastInDim S1049600 ![] bcast_S_S1049600 : (⟨S_, .i32⟩ : BufTy).Contents (Elt F) → (⟨S1049600, .i32⟩ : BufTy).Contents (Elt F)),
    StableHlo.binary main_v11 main_v36 main_v37 (cmpi .slt : (⟨S1049600, .i32⟩ : BufTy).Contents (Elt F) → (⟨S1049600, .i32⟩ : BufTy).Contents (Elt F) → (⟨S1049600, .i1⟩ : BufTy).Contents (Elt F)),
    StableHlo.nullary main_c_12 (constantI S_ 32 1024#32),
    StableHlo.unary main_c_12 main_v38 (broadcastInDim S1049600 ![] bcast_S_S1049600 : (⟨S_, .i32⟩ : BufTy).Contents (Elt F) → (⟨S1049600, .i32⟩ : BufTy).Contents (Elt F)),
    StableHlo.binary main_v11 main_v38 main_v39 (addi : (⟨S1049600, .i32⟩ : BufTy).Contents (Elt F) → (⟨S1049600, .i32⟩ : BufTy).Contents (Elt F) → (⟨S1049600, .i32⟩ : BufTy).Contents (Elt F)),
    StableHlo.ternary main_v37 main_v39 main_v11 main_v40 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v40 main_v41 (broadcastInDim S1049600x1 ![0] bcast_S1049600_S1049600x1_0 : (⟨S1049600, .i32⟩ : BufTy).Contents (Elt F) → (⟨S1049600x1, .i32⟩ : BufTy).Contents (Elt F)),
    StableHlo.binary main_v28 main_v41 main_v42 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v35 main_v42 main_v43 (mulf : (⟨S1049600, .f32⟩ : BufTy).Contents (Elt F) → (⟨S1049600, .f32⟩ : BufTy).Contents (Elt F) → (⟨S1049600, .f32⟩ : BufTy).Contents (Elt F)),
    StableHlo.binary main_v43 main_v13 main_v44 (mulf : (⟨S1049600, .f32⟩ : BufTy).Contents (Elt F) → (⟨S1049600, .f32⟩ : BufTy).Contents (Elt F) → (⟨S1049600, .f32⟩ : BufTy).Contents (Elt F)) ]

/-- The operations of window 1 of @main (88 of them). -/
abbrev ops1 : List (HloOp τ sig (Elt F)) :=
  [ StableHlo.binary main_v1 main_arg2 main_v45 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.TRef.nullary main_call4.c (constantI S_ 32 0#32),
    StableHlo.TRef.unary main_call4.c main_call4.v0 (broadcastInDim S1049600 ![] bcast_S_S1049600),
    StableHlo.TRef.binary (.of main_v10) main_call4.v0 main_call4.v1 (cmpi .slt),
    StableHlo.TRef.nullary main_call4.c_0 (constantI S_ 32 1024#32),
    StableHlo.TRef.unary main_call4.c_0 main_call4.v2 (broadcastInDim S1049600 ![] bcast_S_S1049600),
    StableHlo.TRef.binary (.of main_v10) main_call4.v2 main_call4.v3 addi,
    StableHlo.TRef.ternary main_call4.v1 main_call4.v3 (.of main_v10) main_call4.call0.v0 select,
    StableHlo.TRef.unary main_call4.call0.v0 main_call4.v5 (broadcastInDim S1049600x1 ![0] bcast_S1049600_S1049600x1_0),
    StableHlo.TRef.nullary main_call4.c_1 (constantI S1 32 1023#32),
    StableHlo.TRef.nullary main_call4.c_2 (constantI S_ 32 0#32),
    StableHlo.TRef.unary main_call4.c_2 main_call4.v6 (broadcastInDim S1049600x1 ![] bcast_S_S1049600x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S1049600x1 ![0, 1] bcast_S1x1_S1049600x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1049600x1_S1049600_d1 h_S_),
    StableHlo.TRef.binary (.of main_v45) main_call4.v5 main_call4.v13 (fun x i => Host.gather gather_S1024x128_S1049600x1_S1049600x128_1_0_n_n_0_1_1128 x i),
    StableHlo.TRef.unary main_call4.v12 main_call4.v14 (broadcastInDim S1049600x128 ![0] bcast_S1049600_S1049600x128_0),
    StableHlo.TRef.nullary main_call4.cst (constant S_ .f32 0x7FC00000#32),
    StableHlo.TRef.unary main_call4.cst main_call4.v15 (broadcastInDim S1049600x128 ![] bcast_S_S1049600x128),
    StableHlo.TRef.ternary main_call4.v14 main_call4.v13 main_call4.v15 main_call4.v16 select,
    StableHlo.unary main_v44 main_v47 (broadcastInDim S1049600x1 ![0] bcast_S1049600_S1049600x1_0 : (⟨S1049600, .f32⟩ : BufTy).Contents (Elt F) → (⟨S1049600x1, .f32⟩ : BufTy).Contents (Elt F)),
    StableHlo.unary main_v47 main_v48 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v46 main_v48 main_v49 (mulf : (⟨S1049600x128, .f32⟩ : BufTy).Contents (Elt F) → (⟨S1049600x128, .f32⟩ : BufTy).Contents (Elt F) → (⟨S1049600x128, .f32⟩ : BufTy).Contents (Elt F)),
    StableHlo.nullary main_cst_13 (constant S_ .f32 0x00000000#32),
    StableHlo.unary main_cst_13 main_v50 (broadcastInDim S1024x128 ![] bcast_S_S1024x128 : (⟨S_, .f32⟩ : BufTy).Contents (Elt F) → (⟨S1024x128, .f32⟩ : BufTy).Contents (Elt F)),
    StableHlo.nullary main_c_14 (constantI S_ 32 0#32),
    StableHlo.unary main_c_14 main_v51 (broadcastInDim S1049600 ![] bcast_S_S1049600 : (⟨S_, .i32⟩ : BufTy).Contents (Elt F) → (⟨S1049600, .i32⟩ : BufTy).Contents (Elt F)),
    StableHlo.binary main_v11 main_v51 main_v52 (cmpi .slt : (⟨S1049600, .i32⟩ : BufTy).Contents (Elt F) → (⟨S1049600, .i32⟩ : BufTy).Contents (Elt F) → (⟨S1049600, .i1⟩ : BufTy).Contents (Elt F)),
    StableHlo.nullary main_c_15 (constantI S_ 32 1024#32),
    StableHlo.unary main_c_15 main_v53 (broadcastInDim S1049600 ![] bcast_S_S1049600 : (⟨S_, .i32⟩ : BufTy).Contents (Elt F) → (⟨S1049600, .i32⟩ : BufTy).Contents (Elt F)),
    StableHlo.binary main_v11 main_v53 main_v54 (addi : (⟨S1049600, .i32⟩ : BufTy).Contents (Elt F) → (⟨S1049600, .i32⟩ : BufTy).Contents (Elt F) → (⟨S1049600, .i32⟩ : BufTy).Contents (Elt F)),
    StableHlo.ternary main_v52 main_v54 main_v11 main_v55 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v55 main_v56 (broadcastInDim S1049600x1 ![0] bcast_S1049600_S1049600x1_0 : (⟨S1049600, .i32⟩ : BufTy).Contents (Elt F) → (⟨S1049600x1, .i32⟩ : BufTy).Contents (Elt F)),
    StableHlo.ternary main_v50 main_v56 main_v49 main_v57 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg3 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S1024x128 ![0, 1] bcast_S1x128_S1024x128_0_1 : (⟨S1x128, .f32⟩ : BufTy).Contents (Elt F) → (⟨S1024x128, .f32⟩ : BufTy).Contents (Elt F)),
    StableHlo.binary main_v57 main_v59 main_v60 (addf : (⟨S1024x128, .f32⟩ : BufTy).Contents (Elt F) → (⟨S1024x128, .f32⟩ : BufTy).Contents (Elt F) → (⟨S1024x128, .f32⟩ : BufTy).Contents (Elt F)),
    StableHlo.TRef.nullary main_call5.cst (constant S_ .f32 0x00000000#32),
    StableHlo.TRef.unary main_call5.cst main_call5.v0 (broadcastInDim S1024x128 ![] bcast_S_S1024x128),
    StableHlo.TRef.binary (.of main_v60) main_call5.v0 main_call5.v1 maximumf,
    StableHlo.nullary main_v62 (iotaInDim S1024 32 0),
    StableHlo.binary main_v3 main_v62 main_v63 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v4 main_v62 main_v64 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_16 (constant S_ .f32 0x3F800000#32),
    StableHlo.unary main_cst_16 main_v65 (broadcastInDim S1024 ![] bcast_S_S1024 : (⟨S_, .f32⟩ : BufTy).Contents (Elt F) → (⟨S1024, .f32⟩ : BufTy).Contents (Elt F)),
    StableHlo.binary main_v8 main_v65 main_v66 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_17 (constant S_ .f32 0x00000000#32),
    StableHlo.unary main_cst_17 main_v67 (broadcastInDim S1024 ![] bcast_S_S1024 : (⟨S_, .f32⟩ : BufTy).Contents (Elt F) → (⟨S1024, .f32⟩ : BufTy).Contents (Elt F)),
    StableHlo.nullary main_c_18 (constantI S_ 32 0#32),
    StableHlo.unary main_c_18 main_v68 (broadcastInDim S1049600 ![] bcast_S_S1049600 : (⟨S_, .i32⟩ : BufTy).Contents (Elt F) → (⟨S1049600, .i32⟩ : BufTy).Contents (Elt F)),
    StableHlo.binary main_v64 main_v68 main_v69 (cmpi .slt : (⟨S1049600, .i32⟩ : BufTy).Contents (Elt F) → (⟨S1049600, .i32⟩ : BufTy).Contents (Elt F) → (⟨S1049600, .i1⟩ : BufTy).Contents (Elt F)),
    StableHlo.nullary main_c_19 (constantI S_ 32 1024#32),
    StableHlo.unary main_c_19 main_v70 (broadcastInDim S1049600 ![] bcast_S_S1049600 : (⟨S_, .i32⟩ : BufTy).Contents (Elt F) → (⟨S1049600, .i32⟩ : BufTy).Contents (Elt F)),
    StableHlo.binary main_v64 main_v70 main_v71 (addi : (⟨S1049600, .i32⟩ : BufTy).Contents (Elt F) → (⟨S1049600, .i32⟩ : BufTy).Contents (Elt F) → (⟨S1049600, .i32⟩ : BufTy).Contents (Elt F)),
    StableHlo.ternary main_v69 main_v71 main_v64 main_v72 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v72 main_v73 (broadcastInDim S1049600x1 ![0] bcast_S1049600_S1049600x1_0 : (⟨S1049600, .i32⟩ : BufTy).Contents (Elt F) → (⟨S1049600x1, .i32⟩ : BufTy).Contents (Elt F)),
    StableHlo.ternary main_v67 main_v73 main_v66 main_v74 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_20 (constant S_ .f32 0x00000000#32),
    StableHlo.unary main_cst_20 main_v75 (broadcastInDim S1024 ![] bcast_S_S1024 : (⟨S_, .f32⟩ : BufTy).Contents (Elt F) → (⟨S1024, .f32⟩ : BufTy).Contents (Elt F)),
    StableHlo.binary main_v74 main_v75 main_v76 (cmpf .ogt : (⟨S1024, .f32⟩ : BufTy).Contents (Elt F) → (⟨S1024, .f32⟩ : BufTy).Contents (Elt F) → (⟨S1024, .i1⟩ : BufTy).Contents (Elt F)),
    StableHlo.nullary main_cst_21 (constant S_ .f32 0x00000000#32),
    StableHlo.unary main_cst_21 main_v77 (broadcastInDim S1024 ![] bcast_S_S1024 : (⟨S_, .f32⟩ : BufTy).Contents (Elt F) → (⟨S1024, .f32⟩ : BufTy).Contents (Elt F)),
    StableHlo.binary main_v74 main_v77 main_v78 (cmpf .ogt : (⟨S1024, .f32⟩ : BufTy).Contents (Elt F) → (⟨S1024, .f32⟩ : BufTy).Contents (Elt F) → (⟨S1024, .i1⟩ : BufTy).Contents (Elt F)),
    StableHlo.nullary main_cst_22 (constant S_ .f32 0x3F800000#32),
    StableHlo.TRef.unary (.of main_cst_22) main_call6.v0 id,
    StableHlo.TRef.unary main_call6.v0 main_call6.v1 (broadcastInDim S1024 ![] bcast_S_S1024),
    StableHlo.TRef.ternary (.of main_v78) (.of main_v74) main_call6.v1 main_call6.v2 select,
    StableHlo.unary main_v79 main_v80 (Host.rsqrt : (⟨S1024, .f32⟩ : BufTy).Contents (Elt F) → (⟨S1024, .f32⟩ : BufTy).Contents (Elt F)),
    StableHlo.nullary main_cst_23 (constant S_ .f32 0x00000000#32),
    StableHlo.TRef.unary (.of main_cst_23) main_call7.v0 id,
    StableHlo.TRef.unary main_call7.v0 main_call7.v1 (broadcastInDim S1024 ![] bcast_S_S1024),
    StableHlo.TRef.ternary (.of main_v76) (.of main_v80) main_call7.v1 main_call7.v2 select,
    StableHlo.nullary main_c_24 (constantI S_ 32 0#32),
    StableHlo.unary main_c_24 main_v82 (broadcastInDim S1049600 ![] bcast_S_S1049600 : (⟨S_, .i32⟩ : BufTy).Contents (Elt F) → (⟨S1049600, .i32⟩ : BufTy).Contents (Elt F)),
    StableHlo.binary main_v63 main_v82 main_v83 (cmpi .slt : (⟨S1049600, .i32⟩ : BufTy).Contents (Elt F) → (⟨S1049600, .i32⟩ : BufTy).Contents (Elt F) → (⟨S1049600, .i1⟩ : BufTy).Contents (Elt F)),
    StableHlo.nullary main_c_25 (constantI S_ 32 1024#32),
    StableHlo.unary main_c_25 main_v84 (broadcastInDim S1049600 ![] bcast_S_S1049600 : (⟨S_, .i32⟩ : BufTy).Contents (Elt F) → (⟨S1049600, .i32⟩ : BufTy).Contents (Elt F)),
    StableHlo.binary main_v63 main_v84 main_v85 (addi : (⟨S1049600, .i32⟩ : BufTy).Contents (Elt F) → (⟨S1049600, .i32⟩ : BufTy).Contents (Elt F) → (⟨S1049600, .i32⟩ : BufTy).Contents (Elt F)),
    StableHlo.ternary main_v83 main_v85 main_v63 main_v86 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v86 main_v87 (broadcastInDim S1049600x1 ![0] bcast_S1049600_S1049600x1_0 : (⟨S1049600, .i32⟩ : BufTy).Contents (Elt F) → (⟨S1049600x1, .i32⟩ : BufTy).Contents (Elt F)),
    StableHlo.binary main_v81 main_v87 main_v88 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_26 (constantI S_ 32 0#32),
    StableHlo.unary main_c_26 main_v89 (broadcastInDim S1049600 ![] bcast_S_S1049600 : (⟨S_, .i32⟩ : BufTy).Contents (Elt F) → (⟨S1049600, .i32⟩ : BufTy).Contents (Elt F)),
    StableHlo.binary main_v64 main_v89 main_v90 (cmpi .slt : (⟨S1049600, .i32⟩ : BufTy).Contents (Elt F) → (⟨S1049600, .i32⟩ : BufTy).Contents (Elt F) → (⟨S1049600, .i1⟩ : BufTy).Contents (Elt F)) ]

/-- The operations of window 2 of @main (50 of them). -/
abbrev ops2 : List (HloOp τ sig (Elt F)) :=
  [ StableHlo.nullary main_c_27 (constantI S_ 32 1024#32),
    StableHlo.unary main_c_27 main_v91 (broadcastInDim S1049600 ![] bcast_S_S1049600 : (⟨S_, .i32⟩ : BufTy).Contents (Elt F) → (⟨S1049600, .i32⟩ : BufTy).Contents (Elt F)),
    StableHlo.binary main_v64 main_v91 main_v92 (addi : (⟨S1049600, .i32⟩ : BufTy).Contents (Elt F) → (⟨S1049600, .i32⟩ : BufTy).Contents (Elt F) → (⟨S1049600, .i32⟩ : BufTy).Contents (Elt F)),
    StableHlo.ternary main_v90 main_v92 main_v64 main_v93 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v93 main_v94 (broadcastInDim S1049600x1 ![0] bcast_S1049600_S1049600x1_0 : (⟨S1049600, .i32⟩ : BufTy).Contents (Elt F) → (⟨S1049600x1, .i32⟩ : BufTy).Contents (Elt F)),
    StableHlo.binary main_v81 main_v94 main_v95 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v88 main_v95 main_v96 (mulf : (⟨S1049600, .f32⟩ : BufTy).Contents (Elt F) → (⟨S1049600, .f32⟩ : BufTy).Contents (Elt F) → (⟨S1049600, .f32⟩ : BufTy).Contents (Elt F)),
    StableHlo.binary main_v96 main_v66 main_v97 (mulf : (⟨S1049600, .f32⟩ : BufTy).Contents (Elt F) → (⟨S1049600, .f32⟩ : BufTy).Contents (Elt F) → (⟨S1049600, .f32⟩ : BufTy).Contents (Elt F)),
    StableHlo.binary main_v61 main_arg4 main_v98 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.TRef.nullary main_call8.c (constantI S_ 32 0#32),
    StableHlo.TRef.unary main_call8.c main_call8.v0 (broadcastInDim S1049600 ![] bcast_S_S1049600),
    StableHlo.TRef.binary (.of main_v63) main_call8.v0 main_call8.v1 (cmpi .slt),
    StableHlo.TRef.nullary main_call8.c_0 (constantI S_ 32 1024#32),
    StableHlo.TRef.unary main_call8.c_0 main_call8.v2 (broadcastInDim S1049600 ![] bcast_S_S1049600),
    StableHlo.TRef.binary (.of main_v63) main_call8.v2 main_call8.v3 addi,
    StableHlo.TRef.ternary main_call8.v1 main_call8.v3 (.of main_v63) main_call8.call0.v0 select,
    StableHlo.TRef.unary main_call8.call0.v0 main_call8.v5 (broadcastInDim S1049600x1 ![0] bcast_S1049600_S1049600x1_0),
    StableHlo.TRef.nullary main_call8.c_1 (constantI S1 32 1023#32),
    StableHlo.TRef.nullary main_call8.c_2 (constantI S_ 32 0#32),
    StableHlo.TRef.unary main_call8.c_2 main_call8.v6 (broadcastInDim S1049600x1 ![] bcast_S_S1049600x1),
    StableHlo.TRef.binary main_call8.v5 main_call8.v6 main_call8.v7 (cmpi .sge),
    StableHlo.TRef.unary main_call8.c_1 main_call8.v8 (broadcastInDim S1x1 ![1] bcast_S1_S1x1_1),
    StableHlo.TRef.unary main_call8.v8 main_call8.v9 (broadcastInDim S1049600x1 ![0, 1] bcast_S1x1_S1049600x1_0_1),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1049600x1_S1049600_d1 h_S_),
    StableHlo.TRef.binary (.of main_v98) main_call8.v5 main_call8.v13 (fun x i => Host.gather gather_S1024x128_S1049600x1_S1049600x128_1_0_n_n_0_1_1128 x i),
    StableHlo.TRef.unary main_call8.v12 main_call8.v14 (broadcastInDim S1049600x128 ![0] bcast_S1049600_S1049600x128_0),
    StableHlo.TRef.nullary main_call8.cst (constant S_ .f32 0x7FC00000#32),
    StableHlo.TRef.unary main_call8.cst main_call8.v15 (broadcastInDim S1049600x128 ![] bcast_S_S1049600x128),
    StableHlo.TRef.ternary main_call8.v14 main_call8.v13 main_call8.v15 main_call8.v16 select,
    StableHlo.unary main_v97 main_v100 (broadcastInDim S1049600x1 ![0] bcast_S1049600_S1049600x1_0 : (⟨S1049600, .f32⟩ : BufTy).Contents (Elt F) → (⟨S1049600x1, .f32⟩ : BufTy).Contents (Elt F)),
    StableHlo.unary main_v100 main_v101 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v99 main_v101 main_v102 (mulf : (⟨S1049600x128, .f32⟩ : BufTy).Contents (Elt F) → (⟨S1049600x128, .f32⟩ : BufTy).Contents (Elt F) → (⟨S1049600x128, .f32⟩ : BufTy).Contents (Elt F)),
    StableHlo.nullary main_cst_28 (constant S_ .f32 0x00000000#32),
    StableHlo.unary main_cst_28 main_v103 (broadcastInDim S1024x128 ![] bcast_S_S1024x128 : (⟨S_, .f32⟩ : BufTy).Contents (Elt F) → (⟨S1024x128, .f32⟩ : BufTy).Contents (Elt F)),
    StableHlo.nullary main_c_29 (constantI S_ 32 0#32),
    StableHlo.unary main_c_29 main_v104 (broadcastInDim S1049600 ![] bcast_S_S1049600 : (⟨S_, .i32⟩ : BufTy).Contents (Elt F) → (⟨S1049600, .i32⟩ : BufTy).Contents (Elt F)),
    StableHlo.binary main_v64 main_v104 main_v105 (cmpi .slt : (⟨S1049600, .i32⟩ : BufTy).Contents (Elt F) → (⟨S1049600, .i32⟩ : BufTy).Contents (Elt F) → (⟨S1049600, .i1⟩ : BufTy).Contents (Elt F)),
    StableHlo.nullary main_c_30 (constantI S_ 32 1024#32),
    StableHlo.unary main_c_30 main_v106 (broadcastInDim S1049600 ![] bcast_S_S1049600 : (⟨S_, .i32⟩ : BufTy).Contents (Elt F) → (⟨S1049600, .i32⟩ : BufTy).Contents (Elt F)),
    StableHlo.binary main_v64 main_v106 main_v107 (addi : (⟨S1049600, .i32⟩ : BufTy).Contents (Elt F) → (⟨S1049600, .i32⟩ : BufTy).Contents (Elt F) → (⟨S1049600, .i32⟩ : BufTy).Contents (Elt F)),
    StableHlo.ternary main_v105 main_v107 main_v64 main_v108 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v108 main_v109 (broadcastInDim S1049600x1 ![0] bcast_S1049600_S1049600x1_0 : (⟨S1049600, .i32⟩ : BufTy).Contents (Elt F) → (⟨S1049600x1, .i32⟩ : BufTy).Contents (Elt F)),
    StableHlo.ternary main_v103 main_v109 main_v102 main_v110 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg5 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S1024x128 ![0, 1] bcast_S1x128_S1024x128_0_1 : (⟨S1x128, .f32⟩ : BufTy).Contents (Elt F) → (⟨S1024x128, .f32⟩ : BufTy).Contents (Elt F)),
    StableHlo.binary main_v110 main_v112 main_v113 (addf : (⟨S1024x128, .f32⟩ : BufTy).Contents (Elt F) → (⟨S1024x128, .f32⟩ : BufTy).Contents (Elt F) → (⟨S1024x128, .f32⟩ : BufTy).Contents (Elt F)),
    StableHlo.reshape main_v113 main_v114 rfl shapeCasts_S1024x128_S1x1024x128 ]

end Cert.ReferenceIdeal.Run

end
-- ==== Proof.RefRun.lean ====
/-
  The reference program is a straight line of host operations: each window of @main, with the functions it calls
  unfolded at their calls, is the sequence of its listed operations; so every weakly fair execution of @main ends,
  without a fault, with each buffer at the fold of the operations' results over the launch contents.
-/
import proofs.«140009_g35596688949519_fold_wed_c4_25_2_alg».proof.Proof.RefOps

noncomputable section

namespace Cert.ReferenceIdeal.Run

open Idealize.ShloMosaic Idealize.SL.Sem Idealize.ShloMosaic.StableHlo Cert.ReferenceIdeal
open Cert.ReferenceIdeal.Facts₀ Cert.ReferenceIdeal.Facts

variable {F : FTy → Type} [FloatOps F] [Cert.ReferenceIdeal.Facts]

/-- All of @main's operations, in order. -/
abbrev ops : List (HloOp τ sig (Elt F)) := ops0 ++ (ops1 ++ ops2)

set_option maxRecDepth 8192 in
/-- The first window of @main is its operations, the called functions unfolded at their calls. -/
theorem part0_eq (c : Dev nD) : main_part0 (F := F) c = seq ops0 := by
  simp only [main_part0, fn_floor_divide.body, fn_remainder.body, fn_where.body, fn_where_0.body, fn_where_1.body,
    fn_where_2.body, fn_take.body, fn_relu.body, seq, bind_assoc, pure_bind]
  rfl

set_option maxRecDepth 8192 in
theorem part1_eq (c : Dev nD) : main_part1 (F := F) c = seq ops1 := by
  simp only [main_part1, fn_floor_divide.body, fn_remainder.body, fn_where.body, fn_where_0.body, fn_where_1.body,
    fn_where_2.body, fn_take.body, fn_relu.body, seq, bind_assoc, pure_bind]
  rfl

set_option maxRecDepth 8192 in
theorem part2_eq (c : Dev nD) : main_part2 (F := F) c = seq ops2 := by
  simp only [main_part2, fn_floor_divide.body, fn_remainder.body, fn_where.body, fn_where_0.body, fn_where_1.body,
    fn_where_2.body, fn_take.body, fn_relu.body, seq, bind_assoc, pure_bind]

/-- @main is the three windows one after the other, that is, the whole list run as one line. -/
theorem main_eq (c : Dev nD) : main (F := F) c = seq ops := by
  rw [show (ops : List (HloOp τ sig (Elt F))) = ops0 ++ (ops1 ++ ops2) from rfl, seq_append, seq_append,
    ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes device buffers only. -/
theorem ops0_sub : (ops0 : List (HloOp τ sig (Elt F))).Forall fun op => op.bufs ⊆ tcRefs τ sig := by
  simp only [ops0, TRef.nullary, TRef.unary, TRef.binary, TRef.ternary, List.Forall, nullary_bufs_sub, unary_bufs_sub,
    binary_bufs_sub, ternary_bufs_sub, reshape_bufs_sub, and_self]
theorem ops1_sub : (ops1 : List (HloOp τ sig (Elt F))).Forall fun op => op.bufs ⊆ tcRefs τ sig := by
  simp only [ops1, TRef.nullary, TRef.unary, TRef.binary, TRef.ternary, List.Forall, nullary_bufs_sub, unary_bufs_sub,
    binary_bufs_sub, ternary_bufs_sub, reshape_bufs_sub, and_self]
theorem ops2_sub : (ops2 : List (HloOp τ sig (Elt F))).Forall fun op => op.bufs ⊆ tcRefs τ sig := by
  simp only [ops2, TRef.nullary, TRef.unary, TRef.binary, TRef.ternary, List.Forall, nullary_bufs_sub, unary_bufs_sub,
    binary_bufs_sub, ternary_bufs_sub, reshape_bufs_sub, and_self]

theorem forall_ops {P : HloOp τ sig (Elt F) → Prop} (h0 : (ops0 : List (HloOp τ sig (Elt F))).Forall P)
    (h1 : (ops1 : List (HloOp τ sig (Elt F))).Forall P) (h2 : (ops2 : List (HloOp τ sig (Elt F))).Forall P) :
    ∀ op ∈ (ops : List (HloOp τ sig (Elt F))), P op := by
  intro op h
  rcases List.mem_append.1 h with h | h
  · exact List.forall_iff_forall_mem.1 h0 op h
  · rcases List.mem_append.1 h with h | h
    · exact List.forall_iff_forall_mem.1 h1 op h
    · exact List.forall_iff_forall_mem.1 h2 op h

theorem ops_sub : (ops : List (HloOp τ sig (Elt F))).Forall fun op => op.bufs ⊆ tcRefs τ sig :=
  List.forall_iff_forall_mem.2 (forall_ops ops0_sub ops1_sub ops2_sub)

/-- No operation allocates a buffer of undetermined contents. -/
theorem ops0_fresh : (ops0 : List (HloOp τ sig (Elt F))).Forall fun op => op.fresh = ∅ := by
  simp only [ops0, List.Forall]; repeat' constructor
theorem ops1_fresh : (ops1 : List (HloOp τ sig (Elt F))).Forall fun op => op.fresh = ∅ := by
  simp only [ops1, List.Forall]; repeat' constructor
theorem ops2_fresh : (ops2 : List (HloOp τ sig (Elt F))).Forall fun op => op.fresh = ∅ := by
  simp only [ops2, List.Forall]; repeat' constructor

/-- Every weakly fair execution of the reference terminates without a fault, each buffer ending at the fold of the
    operations' results over what the launch dealt it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => forall_ops ops0_fresh ops1_fresh ops2_fresh)

end Cert.ReferenceIdeal.Run

end
-- ==== Proof.RefDefs.lean ====
/-
  The reference's result as one term of its argument arrays, built from named parts.

  The edge list has one slot per pair (row, column) of the adjacency matrix, in row-major order, followed by one self
  loop per node: slot e < 1024² is the pair (e div 1024, e mod 1024), slot 1024² + n the pair (n, n). The program
  computes the two index arrays with jnp's floor division and remainder, the weights as the adjacency words' "not zero"
  followed by ones, the degrees by scatter-adding the weights at the column indices, their inverse square roots guarded
  by "degree positive", the edge norms by gathering those at both ends, and each layer's aggregation by gathering the
  source rows, scaling them by the norms and scatter-adding them at the column indices. Both layers compute the same
  index arrays, weights, degrees and norms again, so both are one function `layerT` of the features going in.
-/
import proofs.«140009_g35596688949519_fold_wed_c4_25_2_alg».proof.ReferenceIdeal

noncomputable section

namespace Cert.ReferenceIdeal.Term

open Idealize.ShloMosaic Idealize.SL.Sem Cert.ReferenceIdeal
open Cert.ReferenceIdeal.Facts₀ Cert.ReferenceIdeal.Facts

variable {F : FTy → Type} [FloatOps F] [Cert.ReferenceIdeal.Facts]

/-- An array over the edge slots followed by an array over the self loops. -/
def cat2 {α : Type} (a : S1048576.Idx → α) (b : S1024.Idx → α) : S1049600.Idx → α :=
  concatenate S1049600 0 [⟨S1048576, a⟩, ⟨S1024, b⟩] concatenates_S1048576_S1024_S1049600_d0

theorem cat2_eq {α : Type} :
    (fun (a : S1048576.Idx → α) (b : S1024.Idx → α) =>
      concatenate S1049600 0 [⟨S1048576, a⟩, ⟨S1024, b⟩] concatenates_S1048576_S1024_S1049600_d0) = cat2 := rfl

/-- The slot numbers 0 … 1024² − 1. -/
def eid : S1048576.Idx → BitVec 32 := iotaInDim S1048576 32 0
/-- The divisor 1024, as the floor division and the remainder receive it. -/
def k1024 : S_.Idx → BitVec 32 := id (constantI S_ 32 1024#32)
/-- Zero at every slot. -/
def zeroE : S1048576.Idx → BitVec 32 := broadcastInDim S1048576 ![] bcast_S_S1048576 (constantI S_ 32 0#32)
/-- The truncated quotient of the slot number by 1024. -/
def quoE : S1048576.Idx → BitVec 32 := Host.divsi eid (broadcastInDim S1048576 ![] bcast_S_S1048576 k1024)

/-- The row of each slot: jnp's floor division of the slot number by 1024 (the truncated quotient, less one where
    the signs differ and the remainder is not zero). -/
def rowT : S1048576.Idx → BitVec 32 :=
  select
    (andi (cmpi .ne (signi eid) (broadcastInDim S1048576 ![] bcast_S_S1048576 (signi k1024)))
      (cmpi .ne (Host.remsi eid (broadcastInDim S1048576 ![] bcast_S_S1048576 k1024)) zeroE))
    (subi quoE (broadcastInDim S1048576 ![] bcast_S_S1048576 (constantI S_ 32 1#32)))
    quoE

/-- The divisor jnp's remainder uses: 1 in place of 0. -/
def kdiv : S_.Idx → BitVec 32 := select (cmpi .eq k1024 (constantI S_ 32 0#32)) (constantI S_ 32 1#32) k1024
/-- The truncated remainder of the slot number. -/
def remE : S1048576.Idx → BitVec 32 := Host.remsi eid (broadcastInDim S1048576 ![] bcast_S_S1048576 kdiv)

/-- The column of each slot: jnp's remainder of the slot number by 1024 (the truncated remainder, plus the divisor
    where it is not zero and its sign is not the divisor's). -/
def colT : S1048576.Idx → BitVec 32 :=
  select
    (andi
      (cmpi .ne (cmpi .slt remE zeroE)
        (broadcastInDim S1048576 ![] bcast_S_S1048576 (cmpi .slt kdiv (constantI S_ 32 0#32))))
      (cmpi .ne remE zeroE))
    (addi remE (broadcastInDim S1048576 ![] bcast_S_S1048576 kdiv))
    remE

/-- The weight of each slot: 1 where the adjacency word is not zero, else 0. -/
def ewT (A : S1024x1024.Idx → BitVec 32) : S1048576.Idx → F .f32 :=
  uitofp .f32 (cmpi .ne (fun i => shapeCast S1048576 A shapeCasts_S1024x1024_S1048576 i) zeroE)

/-- Source node, target node and weight of every edge, the self loops last. -/
def rT : S1049600.Idx → BitVec 32 := cat2 rowT (iotaInDim S1024 32 0)
def cT : S1049600.Idx → BitVec 32 := cat2 colT (iotaInDim S1024 32 0)
def wT (A : S1024x1024.Idx → BitVec 32) : S1049600.Idx → F .f32 :=
  cat2 (ewT A) (broadcastInDim S1024 ![] bcast_S_S1024 (constant S_ .f32 0x3F800000#32))

/-- jnp's index normalisation (a negative index counts from the end), as a column of start indices. -/
def nidx (v : S1049600.Idx → BitVec 32) : S1049600x1.Idx → BitVec 32 :=
  broadcastInDim S1049600x1 ![0] bcast_S1049600_S1049600x1_0
    (select (cmpi .slt v (broadcastInDim S1049600 ![] bcast_S_S1049600 (constantI S_ 32 0#32)))
      (addi v (broadcastInDim S1049600 ![] bcast_S_S1049600 (constantI S_ 32 1024#32))) v)

/-- Zero at every node. -/
def zeros1 : S1024.Idx → F .f32 := broadcastInDim S1024 ![] bcast_S_S1024 (constant S_ .f32 0x00000000#32)

/-- The degrees: the weights scatter-added at the target nodes. -/
def degT (A : S1024x1024.Idx → BitVec 32) : S1024.Idx → F .f32 :=
  Host.scatterAdd scatter_S1024_S1049600x1_S1049600_n_0_0_1 zeros1 (nidx cT) (wT A)

/-- The guarded inverse square root: of the degree where it is positive (of 1 elsewhere), and 0 where it is not. -/
def dinvOf (deg : S1024.Idx → F .f32) : S1024.Idx → F .f32 :=
  select (cmpf .ogt deg zeros1)
    (Host.rsqrt (select (cmpf .ogt deg zeros1) deg
      (broadcastInDim S1024 ![] bcast_S_S1024 (id (constant S_ .f32 0x3F800000#32)))))
    (broadcastInDim S1024 ![] bcast_S_S1024 (id (constant S_ .f32 0x00000000#32)))

/-- The norm of every edge: the inverse square roots at its two ends, times its weight. -/
def normOf (dinv : S1024.Idx → F .f32) (w : S1049600.Idx → F .f32) : S1049600.Idx → F .f32 :=
  mulf (mulf (Host.gather gather_S1024_S1049600x1_S1049600_n_0_n_n_0_1_1 dinv (nidx rT))
    (Host.gather gather_S1024_S1049600x1_S1049600_n_0_n_n_0_1_1 dinv (nidx cT))) w

/-- The source node's feature row of every edge (jnp.take along the node axis, its fill value where an index were
    out of range). -/
def takeT (h : S1024x128.Idx → F .f32) : S1049600x128.Idx → F .f32 :=
  select
    (broadcastInDim S1049600x128 ![0] bcast_S1049600_S1049600x128_0
      (Host.reduce IntOp.andi
        (andi (cmpi .sge (nidx rT) (broadcastInDim S1049600x1 ![] bcast_S_S1049600x1 (constantI S_ 32 0#32)))
          (cmpi .sle (nidx rT)
            (broadcastInDim S1049600x1 ![0, 1] bcast_S1x1_S1049600x1_0_1
              (broadcastInDim S1x1 ![1] bcast_S1_S1x1_1 (constantI S1 32 1023#32)))))
        (constantI S_ 1 1#1) reducesTo_S1049600x1_S1049600_d1 h_S_))
    (Host.gather gather_S1024x128_S1049600x1_S1049600x128_1_0_n_n_0_1_1128 h (nidx rT))
    (broadcastInDim S1049600x128 ![] bcast_S_S1049600x128 (constant S_ .f32 0x7FC00000#32))

/-- One layer's aggregation: the gathered rows scaled by the norms, scatter-added at the target nodes, plus the bias. -/
def aggOf (h : S1024x128.Idx → F .f32) (norm : S1049600.Idx → F .f32) (b : S128.Idx → F .f32) : S1024x128.Idx → F .f32 :=
  addf
    (Host.scatterAdd scatter_S1024x128_S1049600x1_S1049600x128_1_0_0_1
      (broadcastInDim S1024x128 ![] bcast_S_S1024x128 (constant S_ .f32 0x00000000#32))
      (nidx cT)
      (mulf (takeT h)
        (broadcastInDim S1049600x128 ![0, 1] bcast_S1049600x1_S1049600x128_0_1
          (broadcastInDim S1049600x1 ![0] bcast_S1049600_S1049600x1_0 norm))))
    (broadcastInDim S1024x128 ![0, 1] bcast_S1x128_S1024x128_0_1 (broadcastInDim S1x128 ![1] bcast_S128_S1x128_1 b))

/-- The features as the reference reads them: a leading axis added and removed again. -/
def xT (X : S1024x128.Idx → F .f32) : S1024x128.Idx → F .f32 :=
  fun i => shapeCast S1024x128 (broadcastInDim S1x1024x128 ![1, 2] bcast_S1024x128_S1x1024x128_1_2 X)
    shapeCasts_S1x1024x128_S1024x128 i

/-- Features times a weight matrix. -/
def dotT (x : S1024x128.Idx → F .f32) (W : S128x128.Idx → F .f32) : S1024x128.Idx → F .f32 :=
  Host.dotGeneral dot_S1024x128_S128x128_S1024x128_1_0_0_1_n_n none x W

/-- The positive part. -/
def reluT (x : S1024x128.Idx → F .f32) : S1024x128.Idx → F .f32 :=
  maximumf x (broadcastInDim S1024x128 ![] bcast_S_S1024x128 (constant S_ .f32 0x00000000#32))

/-- One graph-convolution layer. -/
def layerT (x : S1024x128.Idx → F .f32) (W : S128x128.Idx → F .f32) (b : S128.Idx → F .f32)
    (A : S1024x1024.Idx → BitVec 32) : S1024x128.Idx → F .f32 :=
  aggOf (dotT x W) (normOf (dinvOf (degT A)) (wT A)) b

/-- The reference's result. -/
def outT (X : S1024x128.Idx → F .f32) (A : S1024x1024.Idx → BitVec 32) (W1 : S128x128.Idx → F .f32)
    (b1 : S128.Idx → F .f32) (W2 : S128x128.Idx → F .f32) (b2 : S128.Idx → F .f32) : S1x1024x128.Idx → F .f32 :=
  fun i => shapeCast S1x1024x128 (layerT (reluT (layerT (xT X) W1 b1 A)) W2 b2 A) shapeCasts_S1024x128_S1x1024x128 i

end Cert.ReferenceIdeal.Term

end
-- ==== Proof.RefArgs.lean ====
/-
  No operation of the reference writes an argument buffer: each operation writes the one buffer of its result, a
  different reference, so the fold of the operations leaves the six argument arrays as the launch dealt them.
-/
import proofs.«140009_g35596688949519_fold_wed_c4_25_2_alg».proof.Proof.RefRun

noncomputable section

namespace Cert.ReferenceIdeal.Run

open Idealize.ShloMosaic Idealize.SL.Sem Idealize.ShloMosaic.StableHlo Cert.ReferenceIdeal
open Cert.ReferenceIdeal.Facts₀ Cert.ReferenceIdeal.Facts

variable {F : FTy → Type} [FloatOps F] [Cert.ReferenceIdeal.Facts]

/-- The six argument buffers. -/
abbrev argRefs : List (Ref sig .tc) := [main_arg0, main_arg1, main_arg2, main_arg3, main_arg4, main_arg5]

/-- No operation of the first window writes an argument buffer: each writes its own result, another reference. -/
theorem ops0_keeps {r : Ref sig .tc} (hr : r ∈ argRefs) :
    (ops0 : List (HloOp τ sig (Elt F))).Forall fun op => Proc.devRef .tc r ∉ op.writes := by
  simp only [ops0, TRef.nullary, TRef.unary, TRef.binary, TRef.ternary, List.Forall, nullary_writes, unary_writes,
    binary_writes, ternary_writes, reshape_writes, Finset.mem_singleton]
  repeat' apply And.intro
  all_goals exact devRef_ne_of_ne (ne_of_mem_of_not_mem hr (by decide))
/-- No operation of the second window writes an argument buffer: each writes its own result, another reference. -/
theorem ops1_keeps {r : Ref sig .tc} (hr : r ∈ argRefs) :
    (ops1 : List (HloOp τ sig (Elt F))).Forall fun op => Proc.devRef .tc r ∉ op.writes := by
  simp only [ops1, TRef.nullary, TRef.unary, TRef.binary, TRef.ternary, List.Forall, nullary_writes, unary_writes,
    binary_writes, ternary_writes, reshape_writes, Finset.mem_singleton]
  repeat' apply And.intro
  all_goals exact devRef_ne_of_ne (ne_of_mem_of_not_mem hr (by decide))
/-- No operation of the third window writes an argument buffer: each writes its own result, another reference. -/
theorem ops2_keeps {r : Ref sig .tc} (hr : r ∈ argRefs) :
    (ops2 : List (HloOp τ sig (Elt F))).Forall fun op => Proc.devRef .tc r ∉ op.writes := by
  simp only [ops2, TRef.nullary, TRef.unary, TRef.binary, TRef.ternary, List.Forall, nullary_writes, unary_writes,
    binary_writes, ternary_writes, reshape_writes, Finset.mem_singleton]
  repeat' apply And.intro
  all_goals exact devRef_ne_of_ne (ne_of_mem_of_not_mem hr (by decide))

/-- A buffer that no operation writes keeps what the launch dealt it. -/
theorem arg_eq {r : Ref sig .tc} (hr : r ∈ argRefs) (V : Valuation τ sig (Elt F)) :
    after (ops (F := F)) V (Proc.devRef .tc r) = V (Proc.devRef .tc r) :=
  after_of_forall_not_mem (b := Proc.devRef .tc r) ops V (forall_ops (ops0_keeps hr) (ops1_keeps hr) (ops2_keeps hr))

theorem arg0_eq (V : Valuation τ sig (Elt F)) : after (ops (F := F)) V (Proc.devRef .tc main_arg0) = V (Proc.devRef .tc main_arg0) :=
  arg_eq (by decide) V
theorem arg1_eq (V : Valuation τ sig (Elt F)) : after (ops (F := F)) V (Proc.devRef .tc main_arg1) = V (Proc.devRef .tc main_arg1) :=
  arg_eq (by decide) V
theorem arg2_eq (V : Valuation τ sig (Elt F)) : after (ops (F := F)) V (Proc.devRef .tc main_arg2) = V (Proc.devRef .tc main_arg2) :=
  arg_eq (by decide) V
theorem arg3_eq (V : Valuation τ sig (Elt F)) : after (ops (F := F)) V (Proc.devRef .tc main_arg3) = V (Proc.devRef .tc main_arg3) :=
  arg_eq (by decide) V
theorem arg4_eq (V : Valuation τ sig (Elt F)) : after (ops (F := F)) V (Proc.devRef .tc main_arg4) = V (Proc.devRef .tc main_arg4) :=
  arg_eq (by decide) V
theorem arg5_eq (V : Valuation τ sig (Elt F)) : after (ops (F := F)) V (Proc.devRef .tc main_arg5) = V (Proc.devRef .tc main_arg5) :=
  arg_eq (by decide) V

end Cert.ReferenceIdeal.Run

end
-- ==== Proof.Slots.lean ====
/-
  The edge slots of the graph: slot r · 1024 + c is the pair (r, c) of the adjacency matrix, slot 1024² + n the self loop
  of node n. The slots whose target node is c are one per source node r, and c's own self loop; so a sum over those
  slots is a sum over the source nodes plus the self loop's term.
-/
import Mathlib.Algebra.BigOperators.Group.Finset.Basic
import Mathlib.Algebra.BigOperators.Fin
import Mathlib.Tactic.Ring
import Mathlib.Tactic.Linarith

namespace Cert.Gcn

/-- The slot of the pair (r, c). -/
def slot (r c : Fin 1024) : Fin 1049600 := ⟨r.val * 1024 + c.val, by have := r.isLt; have := c.isLt; omega⟩
/-- The slot of node c's self loop. -/
def loopSlot (c : Fin 1024) : Fin 1049600 := ⟨1048576 + c.val, by have := c.isLt; omega⟩

/-- The source node of a slot. -/
def rowOf (e : Fin 1049600) : ℕ := if e.val < 1048576 then e.val / 1024 else e.val - 1048576
/-- The target node of a slot. -/
def colOf (e : Fin 1049600) : ℕ := if e.val < 1048576 then e.val % 1024 else e.val - 1048576

theorem rowOf_lt (e : Fin 1049600) : rowOf e < 1024 := by
  have := e.isLt
  unfold rowOf
  split <;> omega
theorem colOf_lt (e : Fin 1049600) : colOf e < 1024 := by
  have := e.isLt
  unfold colOf
  split <;> omega
theorem rowOf_slot (r c : Fin 1024) : rowOf (slot r c) = r.val := by
  have := r.isLt; have := c.isLt
  have hv : (slot r c).val = r.val * 1024 + c.val := rfl
  unfold rowOf
  split <;> omega
theorem colOf_slot (r c : Fin 1024) : colOf (slot r c) = c.val := by
  have := r.isLt; have := c.isLt
  have hv : (slot r c).val = r.val * 1024 + c.val := rfl
  unfold colOf
  split <;> omega
theorem rowOf_loopSlot (c : Fin 1024) : rowOf (loopSlot c) = c.val := by
  have := c.isLt
  have hv : (loopSlot c).val = 1048576 + c.val := rfl
  unfold rowOf
  split <;> omega
theorem colOf_loopSlot (c : Fin 1024) : colOf (loopSlot c) = c.val := by
  have := c.isLt
  have hv : (loopSlot c).val = 1048576 + c.val := rfl
  unfold colOf
  split <;> omega

/-- A sum over the slots whose target node is c: the source nodes' terms, then the self loop's. -/
theorem sum_slots {M : Type*} [AddCommMonoid M] (c : Fin 1024) (g : Fin 1049600 → M) :
    ∑ e ∈ Finset.univ.filter (fun e : Fin 1049600 => colOf e = c.val), g e
      = (∑ r : Fin 1024, g (slot r c)) + g (loopSlot c) := by
  -- The slots with target node c: one per source node r, and c's own self loop.
  have hset : Finset.univ.filter (fun e : Fin 1049600 => colOf e = c.val)
      = (Finset.univ.image (fun r : Fin 1024 => slot r c)) ∪ {loopSlot c} := by
    ext e
    simp only [Finset.mem_filter, Finset.mem_univ, true_and, Finset.mem_union, Finset.mem_image,
      Finset.mem_singleton]
    constructor
    · intro h
      have he := e.isLt
      have hc := c.isLt
      by_cases hlt : e.val < 1048576
      · left
        unfold colOf at h
        rw [if_pos hlt] at h
        refine ⟨⟨e.val / 1024, by omega⟩, ?_⟩
        apply Fin.ext
        simp only [slot]
        omega
      · right
        unfold colOf at h
        rw [if_neg hlt] at h
        apply Fin.ext
        simp only [loopSlot]
        omega
    · rintro (⟨r, rfl⟩ | rfl)
      · exact colOf_slot r c
      · exact colOf_loopSlot c
  rw [hset, Finset.sum_union, Finset.sum_image, Finset.sum_singleton]
  · -- r ↦ slot r c is injective: the quotient by 1024 recovers r.
    intro a _ b _ h
    have h' := congrArg Fin.val h
    simp only [slot] at h'
    apply Fin.ext
    omega
  · -- a pair slot lies below 1024², a self loop slot at or above it.
    rw [Finset.disjoint_singleton_right]
    simp only [Finset.mem_image, Finset.mem_univ, true_and, not_exists]
    intro r h
    have h' := congrArg Fin.val h
    simp only [slot, loopSlot] at h'
    have := r.isLt
    have := c.isLt
    omega

end Cert.Gcn
-- ==== Proof.RefIdx.lean ====
/-
  The reference's index arrays, decoded: slot e of the edge list has source node rowOf e and target node colOf e.

  For a slot number e below 1024² the signed 32-bit quotient and remainder by 1024 are e div 1024 and e mod 1024 (both
  operands are small non-negative words, so the signed operations agree with the natural numbers'); the signs of e and of
  1024 never differ in a way that matters (sign e is 0 or 1, sign 1024 is 1, and where they differ e is 0, whose
  remainder is 0), so jnp's floor-division correction is never applied, and the remainder is never negative, so jnp's
  remainder correction is never applied either. The self loops' index is the loop's own number. Every index is in
  [0, 1024), so jnp's normalisation of negative indices leaves it as it is.
-/
import proofs.«140009_g35596688949519_fold_wed_c4_25_2_alg».proof.Proof.RefDefs
import proofs.«140009_g35596688949519_fold_wed_c4_25_2_alg».proof.Proof.Slots
import Idealize.ShloMosaic.Lib.ValueIdx
import Idealize.ShloMosaic.Lib.Pipeline.Value
import Idealize.ShloMosaic.Lib.StableHlo.Predicate
import Idealize.ShloMosaic.Lib.IdealHost

noncomputable section

namespace Cert.ReferenceIdeal.Term

open Idealize.ShloMosaic Idealize.ShloMosaic.ValueIdx Idealize.SL.Sem Cert.ReferenceIdeal
open Cert.ReferenceIdeal.Facts₀ Cert.ReferenceIdeal.Facts

variable [Cert.ReferenceIdeal.Facts]

/-- 1024 is neither zero nor minus one: a signed division by it meets no corner. -/
theorem not_corner_1024 (x : BitVec 32) : ¬ IntOp.SDivCorner x 1024#32 := by
  intro hc; rcases hc with hc | ⟨_, hc⟩ <;> exact absurd hc (by decide)

/-- A word below 2³¹ is not negative. -/
theorem msb_ofNat_small (e : ℕ) (he : e < 2 ^ 31) : (BitVec.ofNat 32 e).msb = false :=
  BitVec.msb_eq_false_iff_two_mul_lt.mpr (by simp [BitVec.toNat_ofNat]; omega)

/-- The signed quotient of a small non-negative word by 1024 is the natural numbers' quotient. -/
theorem divsi_1024 (u : ArithUnit) (e : ℕ) (he : e < 2 ^ 31) :
    IntOp.divsi u (BitVec.ofNat 32 e) 1024#32 = BitVec.ofNat 32 (e / 1024) := by
  apply BitVec.eq_of_toNat_eq
  simp only [IntOp.divsi, if_neg (not_corner_1024 _), BitVec.sdiv_eq, msb_ofNat_small e he,
    show (1024#32 : BitVec 32).msb = false from by decide, BitVec.udiv_eq, BitVec.toNat_udiv, BitVec.toNat_ofNat,
    show (1024 : ℕ) % 2 ^ 32 = 1024 from by norm_num]
  omega

/-- The signed remainder of a small non-negative word by 1024 is the natural numbers' remainder. -/
theorem remsi_1024 (u : ArithUnit) (e : ℕ) (he : e < 2 ^ 31) :
    IntOp.remsi u (BitVec.ofNat 32 e) 1024#32 = BitVec.ofNat 32 (e % 1024) := by
  apply BitVec.eq_of_toNat_eq
  simp only [IntOp.remsi, if_neg (not_corner_1024 _), BitVec.srem_eq, msb_ofNat_small e he,
    show (1024#32 : BitVec 32).msb = false from by decide, BitVec.umod_eq, BitVec.toNat_umod, BitVec.toNat_ofNat,
    show (1024 : ℕ) % 2 ^ 32 = 1024 from by norm_num]
  omega

/-- The sign of 1024 is 1. -/
theorem sign_k (i : S_.Idx) : signi k1024 i = 1#32 := by
  show (if (1024#32 : BitVec 32) = 0 then (0 : BitVec 32) else if (1024#32 : BitVec 32).msb then -1 else 1) = 1#32
  decide

/-- A small word is the zero word only if its number is zero. -/
theorem ofNat_eq_zero_iff (k : ℕ) (hk : k < 2 ^ 32) : BitVec.ofNat 32 k = 0#32 ↔ k = 0 := by
  constructor
  · intro h
    have := congrArg BitVec.toNat h
    simp only [BitVec.toNat_ofNat, BitVec.toNat_zero] at this
    omega
  · rintro rfl; rfl

/-- The slot numbers, read at an index. -/
theorem eid_apply (e : Fin 1048576) : eid (ix1 e) = BitVec.ofNat 32 e.val := rfl

/-- The truncated quotient at slot e is e div 1024. -/
theorem quoE_apply (e : Fin 1048576) : quoE (ix1 e) = BitVec.ofNat 32 (e.val / 1024) := by
  show IntOp.divsi .host (BitVec.ofNat 32 e.val) 1024#32 = _
  exact divsi_1024 _ _ (by have := e.isLt; omega)

/-- The truncated remainder at slot e is e mod 1024. -/
theorem remE_apply (e : Fin 1048576) : remE (ix1 e) = BitVec.ofNat 32 (e.val % 1024) := by
  show IntOp.remsi .host (BitVec.ofNat 32 e.val) 1024#32 = _
  exact remsi_1024 _ _ (by have := e.isLt; omega)

/-- The divisor of the remainder is 1024 (1024 is not zero). -/
theorem kdiv_apply (i : S_.Idx) : kdiv i = 1024#32 := rfl

/-- A small non-negative word is not below zero. -/
theorem slt_zero_small (k : ℕ) (hk : k < 2 ^ 31) : IntOp.cmpi .slt (BitVec.ofNat 32 k) 0#32 = 0#1 := by
  apply eq_zero_of_ne_one
  intro h
  have := (StableHlo.Predicate.slt_ofNat_iff k 0 hk (by norm_num)).1 h
  omega

/-- Below 1024² the concatenation reads its first part. -/
theorem cat2_lo {α : Type} (a : S1048576.Idx → α) (b : S1024.Idx → α) (e : Fin 1049600) (h : e.val < 1048576) :
    cat2 a b (ix1 e) = a (ix1 (⟨e.val, h⟩ : Fin 1048576)) := by
  unfold cat2
  refine concatenate_pair_apply_left (0 : Fin S1049600.rank) a b _ (ix1 e) rfl (ix1 ⟨e.val, h⟩) ?_
  intro d
  have h1 : d.val < 1 := d.isLt
  have hd : d = ⟨0, by decide⟩ := Fin.ext (by show d.val = 0; omega)
  subst hd
  rfl

/-- From 1024² on it reads its second part. -/
theorem cat2_hi {α : Type} (a : S1048576.Idx → α) (b : S1024.Idx → α) (e : Fin 1049600) (h : 1048576 ≤ e.val) :
    cat2 a b (ix1 e) = b (ix1 (⟨e.val - 1048576, by have := e.isLt; omega⟩ : Fin 1024)) := by
  unfold cat2
  refine concatenate_pair_apply_right (0 : Fin S1049600.rank) a b _ (ix1 e) rfl rfl (ix1 ⟨e.val - 1048576, by have := e.isLt; omega⟩) ?_ ?_
  · intro d hd
    exfalso; apply hd
    apply Fin.ext
    have h1 : d.val < 1 := d.isLt
    show d.val = 0
    omega
  · show (e.val - 1048576) + 1048576 = e.val
    omega

/-- The row of slot e: e div 1024. -/
theorem rowT_apply (e : Fin 1048576) : rowT (ix1 e) = BitVec.ofNat 32 (e.val / 1024) := by
  have he := e.isLt
  show Scalar.select
      (IntOp.andi
        (IntOp.cmpi .ne (if BitVec.ofNat 32 e.val = 0 then (0 : BitVec 32) else if (BitVec.ofNat 32 e.val).msb then -1 else 1)
          (signi k1024 _))
        (IntOp.cmpi .ne (IntOp.remsi .host (BitVec.ofNat 32 e.val) 1024#32) 0#32))
      (IntOp.subi (quoE (ix1 e)) 1#32) (quoE (ix1 e)) = _
  rw [sign_k, remsi_1024 _ _ (by omega), quoE_apply]
  have hc : IntOp.andi
        (IntOp.cmpi .ne (if BitVec.ofNat 32 e.val = 0 then (0 : BitVec 32) else if (BitVec.ofNat 32 e.val).msb then -1 else 1)
          1#32)
        (IntOp.cmpi .ne (BitVec.ofNat 32 (e.val % 1024)) 0#32) = 0#1 := by
    by_cases h0 : e.val = 0
    · rw [h0]; decide
    · have hne : ¬ BitVec.ofNat 32 e.val = 0 := fun h => h0 ((ofNat_eq_zero_iff _ (by omega)).1 h)
      rw [if_neg hne, msb_ofNat_small _ (by omega), if_neg (by decide : ¬ (false = true)),
        show IntOp.cmpi .ne (1 : BitVec 32) 1#32 = 0#1 from by decide]
      exact BitVec.zero_and
  rw [hc, select_zero]

/-- The column of slot e: e mod 1024. -/
theorem colT_apply (e : Fin 1048576) : colT (ix1 e) = BitVec.ofNat 32 (e.val % 1024) := by
  have he := e.isLt
  show Scalar.select
      (IntOp.andi
        (IntOp.cmpi .ne (IntOp.cmpi .slt (remE (ix1 e)) 0#32) (IntOp.cmpi .slt (1024#32 : BitVec 32) 0#32))
        (IntOp.cmpi .ne (remE (ix1 e)) 0#32))
      (IntOp.addi (remE (ix1 e)) 1024#32) (remE (ix1 e)) = _
  rw [remE_apply, slt_zero_small _ (by omega),
    show IntOp.cmpi .slt (1024#32 : BitVec 32) 0#32 = 0#1 from by decide,
    show IntOp.cmpi .ne (0#1 : BitVec 1) 0#1 = 0#1 from by decide]
  rw [show ∀ x : BitVec 1, IntOp.andi 0#1 x = 0#1 from fun x => BitVec.zero_and, select_zero]

/-- A vector as a column of extent one reads, at (e, 0), the vector at e. -/
theorem bcol_apply {α : Type} (v : S1049600.Idx → α) (e : Fin 1049600) :
    broadcastInDim S1049600x1 ![0] bcast_S1049600_S1049600x1_0 v (ix2 e (0 : Fin 1)) = v (ix1 e) := by
  simp only [broadcastInDim]
  congr 1
  funext a
  have h1 : a.val < 1 := a.isLt
  have ha : a = ⟨0, by decide⟩ := Fin.ext (by show a.val = 0; omega)
  subst ha
  apply Fin.ext
  split
  · next h1 => exact absurd h1 (by decide)
  · rfl

/-- The normalisation leaves an index in [0, 2³¹) as it is. -/
theorem nidx_small (v : S1049600.Idx → BitVec 32) (e : Fin 1049600) (k : ℕ) (hk : k < 2 ^ 31)
    (hv : v (ix1 e) = BitVec.ofNat 32 k) : (nidx v (ix2 e (0 : Fin 1))).toInt = (k : ℤ) := by
  unfold nidx
  refine (congrArg BitVec.toInt (bcol_apply _ e)).trans ?_
  show (Scalar.select (IntOp.cmpi .slt (v (ix1 e)) 0#32) (IntOp.addi (v (ix1 e)) 1024#32) (v (ix1 e))).toInt = _
  rw [hv, slt_zero_small k hk, select_zero]
  exact StableHlo.Predicate.toInt_ofNat_small k hk

/-- The normalised source index of every edge, read as a signed word, is its source node. -/
theorem nidx_rT (e : Fin 1049600) : (nidx rT (ix2 e (0 : Fin 1))).toInt = (Cert.Gcn.rowOf e : ℤ) := by
  have he := e.isLt
  by_cases h : e.val < 1048576
  · have hr : Cert.Gcn.rowOf e = e.val / 1024 := by unfold Cert.Gcn.rowOf; rw [if_pos h]
    rw [hr]
    refine nidx_small rT e _ (by omega) ?_
    unfold rT
    rw [cat2_lo _ _ e h]
    exact rowT_apply ⟨e.val, h⟩
  · have hr : Cert.Gcn.rowOf e = e.val - 1048576 := by unfold Cert.Gcn.rowOf; rw [if_neg h]
    rw [hr]
    refine nidx_small rT e _ (by omega) ?_
    unfold rT
    rw [cat2_hi _ _ e (by omega)]
    rfl

/-- The normalised target index of every edge, read as a signed word, is its target node. -/
theorem nidx_cT (e : Fin 1049600) : (nidx cT (ix2 e (0 : Fin 1))).toInt = (Cert.Gcn.colOf e : ℤ) := by
  have he := e.isLt
  by_cases h : e.val < 1048576
  · have hr : Cert.Gcn.colOf e = e.val % 1024 := by unfold Cert.Gcn.colOf; rw [if_pos h]
    rw [hr]
    refine nidx_small cT e _ (by omega) ?_
    unfold cT
    rw [cat2_lo _ _ e h]
    exact colT_apply ⟨e.val, h⟩
  · have hr : Cert.Gcn.colOf e = e.val - 1048576 := by unfold Cert.Gcn.colOf; rw [if_neg h]
    rw [hr]
    refine nidx_small cT e _ (by omega) ?_
    unfold cT
    rw [cat2_hi _ _ e (by omega)]
    rfl

end Cert.ReferenceIdeal.Term

end
-- ==== Proof.RefLayout.lean ====
/-
  The reference's pointwise and layout operations read at an index, at the ideal instance: the edge weights (the
  adjacency word's "not zero" at the pair's slot, one at a self loop), the features through the added and removed leading
  axis, the matrix product as a sum over the contracted axis, the positive part, the bias and the norms broadcast along
  the other axis, the zero arrays, and the final reshape.
-/
import proofs.«140009_g35596688949519_fold_wed_c4_25_2_alg».proof.Proof.RefDefs
import proofs.«140009_g35596688949519_fold_wed_c4_25_2_alg».proof.Proof.RefIdx
import proofs.«140009_g35596688949519_fold_wed_c4_25_2_alg».proof.Proof.Slots
import proofs.«140009_g35596688949519_fold_wed_c4_25_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.Term

open Idealize.ShloMosaic Idealize.ShloMosaic.ValueIdx Idealize.SL.Sem Cert.ReferenceIdeal
open Cert.ReferenceIdeal.Facts₀ Cert.ReferenceIdeal.Facts

variable [Cert.ReferenceIdeal.Facts]

/-! ## The edge weights -/

/-- The 32-bit float pattern 0x3F800000 (sign 0, exponent 127, fraction 0) is the number one. -/
theorem one_f32 : Ideal.ofBits .f32 0x3F800000#32 = 1 := by
  simp [Ideal.ofBits, Ideal.ieee, -EReal.coe_mul]
  norm_num

/-- A pair's slot r · 1024 + c lies below 1024². -/
theorem slot_val_lt (r c : Fin 1024) : (Cert.Gcn.slot r c).val < 1048576 := by
  have := r.isLt
  have := c.isLt
  show r.val * 1024 + c.val < 1048576
  omega

/-- The adjacency matrix flattened in row-major order, read at slot r · 1024 + c, is its entry (r, c): both have
    row-major position r · 1024 + c. -/
theorem reshape_slot (A : S1024x1024.Idx → BitVec 32) (r c : Fin 1024) (h : (Cert.Gcn.slot r c).val < 1048576) :
    shapeCast S1048576 A shapeCasts_S1024x1024_S1048576 (ix1 (⟨(Cert.Gcn.slot r c).val, h⟩ : Fin 1048576)) = A (ix2 r c) := by
  refine shapeCast_apply A shapeCasts_S1024x1024_S1048576 _ (ix2 r c) ?_
  rw [Shape.rowMajor_val_two, Shape.rowMajor_val_one]
  rfl

/-- The word comparison "not zero" as a bit: 0 at the zero word, 1 at every other word. -/
theorem ne_zero_bit_zero : IntOp.cmpi .ne (0#32) 0#32 = 0#1 := rfl
theorem ne_zero_bit_of_ne {a : BitVec 32} (h : ¬a = 0#32) : IntOp.cmpi .ne a 0#32 = 1#1 := by
  show BitVec.ofBool (a != 0#32) = 1#1
  rw [bne_iff_ne.mpr h]
  rfl

/-- The weight of a pair's slot before the self loops are appended: the bit "the adjacency word at (r, c) is not zero",
    read as an unsigned number. -/
theorem ewT_slot (A : S1024x1024.Idx → BitVec 32) (r c : Fin 1024) (h : (Cert.Gcn.slot r c).val < 1048576) :
    ewT (F := Ideal) A (ix1 (⟨(Cert.Gcn.slot r c).val, h⟩ : Fin 1048576)) = Cert.Gcn.adj A r c := by
  show (((IntOp.cmpi .ne (shapeCast S1048576 A shapeCasts_S1024x1024_S1048576
    (ix1 (⟨(Cert.Gcn.slot r c).val, h⟩ : Fin 1048576))) 0#32).toNat : ℝ) : EReal) = _
  rw [reshape_slot]
  unfold Cert.Gcn.adj Cert.Gcn.wt
  by_cases h0 : A (ix2 r c) = 0#32
  · rw [h0, if_pos rfl, ne_zero_bit_zero]
    show (((0 : ℕ) : ℝ) : EReal) = ((0 : ℝ) : EReal)
    rw [Nat.cast_zero]
  · rw [if_neg h0, ne_zero_bit_of_ne h0]
    show (((1 : ℕ) : ℝ) : EReal) = ((1 : ℝ) : EReal)
    rw [Nat.cast_one]

/-- The weight of the pair (r, c)'s slot: 1 where the adjacency word is not zero, else 0. -/
theorem wT_slot (A : S1024x1024.Idx → BitVec 32) (r c : Fin 1024) :
    wT (F := Ideal) A (ix1 (Cert.Gcn.slot r c)) = Cert.Gcn.adj A r c := by
  -- the slot lies below 1024², in the first part of the concatenation
  unfold wT
  rw [cat2_lo _ _ (Cert.Gcn.slot r c) (slot_val_lt r c)]
  exact ewT_slot A r c _

/-- The weight of a self loop: one. -/
theorem wT_loop (A : S1024x1024.Idx → BitVec 32) (c : Fin 1024) :
    wT (F := Ideal) A (ix1 (Cert.Gcn.loopSlot c)) = 1 := by
  -- the slot 1024² + c lies in the second part of the concatenation, the constant one
  unfold wT
  rw [cat2_hi _ _ (Cert.Gcn.loopSlot c) (Nat.le_add_right 1048576 c.val)]
  exact one_f32

/-! ## The features through the added and removed leading axis -/

/-- Adding a leading axis and removing it again changes nothing. -/
theorem xT_apply (X : FVec Ideal S1024x128 .f32) (n : Fin 1024) (k : Fin 128) : xT X (ix2 n k) = X (ix2 n k) := by
  unfold xT
  -- entry (n, k) of the [1024, 128] array has the row-major position of entry (0, n, k) of the [1, 1024, 128] array …
  refine (shapeCast_apply _ shapeCasts_S1x1024x128_S1024x128 (ix2 n k) (ix3 (0 : Fin 1) n k) ?_).trans ?_
  · rw [Shape.rowMajor_val_three, Shape.rowMajor_val_two]
    show ((0 : Nat) * 1024 + n.val) * 128 + k.val = n.val * 128 + k.val
    omega
  -- … which the broadcast along the new axis reads at (n, k)
  · refine broadcastInDim_apply _ bcast_S1024x128_S1x1024x128_1_2 X (ix3 (0 : Fin 1) n k) (ix2 n k) ?_
    intro a
    match a with
    | ⟨0, _⟩ =>
      show n.val = if (1024 : Nat) = 1 then 0 else n.val
      rw [if_neg (by decide)]
    | ⟨1, _⟩ =>
      show k.val = if (128 : Nat) = 1 then 0 else k.val
      rw [if_neg (by decide)]

/-! ## The matrix product -/

/-- The left operand's index at an output entry and a contraction index: its row is the entry's row (the left
    operand's one free axis) … -/
theorem lhs_dot_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch from List.not_mem_nil),
    dif_pos (show (0 : Fin S1024x128.rank) ∈ dot_S1024x128_S128x128_S1024x128_1_0_0_1_n_n.lhsNonContracting from List.mem_singleton.mpr rfl)]
  rfl
/-- … and its column is the contraction index (the left operand's contracted axis). -/
theorem lhs_dot_1 (i : S1024x128.Idx) (q : dot_S1024x128_S128x128_S1024x128_1_0_0_1_n_n.contr.Idx) :
    (dot_S1024x128_S128x128_S1024x128_1_0_0_1_n_n.lhsIdx i q 1).val = (q ⟨0, Nat.one_pos⟩).val :=
  dot_S1024x128_S128x128_S1024x128_1_0_0_1_n_n.lhsIdx_val_of_single rfl i q
/-- The right operand's index: its row is the contraction index (the right operand's contracted axis) … -/
theorem rhs_dot_0 (i : S1024x128.Idx) (q : dot_S1024x128_S128x128_S1024x128_1_0_0_1_n_n.contr.Idx) :
    (dot_S1024x128_S128x128_S1024x128_1_0_0_1_n_n.rhsIdx i q 0).val = (q ⟨0, Nat.one_pos⟩).val :=
  dot_S1024x128_S128x128_S1024x128_1_0_0_1_n_n.rhsIdx_val_of_single rfl i q
/-- … and its column is the entry's column (the right operand's one free axis, the result's second). -/
theorem rhs_dot_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch from List.not_mem_nil),
    dif_pos (show (1 : Fin S128x128.rank) ∈ dot_S1024x128_S128x128_S1024x128_1_0_0_1_n_n.rhsNonContracting from List.mem_singleton.mpr rfl)]
  rfl

/-- The matrix product at an entry: the sum over the contracted axis. -/
theorem dotT_apply (x : FVec Ideal S1024x128 .f32) (W : FVec Ideal S128x128 .f32) (n : Fin 1024) (f : Fin 128) :
    dotT x W (ix2 n f) = ∑ k : Fin 128, x (ix2 n k) * W (ix2 k f) := by
  unfold dotT
  simp only [Host.dotGeneral]
  -- the sum over the one-axis contraction index, re-indexed by that axis's coordinate k < 128
  rw [Ideal.dotGeneral_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  -- at contraction coordinate k the operands are read at (n, k) and (k, f)
  have el : dot_S1024x128_S128x128_S1024x128_1_0_0_1_n_n.lhsIdx (ix2 n f) ((contrEquiv1 dot_S1024x128_S128x128_S1024x128_1_0_0_1_n_n 128 rfl rfl).symm k) = ix2 n k :=
    funext fun a => Fin.ext (by
      match a with
      | ⟨0, _⟩ => exact lhs_dot_0 _ _
      | ⟨1, _⟩ => exact (lhs_dot_1 _ _).trans hk)
  have er : dot_S1024x128_S128x128_S1024x128_1_0_0_1_n_n.rhsIdx (ix2 n f) ((contrEquiv1 dot_S1024x128_S128x128_S1024x128_1_0_0_1_n_n 128 rfl rfl).symm k) = ix2 k f :=
    funext fun a => Fin.ext (by
      match a with
      | ⟨0, _⟩ => exact (rhs_dot_0 _ _).trans hk
      | ⟨1, _⟩ => exact rhs_dot_1 _ _)
  rw [el, er]

/-! ## The positive part, the broadcasts, the constant arrays -/

/-- The positive part at an entry. -/
theorem reluT_apply (x : FVec Ideal S1024x128 .f32) (n : Fin 1024) (f : Fin 128) :
    reluT x (ix2 n f) = max (x (ix2 n f)) 0 := by
  -- the maximum with the zero constant, entry by entry
  show max (x (ix2 n f)) (Ideal.ofBits .f32 0x00000000#32) = _
  rw [Ideal.ofBits_zero_f32]

/-- The bias broadcast along the nodes. -/
theorem bias_apply (b : FVec Ideal S128 .f32) (c : Fin 1024) (f : Fin 128) :
    broadcastInDim S1024x128 ![0, 1] bcast_S1x128_S1024x128_0_1 (broadcastInDim S1x128 ![1] bcast_S128_S1x128_1 b) (ix2 c f)
      = b (ix1 f) := by
  -- [1, 128] → [1024, 128]: entry (c, f) reads the row at (0, f) …
  refine (broadcastInDim_apply _ bcast_S1x128_S1024x128_0_1 _ (ix2 c f) (ix2 (0 : Fin 1) f) ?_).trans ?_
  · intro a
    match a with
    | ⟨0, _⟩ =>
      show (0 : Nat) = if (1 : Nat) = 1 then 0 else c.val
      rw [if_pos rfl]
    | ⟨1, _⟩ =>
      show f.val = if (128 : Nat) = 1 then 0 else f.val
      rw [if_neg (by decide)]
  -- … and [128] → [1, 128]: entry (0, f) reads the vector at f
  · refine broadcastInDim_apply _ bcast_S128_S1x128_1 b (ix2 (0 : Fin 1) f) (ix1 f) ?_
    intro a
    match a with
    | ⟨0, _⟩ =>
      show f.val = if (128 : Nat) = 1 then 0 else f.val
      rw [if_neg (by decide)]

/-- The norms broadcast along the features. -/
theorem normb_apply (norm : FVec Ideal S1049600 .f32) (e : Fin 1049600) (f : Fin 128) :
    broadcastInDim S1049600x128 ![0, 1] bcast_S1049600x1_S1049600x128_0_1
        (broadcastInDim S1049600x1 ![0] bcast_S1049600_S1049600x1_0 norm) (ix2 e f)
      = norm (ix1 e) := by
  -- [1049600, 1] → [1049600, 128]: entry (e, f) reads the column at (e, 0) …
  refine (broadcastInDim_apply _ bcast_S1049600x1_S1049600x128_0_1 _ (ix2 e f) (ix2 e (0 : Fin 1)) ?_).trans ?_
  · intro a
    match a with
    | ⟨0, _⟩ =>
      show e.val = if (1049600 : Nat) = 1 then 0 else e.val
      rw [if_neg (by decide)]
    | ⟨1, _⟩ =>
      show (0 : Nat) = if (1 : Nat) = 1 then 0 else f.val
      rw [if_pos rfl]
  -- … and [1049600] → [1049600, 1]: entry (e, 0) reads the vector at e
  · refine broadcastInDim_apply _ bcast_S1049600_S1049600x1_0 norm (ix2 e (0 : Fin 1)) (ix1 e) ?_
    intro a
    match a with
    | ⟨0, _⟩ =>
      show e.val = if (1049600 : Nat) = 1 then 0 else e.val
      rw [if_neg (by decide)]

/-- The zero array over nodes and features: a broadcast scalar reads the scalar, the zero pattern, everywhere. -/
theorem zeros2_apply (c : Fin 1024) (f : Fin 128) :
    broadcastInDim S1024x128 ![] bcast_S_S1024x128 (constant (F := Ideal) S_ .f32 0x00000000#32) (ix2 c f) = 0 :=
  Ideal.ofBits_zero_f32

/-- The zero array over nodes. -/
theorem zeros1_apply (c : Fin 1024) : zeros1 (F := Ideal) (ix1 c) = 0 := Ideal.ofBits_zero_f32

/-- The guard's fallbacks: one and zero at every node. -/
theorem one1_apply (c : Fin 1024) :
    broadcastInDim S1024 ![] bcast_S_S1024 (id (constant (F := Ideal) S_ .f32 0x3F800000#32)) (ix1 c) = 1 := one_f32
theorem zero1'_apply (c : Fin 1024) :
    broadcastInDim S1024 ![] bcast_S_S1024 (id (constant (F := Ideal) S_ .f32 0x00000000#32)) (ix1 c) = 0 :=
  Ideal.ofBits_zero_f32

/-! ## The final reshape -/

/-- Entry (a, n, f) of the [1, 1024, 128] result, a = 0, has the row-major position n · 128 + f of entry (n, f) of the
    [1024, 128] array. -/
theorem outT_ix3 (X : FVec Ideal S1024x128 .f32) (A : S1024x1024.Idx → BitVec 32) (W1 : FVec Ideal S128x128 .f32)
    (b1 : FVec Ideal S128 .f32) (W2 : FVec Ideal S128x128 .f32) (b2 : FVec Ideal S128 .f32)
    (a : Fin 1) (n : Fin 1024) (f : Fin 128) :
    outT X A W1 b1 W2 b2 (ix3 a n f) = layerT (reluT (layerT (xT X) W1 b1 A)) W2 b2 A (ix2 n f) := by
  unfold outT
  refine shapeCast_apply _ shapeCasts_S1024x128_S1x1024x128 (ix3 a n f) (ix2 n f) ?_
  rw [Shape.rowMajor_val_three, Shape.rowMajor_val_two]
  show n.val * 128 + f.val = (a.val * 1024 + n.val) * 128 + f.val
  have := a.isLt
  omega

/-- The result's leading axis of extent 1: entry (0, n, f) is the last layer's entry (n, f). -/
theorem outT_apply (X : FVec Ideal S1024x128 .f32) (A : S1024x1024.Idx → BitVec 32) (W1 : FVec Ideal S128x128 .f32)
    (b1 : FVec Ideal S128 .f32) (W2 : FVec Ideal S128x128 .f32) (b2 : FVec Ideal S128 .f32) (i : S1x1024x128.Idx) :
    outT X A W1 b1 W2 b2 i = layerT (reluT (layerT (xT X) W1 b1 A)) W2 b2 A (ix2 (i 1) (i 2)) := by
  obtain ⟨a, n, f, rfl⟩ : ∃ (a : Fin 1) (n : Fin 1024) (f : Fin 128), i = ix3 a n f := ⟨i 0, i 1, i 2, eq_ix3 i⟩
  exact outT_ix3 X A W1 b1 W2 b2 a n f

end Cert.ReferenceIdeal.Term

end
-- ==== Proof.ScatterAt.lean ====
/-
  The reference's two scatter-adds read at an index, at the ideal instance: the entry of the operand there plus the sum of
  the updates whose start index, read as a signed word, is that node (an update that lands nowhere adds nothing).
-/
import proofs.«140009_g35596688949519_fold_wed_c4_25_2_alg».proof.ReferenceIdeal
import Idealize.ShloMosaic.Lib.ValueIdx
import Idealize.ShloMosaic.Lib.StableHlo.Predicate
import Idealize.ShloMosaic.PureOps.Ideal.Laws

noncomputable section

namespace Cert.ReferenceIdeal.OpsAt

open Idealize.ShloMosaic Idealize.ShloMosaic.ValueIdx Idealize.SL.Sem Cert.ReferenceIdeal
open Cert.ReferenceIdeal.Facts₀ Cert.ReferenceIdeal.Facts

/-- The start of the window on the operand's one axis: the start index of the update's slot, read as a signed word. -/
theorem start1 {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (j : (⟨1, ![n]⟩ : Shape).Idx) :
    d.start j idx 0 = (idx (ix2 (j 0) (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- Rank-1 operand: its one axis is an inserted window axis, the window coordinate there is 0. -/
theorem window1 {N n : Nat} (d : ScatterDims ⟨1, ![N]⟩ ⟨2, ![n, 1]⟩ ⟨1, ![n]⟩)
    (hiw : d.insertedWindowDims = [0]) (j : (⟨1, ![n]⟩ : Shape).Idx) :
    d.window j 0 = 0 := by
  have hk : (0 : Fin 1) ∉ d.sKept := by
    simp [ScatterDims.sKept, Shape.kept, hiw]
  unfold ScatterDims.window
  rw [dif_neg hk]

/-- Rank-1 operand: an update lands at node `c` exactly when its slot's start index, read as a signed word, is `c`
    (a start index outside the operand lands nowhere). -/
theorem resultIdx1 {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (j : (⟨1, ![n]⟩ : Shape).Idx) (c : Fin N) :
    d.resultIdx? j idx = some (ix1 c) ↔ (idx (ix2 (j 0) (0 : Fin 1))).toInt = (c.val : ℤ) := by
  have hs := start1 d hsd hivd idx j
  have hw := window1 d hiw j
  have hall : ∀ a : Fin 1, d.start j idx a + d.window j a = (idx (ix2 (j 0) (0 : Fin 1))).toInt := fun a => by
    have ha : a = 0 := Subsingleton.elim _ _
    subst ha; rw [hs, hw]; simp
  unfold ScatterDims.resultIdx?
  split
  · rename_i h
    rw [Option.some.injEq]
    constructor
    · intro he
      have h0 := congrArg (fun g => (g 0).val) he
      simp only [hall] at h0
      have := (h 0).1
      rw [hall] at this
      change (idx (ix2 (j 0) (0 : Fin 1))).toInt.toNat = c.val at h0
      omega
    · intro he
      funext a
      have ha : a = 0 := Subsingleton.elim _ _
      subst ha
      apply Fin.ext
      show (d.start j idx 0 + d.window j 0).toNat = c.val
      rw [hall, he]; simp
  · rename_i h
    constructor
    · intro he; exact absurd he (by simp)
    · intro he
      exfalso; apply h
      intro a
      rw [hall, he]
      have ha : a = 0 := Subsingleton.elim _ _
      subst ha
      have : c.val < N := c.isLt
      constructor
      · omega
      · show (c.val : ℤ) < ((N : ℕ) : ℤ)
        omega

/-- Rank-2 operand: the start of the window on axis 0 is the start index of the update's slot, read as a signed word. -/
theorem start2_0 {N F n w : Nat} (d : ScatterDims ⟨2, ![N, F]⟩ ⟨2, ![n, 1]⟩ ⟨2, ![n, F]⟩)
    (huw : d.updateWindowDims = [1]) (hsd : d.scatterDimsToOperandDims = [0]) (hivd : d.indexVectorDim = 1)
    (idx : IVec ⟨2, ![n, 1]⟩ w) (j : (⟨2, ![n, F]⟩ : Shape).Idx) :
    d.start j idx 0 = (idx (ix2 (j 0) (0 : Fin 1))).toInt := by
  have hm : (0 : Fin 2) ∈ d.scatterDimsToOperandDims := by rw [hsd]; exact List.mem_singleton.mpr rfl
  -- every update scatter axis is axis 0 (axis 1 is the window axis)
  have hX : ∀ X : Fin 2, X ∈ d.uScatter → X = 0 := fun X hXm => by
    have : X ∉ d.updateWindowDims := by
      simpa [ScatterDims.uScatter, Shape.kept] using hXm
    rw [huw] at this
    match X with
    | ⟨0, _⟩ => rfl
    | ⟨1, _⟩ => exact absurd (List.mem_singleton.mpr rfl) this
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact congrArg (fun X : Fin 2 => (j X).val) (hX _ (List.getElem_mem _))
  | ⟨1, _⟩ =>
    unfold ScatterDims.siIdx
    rw [dif_pos (by rw [hivd])]
    apply Fin.ext
    show List.idxOf (0 : Fin 2) d.scatterDimsToOperandDims = 0
    rw [hsd]; simp

/-- Rank-2 operand: axis 1 is not a scattered axis, its window starts at 0. -/
theorem start2_1 {N F n w : Nat} (d : ScatterDims ⟨2, ![N, F]⟩ ⟨2, ![n, 1]⟩ ⟨2, ![n, F]⟩)
    (hsd : d.scatterDimsToOperandDims = [0])
    (idx : IVec ⟨2, ![n, 1]⟩ w) (j : (⟨2, ![n, F]⟩ : Shape).Idx) :
    d.start j idx 1 = 0 := by
  have hm : (1 : Fin 2) ∉ d.scatterDimsToOperandDims := by rw [hsd]; simp
  unfold ScatterDims.start
  rw [dif_neg hm]

/-- Rank-2 operand: axis 0 is an inserted window axis, the window coordinate there is 0. -/
theorem window2_0 {N F n : Nat} (d : ScatterDims ⟨2, ![N, F]⟩ ⟨2, ![n, 1]⟩ ⟨2, ![n, F]⟩)
    (hiw : d.insertedWindowDims = [0]) (j : (⟨2, ![n, F]⟩ : Shape).Idx) :
    d.window j 0 = 0 := by
  have hk : (0 : Fin 2) ∉ d.sKept := by
    simp [ScatterDims.sKept, Shape.kept, hiw]
  unfold ScatterDims.window
  rw [dif_neg hk]

/-- Rank-2 operand: on axis 1 the window coordinate is the update's own axis-1 coordinate. -/
theorem window2_1 {N F n : Nat} (d : ScatterDims ⟨2, ![N, F]⟩ ⟨2, ![n, 1]⟩ ⟨2, ![n, F]⟩)
    (huw : d.updateWindowDims = [1]) (hiw : d.insertedWindowDims = [0]) (j : (⟨2, ![n, F]⟩ : Shape).Idx) :
    d.window j 1 = (j 1).val := by
  have hk : (1 : Fin 2) ∈ d.sKept := by
    simp [ScatterDims.sKept, Shape.kept, hiw]
  have hX : ∀ X : Fin 2, X ∈ d.updateWindowDims → X = 1 := fun X hXm => by
    rw [huw] at hXm; exact List.mem_singleton.mp hXm
  unfold ScatterDims.window
  rw [dif_pos hk]
  exact congrArg (fun X : Fin 2 => (j X).val) (hX _ (List.getElem_mem _))

/-- Rank-2 operand: an update lands at (node `c`, feature `f`) exactly when its slot's start index, read as a signed
    word, is `c` and its own axis-1 coordinate is `f`. -/
theorem resultIdx2 {N F n w : Nat} (d : ScatterDims ⟨2, ![N, F]⟩ ⟨2, ![n, 1]⟩ ⟨2, ![n, F]⟩)
    (huw : d.updateWindowDims = [1]) (hiw : d.insertedWindowDims = [0]) (hsd : d.scatterDimsToOperandDims = [0])
    (hivd : d.indexVectorDim = 1)
    (idx : IVec ⟨2, ![n, 1]⟩ w) (j : (⟨2, ![n, F]⟩ : Shape).Idx) (c : Fin N) (f : Fin F) :
    d.resultIdx? j idx = some (ix2 c f) ↔ (idx (ix2 (j 0) (0 : Fin 1))).toInt = (c.val : ℤ) ∧ j 1 = f := by
  have h0 : d.start j idx 0 + d.window j 0 = (idx (ix2 (j 0) (0 : Fin 1))).toInt := by
    rw [start2_0 d huw hsd hivd idx j, window2_0 d hiw j]; simp
  have h1 : d.start j idx 1 + d.window j 1 = ((j 1).val : ℤ) := by
    rw [start2_1 d hsd idx j, window2_1 d huw hiw j]; simp
  have hjF : (j 1).val < F := (j 1).isLt
  unfold ScatterDims.resultIdx?
  split
  · rename_i h
    rw [Option.some.injEq]
    constructor
    · intro he
      have e0 := congrArg (fun g => (g 0).val) he
      have e1 := congrArg (fun g => (g 1).val) he
      change (d.start j idx 0 + d.window j 0).toNat = c.val at e0
      change (d.start j idx 1 + d.window j 1).toNat = f.val at e1
      rw [h0] at e0
      rw [h1] at e1
      have := (h 0).1
      rw [h0] at this
      refine ⟨by omega, Fin.ext ?_⟩
      show (j 1).val = f.val
      omega
    · rintro ⟨he, hf⟩
      funext a
      match a with
      | ⟨0, _⟩ =>
        apply Fin.ext
        show (d.start j idx 0 + d.window j 0).toNat = c.val
        rw [h0, he]; simp
      | ⟨1, _⟩ =>
        apply Fin.ext
        show (d.start j idx 1 + d.window j 1).toNat = f.val
        rw [h1, ← hf]; simp
  · rename_i h
    constructor
    · intro he; exact absurd he (by simp)
    · rintro ⟨he, hf⟩
      exfalso; apply h
      intro a
      match a with
      | ⟨0, _⟩ =>
        show 0 ≤ d.start j idx 0 + d.window j 0 ∧ d.start j idx 0 + d.window j 0 < ((N : ℕ) : ℤ)
        rw [h0, he]
        have : c.val < N := c.isLt
        constructor <;> omega
      | ⟨1, _⟩ =>
        show 0 ≤ d.start j idx 1 + d.window j 1 ∧ d.start j idx 1 + d.window j 1 < ((F : ℕ) : ℤ)
        rw [h1]
        constructor <;> omega

variable [Cert.ReferenceIdeal.Facts]

/-- The degree scatter at a node: the operand's entry plus the updates of the slots whose start index is the node. -/
theorem scatter1_apply (x : S1024.Idx → EReal) (idx : S1049600x1.Idx → BitVec 32) (upd : S1049600.Idx → EReal) (c : Fin 1024) :
    Host.scatterAdd (F := Ideal) (φ := .f32) scatter_S1024_S1049600x1_S1049600_n_0_0_1 x idx upd (ix1 c)
      = x (ix1 c) + ∑ e ∈ Finset.univ.filter (fun e : Fin 1049600 => (idx (ix2 e (0 : Fin 1))).toInt = (c.val : ℤ)), upd (ix1 e) := by
  have hr : ∀ j : S1049600.Idx, scatter_S1024_S1049600x1_S1049600_n_0_0_1.resultIdx? j idx = some (ix1 c)
      ↔ (idx (ix2 (j 0) (0 : Fin 1))).toInt = (c.val : ℤ) :=
    fun j => resultIdx1 scatter_S1024_S1049600x1_S1049600_n_0_0_1 rfl rfl rfl idx j c
  show Ideal.hostScatterAdd scatter_S1024_S1049600x1_S1049600_n_0_0_1 x idx upd (ix1 c) = _
  unfold Ideal.hostScatterAdd
  refine congrArg (fun t => x (ix1 c) + t) ?_
  -- the update indices are the slots: j ↦ its one coordinate, e ↦ ix1 e
  refine Finset.sum_nbij' (fun j : S1049600.Idx => (j 0 : Fin 1049600)) (fun e => ix1 e) ?_ ?_ ?_ ?_ ?_
  · intro j hj
    exact Finset.mem_filter.2 ⟨Finset.mem_univ _, (hr j).1 (Finset.mem_filter.1 hj).2⟩
  · intro e he
    exact Finset.mem_filter.2 ⟨Finset.mem_univ _, (hr (ix1 e)).2 (Finset.mem_filter.1 he).2⟩
  · intro j _
    exact (eq_ix1 j).symm
  · intro e _
    rfl
  · intro j _
    exact congrArg upd (eq_ix1 j)

/-- The feature scatter at a node and a feature: the operand's entry plus the updates, at that feature, of the slots
    whose start index is the node. -/
theorem scatter2_apply (x : S1024x128.Idx → EReal) (idx : S1049600x1.Idx → BitVec 32) (upd : S1049600x128.Idx → EReal)
    (c : Fin 1024) (f : Fin 128) :
    Host.scatterAdd (F := Ideal) (φ := .f32) scatter_S1024x128_S1049600x1_S1049600x128_1_0_0_1 x idx upd (ix2 c f)
      = x (ix2 c f) + ∑ e ∈ Finset.univ.filter (fun e : Fin 1049600 => (idx (ix2 e (0 : Fin 1))).toInt = (c.val : ℤ)), upd (ix2 e f) := by
  have hr : ∀ j : S1049600x128.Idx, scatter_S1024x128_S1049600x1_S1049600x128_1_0_0_1.resultIdx? j idx = some (ix2 c f)
      ↔ (idx (ix2 (j 0) (0 : Fin 1))).toInt = (c.val : ℤ) ∧ j 1 = f :=
    fun j => resultIdx2 scatter_S1024x128_S1049600x1_S1049600x128_1_0_0_1 rfl rfl rfl rfl idx j c f
  show Ideal.hostScatterAdd scatter_S1024x128_S1049600x1_S1049600x128_1_0_0_1 x idx upd (ix2 c f) = _
  unfold Ideal.hostScatterAdd
  refine congrArg (fun t => x (ix2 c f) + t) ?_
  -- the update indices that land at feature f are the slots: j ↦ its axis-0 coordinate, e ↦ ix2 e f
  refine Finset.sum_nbij' (fun j : S1049600x128.Idx => (j 0 : Fin 1049600)) (fun e => ix2 e f) ?_ ?_ ?_ ?_ ?_
  · intro j hj
    exact Finset.mem_filter.2 ⟨Finset.mem_univ _, ((hr j).1 (Finset.mem_filter.1 hj).2).1⟩
  · intro e he
    exact Finset.mem_filter.2 ⟨Finset.mem_univ _, (hr (ix2 e f)).2 ⟨(Finset.mem_filter.1 he).2, rfl⟩⟩
  · intro j hj
    rw [Finset.mem_filter] at hj
    have hf : j 1 = f := ((hr j).1 hj.2).2
    rw [← hf]
    exact (eq_ix2 j).symm
  · intro e _
    rfl
  · intro j hj
    rw [Finset.mem_filter] at hj
    have hf : j 1 = f := ((hr j).1 hj.2).2
    show upd j = upd (ix2 (j 0) f)
    rw [← hf]
    exact congrArg upd (eq_ix2 j)

end Cert.ReferenceIdeal.OpsAt

end
-- ==== Proof.RefDeg.lean ====
/-
  The reference's degrees and their guarded inverse square roots, at a node.

  The degree scatter adds, at node c, the weights of the slots whose target node is c: one slot per source node r, with
  the pair (r, c)'s weight, and c's self loop with weight one; so the degree is the specification's. It is positive, so
  both guards "degree > 0" are taken and the guarded inverse square root is the inverse square root of the degree.
-/
import proofs.«140009_g35596688949519_fold_wed_c4_25_2_alg».proof.Proof.RefDefs
import proofs.«140009_g35596688949519_fold_wed_c4_25_2_alg».proof.Proof.RefIdx
import proofs.«140009_g35596688949519_fold_wed_c4_25_2_alg».proof.Proof.RefLayout
import proofs.«140009_g35596688949519_fold_wed_c4_25_2_alg».proof.Proof.ScatterAt
import proofs.«140009_g35596688949519_fold_wed_c4_25_2_alg».proof.Proof.Slots
import proofs.«140009_g35596688949519_fold_wed_c4_25_2_alg».proof.Proof.Spec
import Idealize.ShloMosaic.Lib.ValueIdx
import Idealize.ShloMosaic.PureOps.Ideal.Laws

noncomputable section

namespace Cert.ReferenceIdeal.Term

open Idealize.ShloMosaic Idealize.ShloMosaic.ValueIdx Idealize.SL.Sem Cert.ReferenceIdeal Cert.ReferenceIdeal.OpsAt
open Cert.ReferenceIdeal.Facts₀ Cert.ReferenceIdeal.Facts

variable [Cert.ReferenceIdeal.Facts]

/-- At the ideal instance the comparison "greater than" of two extended reals is the bit 1 where it holds. -/
theorem cmpf_ogt_of_lt {φ : FTy} {x y : EReal} (h : y < x) :
    FloatOps.cmpf (F := Ideal) (φ := φ) .ogt x y = 1#1 := by
  rw [Ideal.cmpf_def]
  unfold Ideal.cmp
  simp only [decide_eq_true h]
  rfl

/-- The host's inverse square root is pointwise: at an index, the ideal inverse square root of the entry. -/
theorem rsqrt_at {s : Shape} {φ : FTy} (x : FVec Ideal s φ) (i : s.Idx) : Host.rsqrt x i = Ideal.rsqrt (x i) := rfl

/-- The reference's degree of node c is the specification's. -/
theorem degT_apply (A : S1024x1024.Idx → BitVec 32) (c : Fin 1024) :
    degT (F := Ideal) A (ix1 c) = Cert.Gcn.deg A c := by
  unfold degT
  refine (scatter1_apply _ _ _ c).trans ?_
  rw [zeros1_apply, zero_add]
  -- the slots whose normalised start index is c are the slots whose target node is c
  have hset : Finset.univ.filter (fun e : Fin 1049600 => (nidx cT (ix2 e (0 : Fin 1))).toInt = (c.val : ℤ))
      = Finset.univ.filter (fun e : Fin 1049600 => Cert.Gcn.colOf e = c.val) := by
    apply Finset.filter_congr
    intro e _
    rw [nidx_cT e]
    exact Nat.cast_inj
  rw [hset, Cert.Gcn.sum_slots c (fun e => wT (F := Ideal) A (ix1 e)), wT_loop, Cert.Gcn.deg_eq_sum]
  -- one slot per source node r, with the pair (r, c)'s weight
  refine congrArg (fun t => t + (1 : EReal)) ?_
  exact Finset.sum_congr rfl (fun r _ => wT_slot A r c)

/-- The reference's guarded inverse square root at node c is the specification's. -/
theorem dinvOf_apply (A : S1024x1024.Idx → BitVec 32) (c : Fin 1024) :
    dinvOf (degT (F := Ideal) A) (ix1 c) = Cert.Gcn.dinv A c := by
  have hpos : (0 : EReal) < Cert.Gcn.deg A c := Cert.Gcn.deg_pos A c
  -- the guard "degree > 0" holds at every node
  have hbit : cmpf .ogt (degT (F := Ideal) A) zeros1 (ix1 c) = 1#1 := by
    rw [cmpf_apply, degT_apply, zeros1_apply]
    exact cmpf_ogt_of_lt hpos
  unfold dinvOf
  rw [select_apply, hbit, select_one, rsqrt_at, select_apply, hbit, select_one, degT_apply]
  exact Cert.Gcn.rsqrt_deg A c

end Cert.ReferenceIdeal.Term

end
-- ==== Proof.GatherAt.lean ====
/-
  The reference's two gathers, and the validity mask of jnp.take, read at an index whose start index is a node in range:
  the gather reads the table at that node; the mask is set.
-/
import proofs.«140009_g35596688949519_fold_wed_c4_25_2_alg».proof.ReferenceIdeal
import Idealize.ShloMosaic.Lib.ValueIdx
import Idealize.ShloMosaic.Lib.StableHlo.Predicate
import Idealize.ShloMosaic.PureOps.Ideal.Laws

noncomputable section

namespace Cert.ReferenceIdeal.OpsAt

open Idealize.ShloMosaic Idealize.ShloMosaic.ValueIdx Idealize.SL.Sem Cert.ReferenceIdeal
open Cert.ReferenceIdeal.Facts₀ Cert.ReferenceIdeal.Facts

variable [Cert.ReferenceIdeal.Facts]

/-- Row p of an [n, 1] column of start indices, written either way, is the index (p, 0). -/
private theorem ixP_eq_ix2 {n : Nat} (p : Fin n) : (StableHlo.Predicate.ixP p : (⟨2, ![n, 1]⟩ : Shape).Idx) = ix2 p (0 : Fin 1) := by
  funext a; match a with | ⟨0, _⟩ => rfl | ⟨1, _⟩ => rfl

/-- The rank-1 index at a coordinate, written either way. -/
private theorem ofFin_eq_ix1 {n : Nat} (p : Fin n) : (Shape.Idx.ofFin p : (⟨1, ![n]⟩ : Shape).Idx) = ix1 p := by
  funext a; match a with | ⟨0, _⟩ => rfl

/-- A start index that is a node below 1024, read signed and clamped into [0, 1023], is that node. -/
private theorem clamp_node {a : BitVec 32} {n : Fin 1024} (h : a.toInt = (n.val : ℤ)) : min a.toInt.toNat (1024 - 1) = n.val := by
  rw [h, Int.toNat_natCast]
  have := n.isLt
  omega

/-- A fold of "and" from 1 over a set of one-bit words that are all 1 is 1. -/
private theorem fold_andi_one {ι : Type} (S : Finset ι) (p : ι → BitVec 1) (hp : ∀ i ∈ S, p i = 1#1) :
    S.fold IntOp.andi 1#1 p = 1#1 := by
  induction S using Finset.cons_induction with
  | empty => exact Finset.fold_empty
  | cons a S ha ih =>
    rw [Finset.fold_cons, hp a (Finset.mem_cons_self a S), ih (fun i hi => hp i (Finset.mem_cons_of_mem hi))]
    rfl

/-- Signed "greater or equal" of words is the order of their signed values. -/
private theorem cmpi_sge_one {a b : BitVec 32} (hab : b.toInt ≤ a.toInt) : IntOp.cmpi .sge a b = 1#1 := by
  show BitVec.ofBool (b.sle a) = 1#1
  rw [BitVec.sle_iff_toInt_le.2 hab]; rfl

/-- Signed "less or equal" of words is the order of their signed values. -/
private theorem cmpi_sle_one {a b : BitVec 32} (hab : a.toInt ≤ b.toInt) : IntOp.cmpi .sle a b = 1#1 := by
  show BitVec.ofBool (a.sle b) = 1#1
  rw [BitVec.sle_iff_toInt_le.2 hab]; rfl

/-- The rank-1 gather at a slot whose start index is the node n, in range: the table's entry at n. -/
theorem gather1_apply {α : Type} (x : S1024.Idx → α) (idx : S1049600x1.Idx → BitVec 32) (e : Fin 1049600) (n : Fin 1024)
    (h : (idx (ix2 e (0 : Fin 1))).toInt = (n.val : ℤ)) :
    Host.gather gather_S1024_S1049600x1_S1049600_n_0_n_n_0_1_1 x idx (ix1 e) = x (ix1 n) := by
  have hg := StableHlo.Predicate.gather_take (N := 1024) (n := 1049600)
    gather_S1024_S1049600x1_S1049600_n_0_n_n_0_1_1 rfl rfl rfl rfl x idx e (by norm_num)
  rw [ofFin_eq_ix1] at hg
  refine hg.trans (congrArg x ?_)
  rw [ofFin_eq_ix1]
  refine congrArg ix1 (Fin.ext ?_)
  show min (idx (StableHlo.Predicate.ixP e)).toInt.toNat (1024 - 1) = n.val
  rw [ixP_eq_ix2]
  exact clamp_node h

/-- The row gather at a slot and a feature: the table's row at the slot's start index, at that feature. -/
theorem gather2_apply {α : Type} (x : S1024x128.Idx → α) (idx : S1049600x1.Idx → BitVec 32) (e : Fin 1049600) (f : Fin 128)
    (n : Fin 1024) (h : (idx (ix2 e (0 : Fin 1))).toInt = (n.val : ℤ)) :
    Host.gather gather_S1024x128_S1049600x1_S1049600x128_1_0_n_n_0_1_1128 x idx (ix2 e f) = x (ix2 n f) := by
  unfold Host.gather
  refine congrArg x ?_
  -- this gather's dimension numbers: axis 0 collapsed, no batching axes, the start index names axis 0
  have hcoll : gather_S1024x128_S1049600x1_S1049600x128_1_0_n_n_0_1_1128.collapsedSliceDims = [0] := rfl
  have hob : gather_S1024x128_S1049600x1_S1049600x128_1_0_n_n_0_1_1128.operandBatchingDims = [] := rfl
  have hsim : gather_S1024x128_S1049600x1_S1049600x128_1_0_n_n_0_1_1128.startIndexMap = [0] := rfl
  funext a
  match a with
  | ⟨0, _⟩ =>
    -- axis 0 of the operand: collapsed, start-indexed
    apply Fin.ext
    have hb : (0 : Fin 2) ∉ gather_S1024x128_S1049600x1_S1049600x128_1_0_n_n_0_1_1128.operandBatchingDims := by
      rw [hob]; exact List.not_mem_nil
    have hk : (0 : Fin 2) ∉ gather_S1024x128_S1049600x1_S1049600x128_1_0_n_n_0_1_1128.sKept := by
      rw [GatherDims.mem_sKept, hcoll]; simp
    have hm : (0 : Fin 2) ∈ gather_S1024x128_S1049600x1_S1049600x128_1_0_n_n_0_1_1128.startIndexMap := by
      rw [hsim]; exact List.mem_singleton.mpr rfl
    show gather_S1024x128_S1049600x1_S1049600x128_1_0_n_n_0_1_1128.start (ix2 e f) idx 0
      + gather_S1024x128_S1049600x1_S1049600x128_1_0_n_n_0_1_1128.batchCoord (ix2 e f) 0
      + gather_S1024x128_S1049600x1_S1049600x128_1_0_n_n_0_1_1128.offCoord (ix2 e f) 0 = n.val
    rw [GatherDims.batchCoord_eq_zero _ _ _ hb, GatherDims.offCoord_eq_zero _ _ _ hk]
    simp only [Nat.add_zero]
    unfold GatherDims.start
    rw [dif_pos hm]
    have hsi : gather_S1024x128_S1049600x1_S1049600x128_1_0_n_n_0_1_1128.siIdx (ix2 e f)
        ⟨List.idxOf (0 : Fin 2) gather_S1024x128_S1049600x1_S1049600x128_1_0_n_n_0_1_1128.startIndexMap,
          List.idxOf_lt_length_iff.2 hm⟩ = ix2 e (0 : Fin 1) := by
      funext b; refine Fin.ext ?_
      match b with
      | ⟨0, _⟩ => rfl
      | ⟨1, _⟩ => rfl
    rw [hsi]
    exact clamp_node h
  | ⟨1, _⟩ =>
    -- axis 1 of the operand: kept, not start-indexed; its offset coordinate is the result's axis-1 coordinate
    apply Fin.ext
    have hb : (1 : Fin 2) ∉ gather_S1024x128_S1049600x1_S1049600x128_1_0_n_n_0_1_1128.operandBatchingDims := by
      rw [hob]; exact List.not_mem_nil
    have hk : (1 : Fin 2) ∈ gather_S1024x128_S1049600x1_S1049600x128_1_0_n_n_0_1_1128.sKept := by
      rw [GatherDims.mem_sKept, hcoll, hob]; simp
    have hm : (1 : Fin 2) ∉ gather_S1024x128_S1049600x1_S1049600x128_1_0_n_n_0_1_1128.startIndexMap := by
      rw [hsim]; simp
    show gather_S1024x128_S1049600x1_S1049600x128_1_0_n_n_0_1_1128.start (ix2 e f) idx 1
      + gather_S1024x128_S1049600x1_S1049600x128_1_0_n_n_0_1_1128.batchCoord (ix2 e f) 1
      + gather_S1024x128_S1049600x1_S1049600x128_1_0_n_n_0_1_1128.offCoord (ix2 e f) 1 = f.val
    rw [GatherDims.batchCoord_eq_zero _ _ _ hb]
    unfold GatherDims.start GatherDims.offCoord
    rw [dif_neg hm, dif_pos hk]
    simp only [Nat.add_zero, Nat.zero_add]
    rfl

/-- The "index in range" mask of jnp.take at a slot whose start index is a node: set. -/
theorem mask_apply (i5 : S1049600x1.Idx → BitVec 32) (e : Fin 1049600) (n : Fin 1024)
    (h : (i5 (ix2 e (0 : Fin 1))).toInt = (n.val : ℤ)) :
    Host.reduce IntOp.andi
        (andi (cmpi .sge i5 (broadcastInDim S1049600x1 ![] bcast_S_S1049600x1 (constantI S_ 32 0#32)))
          (cmpi .sle i5
            (broadcastInDim S1049600x1 ![0, 1] bcast_S1x1_S1049600x1_0_1
              (broadcastInDim S1x1 ![1] bcast_S1_S1x1_1 (constantI S1 32 1023#32)))))
        (constantI S_ 1 1#1) reducesTo_S1049600x1_S1049600_d1 h_S_ (ix1 e) = 1#1 := by
  rw [Host.reduce_eq_fold]
  show Finset.fold IntOp.andi 1#1 _ _ = 1#1
  refine fold_andi_one _ _ ?_
  intro i hi
  -- an index that reduces into slot e is (e, 0)
  have hdrop := (Finset.mem_filter.1 hi).2
  have hv : ((reducesTo_S1049600x1_S1049600_d1 : S1049600x1.ReducesTo [1] S1049600).drop i 0 : Nat) = i 0 :=
    Shape.ReducesTo.drop_apply_val _ i 0
  rw [hdrop] at hv
  have hi2 : i = ix2 e (0 : Fin 1) := by
    funext a
    match a with
    | ⟨0, _⟩ => exact Fin.ext hv.symm
    | ⟨1, _⟩ => exact Subsingleton.elim (α := Fin 1) _ _
  subst hi2
  -- the two compares read the start index against the constants 0 and 1023
  show IntOp.andi (IntOp.cmpi .sge (i5 (ix2 e (0 : Fin 1))) 0#32) (IntOp.cmpi .sle (i5 (ix2 e (0 : Fin 1))) 1023#32) = 1#1
  have hn := n.isLt
  rw [cmpi_sge_one (by rw [h]; exact Int.natCast_nonneg _), cmpi_sle_one (by rw [h]; show (n.val : ℤ) ≤ 1023; omega)]
  rfl

/-- The same mask broadcast along the features. -/
theorem mask_bcast_apply (v : S1049600.Idx → BitVec 1) (e : Fin 1049600) (f : Fin 128) :
    broadcastInDim S1049600x128 ![0] bcast_S1049600_S1049600x128_0 v (ix2 e f) = v (ix1 e) := by
  unfold broadcastInDim
  refine congrArg v ?_
  funext a
  match a with
  | ⟨0, _⟩ =>
    apply Fin.ext
    split
    · next h1 => change (1049600 : Nat) = 1 at h1; omega
    · rfl

end Cert.ReferenceIdeal.OpsAt

end
-- ==== Proof.RefEdge.lean ====
/-
  The reference's edge norms and gathered feature rows, at the slot of a pair (r, c) and at a node's self loop.

  The norm of an edge is the product of the inverse square roots at its source and target nodes and its weight; the
  gathered row of an edge is its source node's row (every index is a node, so jnp.take's fill value is never taken).
-/
import proofs.«140009_g35596688949519_fold_wed_c4_25_2_alg».proof.Proof.RefDefs
import proofs.«140009_g35596688949519_fold_wed_c4_25_2_alg».proof.Proof.RefIdx
import proofs.«140009_g35596688949519_fold_wed_c4_25_2_alg».proof.Proof.RefLayout
import proofs.«140009_g35596688949519_fold_wed_c4_25_2_alg».proof.Proof.GatherAt
import proofs.«140009_g35596688949519_fold_wed_c4_25_2_alg».proof.Proof.RefDeg
import proofs.«140009_g35596688949519_fold_wed_c4_25_2_alg».proof.Proof.Slots
import proofs.«140009_g35596688949519_fold_wed_c4_25_2_alg».proof.Proof.Spec
import Idealize.ShloMosaic.Lib.ValueIdx
import Idealize.ShloMosaic.PureOps.Ideal.Laws

noncomputable section

namespace Cert.ReferenceIdeal.Term

open Idealize.ShloMosaic Idealize.ShloMosaic.ValueIdx Idealize.SL.Sem Cert.ReferenceIdeal Cert.ReferenceIdeal.OpsAt
open Cert.ReferenceIdeal.Facts₀ Cert.ReferenceIdeal.Facts

variable [Cert.ReferenceIdeal.Facts]

/-- The norm of the pair (r, c)'s edge. -/
theorem normOf_slot (A : S1024x1024.Idx → BitVec 32) (r c : Fin 1024) :
    normOf (dinvOf (degT (F := Ideal) A)) (wT A) (ix1 (Cert.Gcn.slot r c))
      = Cert.Gcn.dinv A r * Cert.Gcn.dinv A c * Cert.Gcn.adj A r c := by
  -- both ends of the pair's slot are nodes: its source is r, its target c
  have hr : (nidx rT (ix2 (Cert.Gcn.slot r c) (0 : Fin 1))).toInt = (r.val : ℤ) := by
    rw [nidx_rT, Cert.Gcn.rowOf_slot]
  have hc : (nidx cT (ix2 (Cert.Gcn.slot r c) (0 : Fin 1))).toInt = (c.val : ℤ) := by
    rw [nidx_cT, Cert.Gcn.colOf_slot]
  unfold normOf
  rw [mulf_apply, mulf_apply, gather1_apply _ _ _ r hr, gather1_apply _ _ _ c hc, dinvOf_apply, dinvOf_apply, wT_slot]

/-- The norm of node c's self loop. -/
theorem normOf_loop (A : S1024x1024.Idx → BitVec 32) (c : Fin 1024) :
    normOf (dinvOf (degT (F := Ideal) A)) (wT A) (ix1 (Cert.Gcn.loopSlot c))
      = Cert.Gcn.dinv A c * Cert.Gcn.dinv A c * 1 := by
  -- both ends of a self loop's slot are its node
  have hr : (nidx rT (ix2 (Cert.Gcn.loopSlot c) (0 : Fin 1))).toInt = (c.val : ℤ) := by
    rw [nidx_rT, Cert.Gcn.rowOf_loopSlot]
  have hc : (nidx cT (ix2 (Cert.Gcn.loopSlot c) (0 : Fin 1))).toInt = (c.val : ℤ) := by
    rw [nidx_cT, Cert.Gcn.colOf_loopSlot]
  unfold normOf
  rw [mulf_apply, mulf_apply, gather1_apply _ _ _ c hr, gather1_apply _ _ _ c hc, dinvOf_apply, wT_loop]

/-- The row gathered for the pair (r, c)'s edge is node r's. -/
theorem takeT_slot (h : FVec Ideal S1024x128 .f32) (r c : Fin 1024) (f : Fin 128) :
    takeT h (ix2 (Cert.Gcn.slot r c) f) = h (ix2 r f) := by
  -- the slot's source index is the node r, in range: the mask is set and the select takes the gathered row
  have hr : (nidx rT (ix2 (Cert.Gcn.slot r c) (0 : Fin 1))).toInt = (r.val : ℤ) := by
    rw [nidx_rT, Cert.Gcn.rowOf_slot]
  unfold takeT
  rw [select_apply, mask_bcast_apply, mask_apply _ _ r hr, select_one, gather2_apply _ _ _ _ r hr]

/-- The row gathered for node c's self loop is node c's. -/
theorem takeT_loop (h : FVec Ideal S1024x128 .f32) (c : Fin 1024) (f : Fin 128) :
    takeT h (ix2 (Cert.Gcn.loopSlot c) f) = h (ix2 c f) := by
  -- the self loop's source index is the node c, in range: the mask is set and the select takes the gathered row
  have hr : (nidx rT (ix2 (Cert.Gcn.loopSlot c) (0 : Fin 1))).toInt = (c.val : ℤ) := by
    rw [nidx_rT, Cert.Gcn.rowOf_loopSlot]
  unfold takeT
  rw [select_apply, mask_bcast_apply, mask_apply _ _ c hr, select_one, gather2_apply _ _ _ _ c hr]

end Cert.ReferenceIdeal.Term

end
-- ==== Proof.RefValue.lean ====
/-
  The reference's result is the network of its argument arrays.

  One layer's aggregation scatter-adds, at node c and feature f, the scaled rows of the slots whose target node is c:
  for each source node r its row at f times the pair's norm, and for c's self loop c's own row times the loop's norm.
  That is the specification's propagation step in its edge-list arrangement; a non-negative real factor (the target
  node's inverse square root) distributes over the sum, which gives the other arrangement.
-/
import proofs.«140009_g35596688949519_fold_wed_c4_25_2_alg».proof.Proof.RefDefs
import proofs.«140009_g35596688949519_fold_wed_c4_25_2_alg».proof.Proof.RefIdx
import proofs.«140009_g35596688949519_fold_wed_c4_25_2_alg».proof.Proof.RefLayout
import proofs.«140009_g35596688949519_fold_wed_c4_25_2_alg».proof.Proof.ScatterAt
import proofs.«140009_g35596688949519_fold_wed_c4_25_2_alg».proof.Proof.RefDeg
import proofs.«140009_g35596688949519_fold_wed_c4_25_2_alg».proof.Proof.RefEdge
import proofs.«140009_g35596688949519_fold_wed_c4_25_2_alg».proof.Proof.Slots
import proofs.«140009_g35596688949519_fold_wed_c4_25_2_alg».proof.Proof.Spec
import Idealize.ShloMosaic.Lib.ValueIdx
import Idealize.ShloMosaic.PureOps.Ideal.Laws

noncomputable section

namespace Cert.ReferenceIdeal.Term

open Idealize.ShloMosaic Idealize.ShloMosaic.ValueIdx Idealize.SL.Sem Cert.ReferenceIdeal Cert.ReferenceIdeal.OpsAt
open Cert.ReferenceIdeal.Facts₀ Cert.ReferenceIdeal.Facts

variable [Cert.ReferenceIdeal.Facts]

/-- The feature scatter-add of the scaled gathered rows, from zero, at node c and feature f: the slots whose target node
    is c are one per source node r and c's own self loop, and each contributes its source node's row entry times its norm. -/
private theorem scatter_rows (A : S1024x1024.Idx → BitVec 32) (h : FVec Ideal S1024x128 .f32) (c : Fin 1024) (f : Fin 128) :
    Host.scatterAdd (F := Ideal) (φ := .f32) scatter_S1024x128_S1049600x1_S1049600x128_1_0_0_1
        (broadcastInDim S1024x128 ![] bcast_S_S1024x128 (constant (F := Ideal) S_ .f32 0x00000000#32)) (nidx cT)
        (mulf (takeT h)
          (broadcastInDim S1049600x128 ![0, 1] bcast_S1049600x1_S1049600x128_0_1
            (broadcastInDim S1049600x1 ![0] bcast_S1049600_S1049600x1_0 (normOf (dinvOf (degT (F := Ideal) A)) (wT A)))))
        (ix2 c f)
      = (∑ r : Fin 1024, h (ix2 r f) * (Cert.Gcn.dinv A r * Cert.Gcn.dinv A c * Cert.Gcn.adj A r c))
          + h (ix2 c f) * (Cert.Gcn.dinv A c * Cert.Gcn.dinv A c * 1) := by
  -- the operand is zero at (c, f)
  refine Eq.trans (scatter2_apply _ _ _ c f) ?_
  refine Eq.trans (congrArg (fun t => t + _) (zeros2_apply c f)) ?_
  refine Eq.trans (zero_add _) ?_
  -- each summand: the gathered row's entry times the slot's norm
  have hterm : ∀ e : Fin 1049600,
      mulf (takeT h) (broadcastInDim S1049600x128 ![0, 1] bcast_S1049600x1_S1049600x128_0_1
          (broadcastInDim S1049600x1 ![0] bcast_S1049600_S1049600x1_0 (normOf (dinvOf (degT (F := Ideal) A)) (wT A)))) (ix2 e f)
        = takeT h (ix2 e f) * normOf (dinvOf (degT (F := Ideal) A)) (wT A) (ix1 e) :=
    fun e => (mulf_apply _ _ _).trans (congrArg (fun t => takeT h (ix2 e f) * t) (normb_apply _ e f))
  -- the slots whose start index is c are the slots whose target node is c
  have hiff : ∀ e : Fin 1049600, (nidx cT (ix2 e (0 : Fin 1))).toInt = (c.val : ℤ) ↔ Cert.Gcn.colOf e = c.val :=
    fun e => by rw [nidx_cT]; exact Nat.cast_inj
  refine Eq.trans (Finset.sum_congr (Finset.filter_congr fun e _ => hiff e) fun e _ => hterm e) ?_
  refine Eq.trans (Cert.Gcn.sum_slots c
    (fun e => takeT h (ix2 e f) * normOf (dinvOf (degT (F := Ideal) A)) (wT A) (ix1 e))) ?_
  -- the source nodes' terms one by one, then the self loop's
  refine congrArg₂ (fun s t => s + t) (Finset.sum_congr rfl fun r _ => ?_) ?_
  · rw [takeT_slot, normOf_slot]
  · rw [takeT_loop, normOf_loop]

/-- One layer's aggregation is the specification's propagation step. -/
theorem aggOf_apply (A : S1024x1024.Idx → BitVec 32) (h : FVec Ideal S1024x128 .f32) (b : FVec Ideal S128 .f32)
    (c : Fin 1024) (f : Fin 128) :
    aggOf h (normOf (dinvOf (degT (F := Ideal) A)) (wT A)) b (ix2 c f)
      = Cert.Gcn.prop A (fun n k => h (ix2 n k)) b c f := by
  unfold aggOf
  -- the scatter-add from zero, plus the bias row's entry
  refine Eq.trans (addf_apply _ _ _) ?_
  refine Eq.trans (congrArg₂ (fun s t => s + t) (scatter_rows A h c f) (bias_apply b c f)) ?_
  -- the propagation step in its edge-list arrangement
  exact Cert.Gcn.prop_eq_edges A (fun n k => h (ix2 n k)) b c f

/-- One layer: the matrix product, then the propagation step. -/
theorem layerT_apply (x : FVec Ideal S1024x128 .f32) (W : FVec Ideal S128x128 .f32) (b : FVec Ideal S128 .f32)
    (A : S1024x1024.Idx → BitVec 32) (c : Fin 1024) (f : Fin 128) :
    layerT x W b A (ix2 c f) = Cert.Gcn.prop A (Cert.Gcn.mm (fun n k => x (ix2 n k)) W) b c f := by
  unfold layerT
  refine Eq.trans (aggOf_apply A (dotT x W) b c f) ?_
  -- the matrix product, entry by entry
  have hH : (fun (n : Fin 1024) (k : Fin 128) => dotT x W (ix2 n k)) = Cert.Gcn.mm (fun n k => x (ix2 n k)) W := by
    funext n k
    exact dotT_apply x W n k
  rw [hH]

/-- The reference's result term is the network. -/
theorem outT_eq (X : FVec Ideal S1024x128 .f32) (A : S1024x1024.Idx → BitVec 32) (W1 : FVec Ideal S128x128 .f32)
    (b1 : FVec Ideal S128 .f32) (W2 : FVec Ideal S128x128 .f32) (b2 : FVec Ideal S128 .f32) :
    outT X A W1 b1 W2 b2 = Cert.Gcn.out X A W1 b1 W2 b2 := by
  funext i
  refine Eq.trans (outT_apply X A W1 b1 W2 b2 i) ?_
  refine Eq.trans (layerT_apply _ W2 b2 A (i 1) (i 2)) ?_
  -- the features going in are the argument's
  have hX : (fun (n : Fin 1024) (k : Fin 128) => xT X (ix2 n k)) = fun n k => X (ix2 n k) := by
    funext n k
    exact xT_apply X n k
  -- the hidden layer, entry by entry
  have hH : (fun (n : Fin 1024) (k : Fin 128) => reluT (layerT (xT X) W1 b1 A) (ix2 n k)) = Cert.Gcn.hidden X A W1 b1 := by
    funext n k
    refine Eq.trans (reluT_apply _ n k) ?_
    rw [layerT_apply, hX]
    rfl
  rw [hH]
  rfl

end Cert.ReferenceIdeal.Term

end
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.RefTerm.lean ====
/-
  The reference's run with its result named: the fold of the listed operations at the result buffer is the term
  `outT` of the argument arrays, the argument buffers are written by no operation, and so every weakly fair execution
  ends with the result array at the network of the arguments and the arguments unchanged.

  The fold is evaluated window by window: the contents after the whole list are the contents after the third window's
  operations started from the contents after the second's, started from the contents after the first's. Each window's
  contents at a buffer a later window reads are stated as a term of the contents the window started from, at the
  buffers it reads; the second layer computes its index arrays, weights, degrees and norms again from the same slot
  rows, columns and weights, so the three windows' terms compose to `outT`.
-/
import proofs.«140009_g35596688949519_fold_wed_c4_25_2_alg».proof.Proof.RefRun
import proofs.«140009_g35596688949519_fold_wed_c4_25_2_alg».proof.Proof.RefDefs
import proofs.«140009_g35596688949519_fold_wed_c4_25_2_alg».proof.Proof.RefArgs
import proofs.«140009_g35596688949519_fold_wed_c4_25_2_alg».proof.Proof.RefValue
import proofs.«140009_g35596688949519_fold_wed_c4_25_2_alg».proof.Proof.LibHostStretch

noncomputable section

namespace Cert.ReferenceIdeal.Run

open Idealize.ShloMosaic Idealize.SL.Sem Idealize.ShloMosaic.StableHlo Cert.ReferenceIdeal Cert.ReferenceIdeal.Term
open Cert.ReferenceIdeal.Facts₀ Cert.ReferenceIdeal.Facts

variable {F : FTy → Type} [FloatOps F] [Cert.ReferenceIdeal.Facts]

/-- Evaluates the fold of one window's literal operations at one buffer: the fold is unfolded operation by operation
    to the operations' functions applied to the starting contents; a value written to a called function's buffer and
    read back is the value. What is left is closed by unfolding, when both sides are the same term. -/
macro "window_eval" : tactic => `(tactic| (
  simp only [ops0, ops1, ops2, TRef.nullary, TRef.unary, TRef.binary, TRef.ternary, cat2_eq]
  after_results_simp
  try simp only [Cert.GraphConv.ofBuf_toBuf]
  try simp only [TRef.ofBuf, TRef.toBuf, cast_eq]
  try (with_reducible rfl)))

/-! ## The general terms: one layer's parts over given index arrays -/

/-- The degrees over given target indices and weights: the weights scatter-added at the targets. -/
def degG (c : S1049600.Idx → BitVec 32) (w : S1049600.Idx → F .f32) : S1024.Idx → F .f32 :=
  Host.scatterAdd scatter_S1024_S1049600x1_S1049600_n_0_0_1 zeros1 (nidx c) w

/-- The feature row of every edge's source node, over given source indices (the fill value where an index were
    out of range). -/
def takeG (h : S1024x128.Idx → F .f32) (r : S1049600.Idx → BitVec 32) : S1049600x128.Idx → F .f32 :=
  select
    (broadcastInDim S1049600x128 ![0] bcast_S1049600_S1049600x128_0
      (Host.reduce IntOp.andi
        (andi (cmpi .sge (nidx r) (broadcastInDim S1049600x1 ![] bcast_S_S1049600x1 (constantI S_ 32 0#32)))
          (cmpi .sle (nidx r)
            (broadcastInDim S1049600x1 ![0, 1] bcast_S1x1_S1049600x1_0_1
              (broadcastInDim S1x1 ![1] bcast_S1_S1x1_1 (constantI S1 32 1023#32)))))
        (constantI S_ 1 1#1) reducesTo_S1049600x1_S1049600_d1 h_S_))
    (Host.gather gather_S1024x128_S1049600x1_S1049600x128_1_0_n_n_0_1_1128 h (nidx r))
    (broadcastInDim S1049600x128 ![] bcast_S_S1049600x128 (constant S_ .f32 0x7FC00000#32))

/-- One layer's aggregation over given source and target indices: the gathered rows scaled by the norms,
    scatter-added at the targets, plus the bias. -/
def aggG (h : S1024x128.Idx → F .f32) (r c : S1049600.Idx → BitVec 32) (norm : S1049600.Idx → F .f32)
    (b : S128.Idx → F .f32) : S1024x128.Idx → F .f32 :=
  addf
    (Host.scatterAdd scatter_S1024x128_S1049600x1_S1049600x128_1_0_0_1
      (broadcastInDim S1024x128 ![] bcast_S_S1024x128 (constant S_ .f32 0x00000000#32))
      (nidx c)
      (mulf (takeG h r)
        (broadcastInDim S1049600x128 ![0, 1] bcast_S1049600x1_S1049600x128_0_1
          (broadcastInDim S1049600x1 ![0] bcast_S1049600_S1049600x1_0 norm))))
    (broadcastInDim S1024x128 ![0, 1] bcast_S1x128_S1024x128_0_1 (broadcastInDim S1x128 ![1] bcast_S128_S1x128_1 b))

/-- The self loops' numbers 0 … 1023. -/
def loopIdx : S1024.Idx → BitVec 32 := iotaInDim S1024 32 0
/-- The self loops' weights: one each. -/
def loopW : S1024.Idx → F .f32 := broadcastInDim S1024 ![] bcast_S_S1024 (constant S_ .f32 0x3F800000#32)

/-! ## Window 0: the features, the slots' rows, columns and weights, layer 1's index arrays and norms -/

set_option maxRecDepth 65536 in
set_option maxHeartbeats 4000000 in
theorem p0_v1 (V : Valuation τ sig (Elt F)) :
    after (ops0 (F := F)) V (Proc.devRef .tc main_v1) = xT (V (Proc.devRef .tc main_arg0)) := by
  window_eval
  rfl

set_option maxRecDepth 65536 in
set_option maxHeartbeats 4000000 in
theorem p0_v3 (V : Valuation τ sig (Elt F)) :
    after (ops0 (F := F)) V (Proc.devRef .tc main_v3) = rowT := by
  window_eval
  rfl

set_option maxRecDepth 65536 in
set_option maxHeartbeats 4000000 in
theorem p0_v4 (V : Valuation τ sig (Elt F)) :
    after (ops0 (F := F)) V (Proc.devRef .tc main_v4) = colT := by
  window_eval
  rfl

set_option maxRecDepth 65536 in
set_option maxHeartbeats 4000000 in
theorem p0_v8 (V : Valuation τ sig (Elt F)) :
    after (ops0 (F := F)) V (Proc.devRef .tc main_v8) = ewT (V (Proc.devRef .tc main_arg1)) := by
  window_eval
  rfl

set_option maxRecDepth 65536 in
set_option maxHeartbeats 4000000 in
theorem p0_v10 (V : Valuation τ sig (Elt F)) :
    after (ops0 (F := F)) V (Proc.devRef .tc main_v10) = rT := by
  window_eval
  rfl

set_option maxRecDepth 65536 in
set_option maxHeartbeats 4000000 in
theorem p0_v11 (V : Valuation τ sig (Elt F)) :
    after (ops0 (F := F)) V (Proc.devRef .tc main_v11) = cT := by
  window_eval
  rfl

set_option maxRecDepth 65536 in
set_option maxHeartbeats 4000000 in
theorem p0_v44 (V : Valuation τ sig (Elt F)) :
    after (ops0 (F := F)) V (Proc.devRef .tc main_v44) = normOf (dinvOf (degT (V (Proc.devRef .tc main_arg1)))) (wT (V (Proc.devRef .tc main_arg1))) := by
  window_eval
  rfl

/-- An argument buffer keeps its contents through each window: no operation writes it. -/
theorem keep0 {r : Ref sig .tc} (hr : r ∈ argRefs) (V : Valuation τ sig (Elt F)) :
    after (ops0 (F := F)) V (Proc.devRef .tc r) = V (Proc.devRef .tc r) :=
  after_of_forall_not_mem (b := Proc.devRef .tc r) ops0 V (List.forall_iff_forall_mem.1 (ops0_keeps hr))
theorem keep1 {r : Ref sig .tc} (hr : r ∈ argRefs) (V : Valuation τ sig (Elt F)) :
    after (ops1 (F := F)) V (Proc.devRef .tc r) = V (Proc.devRef .tc r) :=
  after_of_forall_not_mem (b := Proc.devRef .tc r) ops1 V (List.forall_iff_forall_mem.1 (ops1_keeps hr))

/-! ## Window 1: layer 1's aggregation, and layer 2's index arrays, weights, inverse square roots -/

set_option maxRecDepth 65536 in
set_option maxHeartbeats 4000000 in
theorem p1_v61 (W : Valuation τ sig (Elt F)) :
    after (ops1 (F := F)) W (Proc.devRef .tc main_v61) = reluT (aggG (dotT (W (Proc.devRef .tc main_v1)) (W (Proc.devRef .tc main_arg2))) (W (Proc.devRef .tc main_v10)) (W (Proc.devRef .tc main_v11)) (W (Proc.devRef .tc main_v44)) (W (Proc.devRef .tc main_arg3))) := by
  simp only [reluT, aggG, takeG, dotT, nidx]
  window_eval

set_option maxRecDepth 65536 in
set_option maxHeartbeats 4000000 in
theorem p1_v63 (W : Valuation τ sig (Elt F)) :
    after (ops1 (F := F)) W (Proc.devRef .tc main_v63) = (cat2 (W (Proc.devRef .tc main_v3)) loopIdx) := by
  simp only [loopIdx]
  window_eval

set_option maxRecDepth 65536 in
set_option maxHeartbeats 4000000 in
theorem p1_v64 (W : Valuation τ sig (Elt F)) :
    after (ops1 (F := F)) W (Proc.devRef .tc main_v64) = (cat2 (W (Proc.devRef .tc main_v4)) loopIdx) := by
  simp only [loopIdx]
  window_eval

set_option maxRecDepth 65536 in
set_option maxHeartbeats 4000000 in
theorem p1_v66 (W : Valuation τ sig (Elt F)) :
    after (ops1 (F := F)) W (Proc.devRef .tc main_v66) = (cat2 (W (Proc.devRef .tc main_v8)) loopW) := by
  simp only [loopW]
  window_eval

set_option maxRecDepth 65536 in
set_option maxHeartbeats 4000000 in
theorem p1_v81 (W : Valuation τ sig (Elt F)) :
    after (ops1 (F := F)) W (Proc.devRef .tc main_v81) = (dinvOf (degG (cat2 (W (Proc.devRef .tc main_v4)) loopIdx) (cat2 (W (Proc.devRef .tc main_v8)) loopW))) := by
  simp only [dinvOf, degG, nidx, zeros1, loopIdx, loopW]
  window_eval

set_option maxRecDepth 65536 in
set_option maxHeartbeats 4000000 in
theorem p1_v88 (W : Valuation τ sig (Elt F)) :
    after (ops1 (F := F)) W (Proc.devRef .tc main_v88) = Host.gather gather_S1024_S1049600x1_S1049600_n_0_n_n_0_1_1 (dinvOf (degG (cat2 (W (Proc.devRef .tc main_v4)) loopIdx) (cat2 (W (Proc.devRef .tc main_v8)) loopW))) (nidx (cat2 (W (Proc.devRef .tc main_v3)) loopIdx)) := by
  simp only [dinvOf, degG, nidx, zeros1, loopIdx, loopW]
  window_eval

set_option maxRecDepth 65536 in
set_option maxHeartbeats 4000000 in
theorem p1_v90 (W : Valuation τ sig (Elt F)) :
    after (ops1 (F := F)) W (Proc.devRef .tc main_v90) = cmpi .slt (cat2 (W (Proc.devRef .tc main_v4)) loopIdx) (broadcastInDim S1049600 ![] bcast_S_S1049600 (constantI S_ 32 0#32)) := by
  simp only [loopIdx]
  window_eval

/-! ## Window 2: layer 2's norms and aggregation -/

set_option maxRecDepth 65536 in
set_option maxHeartbeats 4000000 in
theorem p2_v114 (W : Valuation τ sig (Elt F)) :
    after (ops2 (F := F)) W (Proc.devRef .tc main_v114)
      = fun i => shapeCast S1x1024x128
          (aggG (dotT (W (Proc.devRef .tc main_v61)) (W (Proc.devRef .tc main_arg4))) (W (Proc.devRef .tc main_v63)) (W (Proc.devRef .tc main_v64))
          (mulf (mulf (W (Proc.devRef .tc main_v88))
            (Host.gather gather_S1024_S1049600x1_S1049600_n_0_n_n_0_1_1 (W (Proc.devRef .tc main_v81))
              (broadcastInDim S1049600x1 ![0] bcast_S1049600_S1049600x1_0
                (select (W (Proc.devRef .tc main_v90))
                  (addi (W (Proc.devRef .tc main_v64)) (broadcastInDim S1049600 ![] bcast_S_S1049600 (constantI S_ 32 1024#32)))
                  (W (Proc.devRef .tc main_v64)))))) (W (Proc.devRef .tc main_v66)))
          (W (Proc.devRef .tc main_arg5)))
          shapeCasts_S1024x128_S1x1024x128 i := by
  simp only [aggG, takeG, dotT, nidx]
  window_eval
  rfl

/-! ## The three windows composed -/

/-- The contents after all the operations: the third window's after the second's after the first's. -/
theorem after_ops (V : Valuation τ sig (Elt F)) :
    after (ops (F := F)) V = after ops2 (after ops1 (after ops0 V)) := by
  show after (ops0 ++ (ops1 ++ ops2)) V = _
  rw [Cert.GraphConv.after_append, Cert.GraphConv.after_append]

/-- The result buffer after all the operations holds `outT` of the argument arrays. -/
theorem out_eq (V : Valuation τ sig (Elt F)) :
    after (ops (F := F)) V (Proc.devRef .tc main_v114)
      = outT (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, p2_v114, p1_v61, p1_v63, p1_v64, p1_v66, p1_v81, p1_v88, p1_v90,
    keep1 (r := main_arg4) (by decide), keep1 (r := main_arg5) (by decide),
    p0_v1, p0_v3, p0_v4, p0_v8, p0_v10, p0_v11, p0_v44,
    keep0 (r := main_arg2) (by decide), keep0 (r := main_arg3) (by decide),
    keep0 (r := main_arg4) (by decide), keep0 (r := main_arg5) (by decide)]
  funext i
  simp only [outT, layerT, aggOf, aggG, takeT, takeG, normOf, degT, degG, rT, cT, wT, loopIdx, loopW, nidx]

end Cert.ReferenceIdeal.Run

namespace Cert.ReferenceIdeal.GcnValue

open Idealize.ShloMosaic Idealize.SL.Sem Idealize.ShloMosaic.StableHlo Cert.ReferenceIdeal
open Cert.ReferenceIdeal.Facts₀ Cert.ReferenceIdeal.Facts

variable [Cert.ReferenceIdeal.Facts]

/-- The reference's run at the ideal instance: the result array is the network of the arguments, which are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v114)
          = Cert.Gcn.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ?_) (Run.run_main m ρ)
  refine ⟨?_, ?_, ?_, ?_, ?_, ?_, ?_⟩
  · rw [h c main_v114, Run.out_eq, Term.outT_eq]
  · rw [h c main_arg0, Run.arg0_eq]
  · rw [h c main_arg1, Run.arg1_eq]
  · rw [h c main_arg2, Run.arg2_eq]
  · rw [h c main_arg3, Run.arg3_eq]
  · rw [h c main_arg4, Run.arg4_eq]
  · rw [h c main_arg5, Run.arg5_eq]

end Cert.ReferenceIdeal.GcnValue

end
-- ==== Proof.lean ====
/-
  The kernel computes a two-layer graph convolution over a dense 0/1 adjacency as a handful of dense matrix products;
  the reference builds the full edge list (one slot per pair of nodes, then one self loop per node) and aggregates by
  gathering and scatter-adding along it. Over the extended reals both are one function of the argument arrays
  (Proof/Spec.lean): the degree of a node is a positive real number whatever the inputs hold, so its inverse square root
  is a non-negative real, and a non-negative real factor distributes over a finite sum of extended reals; everything else
  that separates the two arrangements is the order of a finite sum and of a product.

  The kernel program's result is read off its frame run (Proof/KernelRun.lean over Proof/KernelValue.lean); the
  reference's run is the fold of its listed host operations (Proof/RefRun.lean), its result term named part by part
  (Proof/RefDefs.lean, Proof/RefTerm.lean) and read at an index through the decoded index arrays (Proof/RefIdx.lean),
  the scatters and gathers read at an index (Proof/ScatterAt.lean, Proof/GatherAt.lean) and the sum over the slots of a
  target node (Proof/Slots.lean). The idealization rewrote no operation, so there is nothing to preserve.
-/
import proofs.«140009_g35596688949519_fold_wed_c4_25_2_alg».proof.Defs
import proofs.«140009_g35596688949519_fold_wed_c4_25_2_alg».proof.Proof.Gen.Kernel
import proofs.«140009_g35596688949519_fold_wed_c4_25_2_alg».proof.Proof.Gen.Kernel.Skeleton
import proofs.«140009_g35596688949519_fold_wed_c4_25_2_alg».proof.Proof.Gen.Kernel.Launch
import proofs.«140009_g35596688949519_fold_wed_c4_25_2_alg».proof.Proof.Gen.Kernel.Points
import proofs.«140009_g35596688949519_fold_wed_c4_25_2_alg».proof.Proof.Gen.Kernel.Frame
import proofs.«140009_g35596688949519_fold_wed_c4_25_2_alg».proof.Proof.Gen.KernelIdeal
import proofs.«140009_g35596688949519_fold_wed_c4_25_2_alg».proof.Proof.Gen.KernelIdeal.Skeleton
import proofs.«140009_g35596688949519_fold_wed_c4_25_2_alg».proof.Proof.Gen.KernelIdeal.Launch
import proofs.«140009_g35596688949519_fold_wed_c4_25_2_alg».proof.Proof.Gen.KernelIdeal.Points
import proofs.«140009_g35596688949519_fold_wed_c4_25_2_alg».proof.Proof.Gen.KernelIdeal.Frame
import proofs.«140009_g35596688949519_fold_wed_c4_25_2_alg».proof.Proof.Gen.ReferenceIdeal
import proofs.«140009_g35596688949519_fold_wed_c4_25_2_alg».proof.Proof.Gen.Pre_finite_inputs
import proofs.«140009_g35596688949519_fold_wed_c4_25_2_alg».proof.Proof.KernelRun
import proofs.«140009_g35596688949519_fold_wed_c4_25_2_alg».proof.Proof.RefTerm
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.GcnValue.run m ρ)

/-- Both programs end with the network of their arguments in their result array; the arguments agree. -/
theorem algebraic : Cert.algebraic_KernelIdeal_ReferenceIdeal := by
  intro m ρ m' ρ' _ hagree
  refine ⟨_, Cert.KernelIdeal.GcnValue.run m ρ, ?_⟩
  refine (θ_run Cert.ReferenceIdeal.defs _ _).mono (fun _ h c => ⟨(h c).1.trans ?_, (h c).2⟩)
    (Cert.ReferenceIdeal.GcnValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
